-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S400000x128 : Shape := ⟨2, ![400000, 128]⟩
abbrev S400000x2 : Shape := ⟨2, ![400000, 2]⟩
abbrev S384x128 : Shape := ⟨2, ![384, 128]⟩
abbrev S128 : Shape := ⟨1, ![128]⟩
abbrev S128x384 : Shape := ⟨2, ![128, 384]⟩
abbrev S384 : Shape := ⟨1, ![384]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S400000x128 : S_.BroadcastsInDim S400000x128 (![] : Fin 0 → Fin S400000x128.rank)
  reducesTo_S400000x128_S_d0_1 : S400000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_
  bcast_S_S128x128 : S_.BroadcastsInDim S128x128 (![] : Fin 0 → Fin S128x128.rank)
  reducesTo_S128x128_S_d0_1 : S128x128.ReducesTo [0, 1] S_
  bcast_S_S400000x2 : S_.BroadcastsInDim S400000x2 (![] : Fin 0 → Fin S400000x2.rank)
  reducesTo_S400000x2_S_d0_1 : S400000x2.ReducesTo [0, 1] S_

variable [Facts]

def fn_part3 {F : FTy → Type} [FloatOps F] (main_arg2 : IVec S400000x2 32) (main_v48 : IVec S_ 1) (main_v50 : IVec S400000x2 1) : IVec S_ 1 :=
  let main_c_19 : IVec S_ 1 := constantI S_ 1 1#1
  let main_v51 : IVec S_ 1 := (fun x v => Host.reduce IntOp.andi x v reducesTo_S400000x2_S_d0_1 h_S_) main_v50 main_c_19
  let main_v52 : IVec S_ 1 := andi main_v48 main_v51
  let main_c_20 : IVec S_ 32 := constantI S_ 32 100000#32
  let main_v53 : IVec S400000x2 32 := broadcastInDim S400000x2 ![] bcast_S_S400000x2 main_c_20
  let main_v54 : IVec S400000x2 1 := cmpi .slt main_arg2 main_v53
  let main_c_21 : IVec S_ 1 := constantI S_ 1 1#1
  let main_v55 : IVec S_ 1 := (fun x v => Host.reduce IntOp.andi x v reducesTo_S400000x2_S_d0_1 h_S_) main_v54 main_c_21
  let main_v56 : IVec S_ 1 := andi main_v52 main_v55
  main_v56

def fn_part2 {F : FTy → Type} [FloatOps F] (main_arg2 : IVec S400000x2 32) (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_c_18 : IVec S_ 32 := constantI S_ 32 0#32
  let main_v49 : IVec S400000x2 32 := broadcastInDim S400000x2 ![] bcast_S_S400000x2 main_c_18
  let main_v50 : IVec S400000x2 1 := cmpi .sge main_arg2 main_v49
  fn_part3 (F := F) main_arg2 main_v48 main_v50

def fn_part1 {F : FTy → Type} [FloatOps F] (main_arg2 : IVec S400000x2 32) (main_arg5 : FVec F S128x384 .f32) (main_arg6 : FVec F S384 .f32) (main_arg7 : FVec F S128x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x384 .f32 := Host.absf main_arg5
  let main_cst_6 : FVec F S_ .f32 := constant S_ .f32 0x7F800000#32
  let main_v20 : FVec F S128x384 .f32 := broadcastInDim S128x384 ![] bcast_S_S128x384 main_cst_6
  let main_v21 : IVec S128x384 1 := cmpf .olt main_v19 main_v20
  let main_c_7 : IVec S_ 1 := constantI S_ 1 1#1
  let main_v22 : IVec S_ 1 := (fun x v => Host.reduce IntOp.andi x v reducesTo_S128x384_S_d0_1 h_S_) main_v21 main_c_7
  let main_v23 : IVec S_ 1 := andi main_v18 main_v22
  let main_v24 : FVec F S384 .f32 := Host.absf main_arg6
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg8 main_arg9 main_arg10 main_v33

def fn {F : FTy → Type} [FloatOps F] (main_arg0 : FVec F S100000x128 .f32) (main_arg1 : FVec F S400000x128 .f32) (main_arg2 : IVec S400000x2 32) (main_arg3 : FVec F S384x128 .f32) (main_arg4 : FVec F S128 .f32) (main_arg5 : FVec F S128x384 .f32) (main_arg6 : FVec F S384 .f32) (main_arg7 : FVec F S128x128 .f32) (main_arg8 : FVec F S128 .f32) (main_arg9 : FVec F S128x128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S384x128 .f32 := Host.absf main_arg3
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_v13 main_v16
-- ==== Kernel.lean ====
abbrev S100000x128 : Shape := ⟨2, ![100000, 128]⟩
abbrev S400000x128 : Shape := ⟨2, ![400000, 128]⟩
abbrev S400000x2 : Shape := ⟨2, ![400000, 2]⟩
abbrev S384x128 : Shape := ⟨2, ![384, 128]⟩
abbrev S128 : Shape := ⟨1, ![128]⟩
abbrev S128x384 : Shape := ⟨2, ![128, 384]⟩
abbrev S384 : Shape := ⟨1, ![384]⟩
abbrev S128x128 : Shape := ⟨2, ![128, 128]⟩
abbrev S400000x1 : Shape := ⟨2, ![400000, 1]⟩
abbrev S400000 : Shape := ⟨1, ![400000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S1x128 : Shape := ⟨2, ![1, 128]⟩
abbrev S1x384 : Shape := ⟨2, ![1, 384]⟩
abbrev S5000x128 : Shape := ⟨2, ![5000, 128]⟩
abbrev S5000x384 : Shape := ⟨2, ![5000, 384]⟩
abbrev S100000 : Shape := ⟨1, ![100000]⟩
abbrev S100000x1 : Shape := ⟨2, ![100000, 1]⟩
abbrev S20000x128 : Shape := ⟨2, ![20000, 128]⟩

abbrev nBuf : Space → Nat
  | .hbm => 76
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S400000x128, .f32⟩
  | .hbm, ⟨2, _⟩ => ⟨S400000x2, .i32⟩
  | .hbm, ⟨3, _⟩ => ⟨S384x128, .f32⟩
  | .hbm, ⟨4, _⟩ => ⟨S128, .f32⟩
  | .hbm, ⟨5, _⟩ => ⟨S128x384, .f32⟩
  | .hbm, ⟨6, _⟩ => ⟨S384, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S400000x1, .i32⟩
  | .hbm, ⟨12, _⟩ => ⟨S400000, .i32⟩
  | .hbm, ⟨13, _⟩ => ⟨S400000x1, .i32⟩
  | .hbm, ⟨14, _⟩ => ⟨S400000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S1, .i32⟩
  | .hbm, ⟨25, _⟩ => ⟨S_, .i32⟩
  | .hbm, ⟨26, _⟩ => ⟨S800000x1, .i32⟩
  | .hbm, ⟨27, _⟩ => ⟨S800000x1, .i1⟩
  | .hbm, ⟨28, _⟩ => ⟨S1x1, .i32⟩
  | .hbm, ⟨29, _⟩ => ⟨S800000x1, .i32⟩
  | .hbm, ⟨30, _⟩ => ⟨S800000x1, .i1⟩
  | .hbm, ⟨31, _⟩ => ⟨S800000x1, .i1⟩
  | .hbm, ⟨32, _⟩ => ⟨S_, .i1⟩
  | .hbm, ⟨33, _⟩ => ⟨S800000, .i1⟩
  | .hbm, ⟨34, _⟩ => ⟨S800000x128, .f32⟩
  | .hbm, ⟨35, _⟩ => ⟨S800000x128, .i1⟩
  | .hbm, ⟨36, _⟩ => ⟨S_, .f32⟩
  | .hbm, ⟨37, _⟩ => ⟨S800000x128, .f32⟩
  | .hbm, ⟨38, _⟩ => ⟨S800000x128, .f32⟩
  | .hbm, ⟨39, _⟩ => ⟨S128x128, .f32⟩
  | .hbm, ⟨40, _⟩ => ⟨S128x128, .f32⟩
  | .hbm, ⟨41, _⟩ => ⟨S128x128, .f32⟩
  | .hbm, ⟨42, _⟩ => ⟨S1x128, .f32⟩
  | .hbm, ⟨43, _⟩ => ⟨S1x384, .f32⟩
  | .hbm, ⟨44, _⟩ => ⟨S400000x128, .f32⟩
  | .hbm, ⟨45, _⟩ => ⟨S400000x128, .f32⟩
  | .hbm, ⟨46, _⟩ => ⟨S400000x128, .f32⟩
  | .hbm, ⟨47, _⟩ => ⟨S_, .f32⟩
  | .hbm, ⟨48, _⟩ => ⟨S100000x128, .f32⟩
  | .hbm, ⟨49, _⟩ => ⟨S400000x1, .i32⟩
  | .hbm, ⟨50, _⟩ => ⟨S100000x128, .f32⟩
  | .hbm, ⟨51, _⟩ => ⟨S_, .f32⟩
  | .hbm, ⟨52, _⟩ => ⟨S100000x128, .f32⟩
  | .hbm, ⟨53, _⟩ => ⟨S400000x1, .i32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S400000, .f32⟩
  | .hbm, ⟨58, _⟩ => ⟨S_, .f32⟩
  | .hbm, ⟨59, _⟩ => ⟨S100000, .f32⟩
  | .hbm, ⟨60, _⟩ => ⟨S400000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S400000x1, .i32⟩
  | .hbm, ⟨65, _⟩ => ⟨S100000, .f32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S1x128, .f32⟩
  | .hbm, ⟨75, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S128x384, .f32⟩
  | .local _ .vmem, ⟨11, _⟩ => ⟨S1x384, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S20000x128, .f32⟩
  | .local _ .vmem, ⟨19, _⟩ => ⟨S20000x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S20000x128, .f32⟩
  | .local _ .vmem, ⟨25, _⟩ => ⟨S20000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11_0 : Ref sig .tc := ⟨.hbm, 44, rfl⟩
abbrev main_v11_1 : Ref sig .tc := ⟨.hbm, 45, rfl⟩
abbrev main_v11_2 : Ref sig .tc := ⟨.hbm, 46, rfl⟩
abbrev main_cst : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_cst_0 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_cst_1 : Ref sig .tc := ⟨.hbm, 56, rfl⟩
abbrev main_v19 : Ref sig .tc := ⟨.hbm, 57, rfl⟩
abbrev main_cst_2 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_cst_3 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_cst_4 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem5_1 : DmaSem sig := 25

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c80_i32 : BitVec 32 := 80#32
  let v0 : BitVec 32 := Scalar.addi arg0 c80_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S5000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S5000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S20000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S400000x2_S400000x1_0_0 : S400000x2.Slices ![0, 0] S400000x1
  shapeCasts_S400000x1_S400000 : S400000x1.ShapeCasts S400000
  slices_S400000x2_S400000x1_0_1 : S400000x2.Slices ![0, 1] S400000x1
  concatenates_S400000_S400000_S800000_d0 : Shape.Concatenates [S400000, S400000] S800000 0
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128_S1x128 : S128.ShapeCasts S1x128
  shapeCasts_S384_S1x384 : S384.ShapeCasts S1x384
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x384_S128x384_0_0 : ∀ a, (![0, 0] : Fin 2 → Nat) a + S128x384.size a ≤ S128x384.size a
  h_S128x384 : 0 < S128x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S5000x384 : S1x384.Broadcasts S5000x384
  slices_S5000x384_o0_0_S5000x128 : S5000x384.Slices ![0, 0] S5000x128
  slices_S5000x384_o0_128_S5000x128 : S5000x384.Slices ![0, 128] S5000x128
  slices_S5000x384_o0_256_S5000x128 : S5000x384.Slices ![0, 256] S5000x128
  bcast_S_S100000x128 : S_.BroadcastsInDim S100000x128 (![] : Fin 0 → Fin S100000x128.rank)
  bcast_S400000_S400000x1_0 : S400000.BroadcastsInDim S400000x1 (![0] : Fin 1 → Fin S400000x1.rank)
  bcast_S_S400000 : S_.BroadcastsInDim S400000 (![] : Fin 0 → Fin S400000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S20000x128_S20000x128_0_0 : ∀ a, (![0, 0] : Fin 2 → Nat) a + S20000x128.size a ≤ S20000x128.size a
  h_S20000x128 : 0 < S20000x128.numel
  shapeCasts_S20000x128_S20000x128 : S20000x128.ShapeCasts S20000x128
  broadcasts_S1x128_S20000x128 : S1x128.Broadcasts S20000x128
  gather_S100000x128_S800000x1_S800000x128_1_0_n_n_0_1_1128_wf : GatherDims.WF S100000x128 S800000x1 S800000x128 [1] [0] [] [0] [] 1 ![1, 128]
  dot_S5000x128_S128x128_S5000x128_1_0_0_1_n_n_wf : DotDims.WF S5000x128 S128x128 S5000x128 [1] [0] [0] [1] [] []
  dot_S5000x128_S128x384_S5000x384_1_0_0_1_n_n_wf : DotDims.WF S5000x128 S128x384 S5000x384 [1] [0] [0] [1] [] []
  scatter_S100000x128_S400000x1_S400000x128_1_0_0_1_wf : ScatterDims.WF S100000x128 S400000x1 S400000x128 [1] [0] [0] 1
  scatter_S100000_S400000x1_S400000_n_0_0_1_wf : ScatterDims.WF S100000 S400000x1 S400000 [] [0] [0] 1
  dot_S20000x128_S128x128_S20000x128_1_0_0_1_n_n_wf : DotDims.WF S20000x128 S128x128 S20000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S800000x128.size a
  hwx0_0 : ∀ i : grid0.Coords, EltTy.bits .f32 = 32 ∨ (Rect.block (s := S800000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S400000x128.size a
  hwx0_1 : ∀ i : grid0.Coords, EltTy.bits .f32 = 32 ∨ (Rect.block (s := S400000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S800000x128.size a
  hwx0_2 : ∀ i : grid0.Coords, EltTy.bits .f32 = 32 ∨ (Rect.block (s := S800000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x384.size a ≤ S128x384.size a
  hwx0_7 : ∀ i : grid0.Coords, EltTy.bits .f32 = 32 ∨ (Rect.block (s := S128x384) S128x384.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x384.size a ≤ S1x384.size a
  hwx0_8 : ∀ i : grid0.Coords, EltTy.bits .f32 = 32 ∨ (Rect.block (s := S1x384) S1x384.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S400000x128.size a
  hwx0_9 : ∀ i : grid0.Coords, EltTy.bits .f32 = 32 ∨ (Rect.block (s := S400000x128) S5000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x128.size a ≤ S400000x128.size a
  hwx0_10 : ∀ i : grid0.Coords, EltTy.bits .f32 = 32 ∨ (Rect.block (s := S400000x128) S5000x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x128.size a ≤ S400000x128.size a
  hwx0_11 : ∀ i : grid0.Coords, EltTy.bits .f32 = 32 ∨ (Rect.block (s := S400000x128) S5000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x128.size a ≤ S100000x128.size a
  hwx1_0 : ∀ i : grid1.Coords, EltTy.bits .f32 = 32 ∨ (Rect.block (s := S100000x128) S20000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S20000x128.size a ≤ S100000x128.size a
  hwx1_5 : ∀ i : grid1.Coords, EltTy.bits .f32 = 32 ∨ (Rect.block (s := S100000x128) S20000x128.size (cc1_transform_5 i) (hinb1_5 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x384_S5000x384_1_0_0_1_n_n : DotDims S5000x128 S128x384 S5000x384 where
  lhsContracting := [1]
  rhsContracting := [0]
  lhsNonContracting := [0]
  rhsNonContracting := [1]
  lhsBatch := []
  rhsBatch := []
  wf := dot_S5000x128_S128x384_S5000x384_1_0_0_1_n_n_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf

abbrev win0_0 : Pipeline.Window sig grid0 :=
  Pipeline.Window.ofSpec (Memref.whole main_v5) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11_0) S5000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v11_1) S5000x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v11_2) S5000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v31) S20000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S20000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S400000x128 : Shape := ⟨2, ![400000, 128]⟩
abbrev S400000x2 : Shape := ⟨2, ![400000, 2]⟩
abbrev S384x128 : Shape := ⟨2, ![384, 128]⟩
abbrev S128 : Shape := ⟨1, ![128]⟩
abbrev S128x384 : Shape := ⟨2, ![128, 384]⟩
abbrev S384 : Shape := ⟨1, ![384]⟩
abbrev S128x128 : Shape := ⟨2, ![128, 128]⟩
abbrev S400000x1 : Shape := ⟨2, ![400000, 1]⟩
abbrev S400000 : Shape := ⟨1, ![400000]⟩
abbrev S_ : Shape := ⟨0, ![]⟩
abbrev S400000x384 : Shape := ⟨2, ![400000, 384]⟩
abbrev S1x128 : Shape := ⟨2, ![1, 128]⟩
abbrev S1x384 : Shape := ⟨2, ![1, 384]⟩
abbrev S100000 : Shape := ⟨1, ![100000]⟩
abbrev S100000x1 : Shape := ⟨2, ![100000, 1]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S400000x128, .f32⟩
  | .hbm, ⟨2, _⟩ => ⟨S400000x2, .i32⟩
  | .hbm, ⟨3, _⟩ => ⟨S384x128, .f32⟩
  | .hbm, ⟨4, _⟩ => ⟨S128, .f32⟩
  | .hbm, ⟨5, _⟩ => ⟨S128x384, .f32⟩
  | .hbm, ⟨6, _⟩ => ⟨S384, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S400000x1, .i32⟩
  | .hbm, ⟨12, _⟩ => ⟨S400000, .i32⟩
  | .hbm, ⟨13, _⟩ => ⟨S400000x1, .i32⟩
  | .hbm, ⟨14, _⟩ => ⟨S400000, .i32⟩
  | .hbm, ⟨15, _⟩ => ⟨S_, .i32⟩
  | .hbm, ⟨16, _⟩ => ⟨S400000, .i32⟩
  | .hbm, ⟨17, _⟩ => ⟨S400000, .i1⟩
  | .hbm, ⟨18, _⟩ => ⟨S_, .i32⟩
  | .hbm, ⟨19, _⟩ => ⟨S400000, .i32⟩
  | .hbm, ⟨20, _⟩ => ⟨S400000, .i32⟩
  | .hbm, ⟨21, _⟩ => ⟨S400000, .i32⟩
  | .hbm, ⟨22, _⟩ => ⟨S400000x1, .i32⟩
  | .hbm, ⟨23, _⟩ => ⟨S400000x128, .f32⟩
  | .hbm, ⟨24, _⟩ => ⟨S_, .i32⟩
  | .hbm, ⟨25, _⟩ => ⟨S400000, .i32⟩
  | .hbm, ⟨26, _⟩ => ⟨S400000, .i1⟩
  | .hbm, ⟨27, _⟩ => ⟨S_, .i32⟩
  | .hbm, ⟨28, _⟩ => ⟨S400000, .i32⟩
  | .hbm, ⟨29, _⟩ => ⟨S400000, .i32⟩
  | .hbm, ⟨30, _⟩ => ⟨S400000, .i32⟩
  | .hbm, ⟨31, _⟩ => ⟨S400000x1, .i32⟩
  | .hbm, ⟨32, _⟩ => ⟨S400000x128, .f32⟩
  | .hbm, ⟨33, _⟩ => ⟨S400000x384, .f32⟩
  | .hbm, ⟨34, _⟩ => ⟨S400000x128, .f32⟩
  | .hbm, ⟨35, _⟩ => ⟨S1x128, .f32⟩
  | .hbm, ⟨36, _⟩ => ⟨S400000x128, .f32⟩
  | .hbm, ⟨37, _⟩ => ⟨S400000x128, .f32⟩
  | .hbm, ⟨38, _⟩ => ⟨S_, .f32⟩
  | .hbm, ⟨39, _⟩ => ⟨S400000x128, .f32⟩
  | .hbm, ⟨40, _⟩ => ⟨S400000x128, .f32⟩
  | .hbm, ⟨41, _⟩ => ⟨S400000x384, .f32⟩
  | .hbm, ⟨42, _⟩ => ⟨S1x384, .f32⟩
  | .hbm, ⟨43, _⟩ => ⟨S400000x384, .f32⟩
  | .hbm, ⟨44, _⟩ => ⟨S400000x384, .f32⟩
  | .hbm, ⟨45, _⟩ => ⟨S400000x128, .f32⟩
  | .hbm, ⟨46, _⟩ => ⟨S400000x128, .f32⟩
  | .hbm, ⟨47, _⟩ => ⟨S400000x128, .f32⟩
  | .hbm, ⟨48, _⟩ => ⟨S_, .f32⟩
  | .hbm, ⟨49, _⟩ => ⟨S100000x128, .f32⟩
  | .hbm, ⟨50, _⟩ => ⟨S400000x1, .i32⟩
  | .hbm, ⟨51, _⟩ => ⟨S100000x128, .f32⟩
  | .hbm, ⟨52, _⟩ => ⟨S_, .f32⟩
  | .hbm, ⟨53, _⟩ => ⟨S100000x128, .f32⟩
  | .hbm, ⟨54, _⟩ => ⟨S400000x1, .i32⟩
  | .hbm, ⟨55, _⟩ => ⟨S100000x128, .f32⟩
  | .hbm, ⟨56, _⟩ => ⟨S100000x128, .f32⟩
  | .hbm, ⟨57, _⟩ => ⟨S_, .f32⟩
  | .hbm, ⟨58, _⟩ => ⟨S400000, .f32⟩
  | .hbm, ⟨59, _⟩ => ⟨S_, .f32⟩
  | .hbm, ⟨60, _⟩ => ⟨S100000, .f32⟩
  | .hbm, ⟨61, _⟩ => ⟨S400000x1, .i32⟩
  | .hbm, ⟨62, _⟩ => ⟨S100000, .f32⟩
  | .hbm, ⟨63, _⟩ => ⟨S_, .f32⟩
  | .hbm, ⟨64, _⟩ => ⟨S100000, .f32⟩
  | .hbm, ⟨65, _⟩ => ⟨S400000x1, .i32⟩
  | .hbm, ⟨66, _⟩ => ⟨S100000, .f32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S100000x1, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_call1_cst : Ref sig .tc := ⟨.hbm, 78, rfl⟩
abbrev main_call1_v0 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩

abbrev nD : Nat := 1
abbrev τ : Topo := Topo.v7x

variable {F : FTy → Type} [FloatOps F]

class Facts₀ : Prop where
  slices_S400000x2_S400000x1_0_0 : S400000x2.Slices ![0, 0] S400000x1
  shapeCasts_S400000x1_S400000 : S400000x1.ShapeCasts S400000
  slices_S400000x2_S400000x1_0_1 : S400000x2.Slices ![0, 1] S400000x1
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x128_S400000x384_d1 : Shape.Concatenates [S400000x128, S400000x128, S400000x128] S400000x384 1
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S384_S1x384_1 : S384.BroadcastsInDim S1x384 (![1] : Fin 1 → Fin S1x384.rank)
  bcast_S1x384_S400000x384_0_1 : S1x384.BroadcastsInDim S400000x384 (![0, 1] : Fin 2 → Fin S400000x384.rank)
  slices_S400000x384_S400000x128_0_0 : S400000x384.Slices ![0, 0] S400000x128
  slices_S400000x384_S400000x128_0_128 : S400000x384.Slices ![0, 128] S400000x128
  slices_S400000x384_S400000x128_0_256 : S400000x384.Slices ![0, 256] S400000x128
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  gather_S100000x128_S400000x1_S400000x128_1_0_n_n_0_1_1128_wf : GatherDims.WF S100000x128 S400000x1 S400000x128 [1] [0] [] [0] [] 1 ![1, 128]
  dot_S400000x384_S384x128_S400000x128_1_0_0_1_n_n_wf : DotDims.WF S400000x384 S384x128 S400000x128 [1] [0] [0] [1] [] []
  dot_S400000x128_S128x384_S400000x384_1_0_0_1_n_n_wf : DotDims.WF S400000x128 S128x384 S400000x384 [1] [0] [0] [1] [] []
  scatter_S100000x128_S400000x1_S400000x128_1_0_0_1_wf : ScatterDims.WF S100000x128 S400000x1 S400000x128 [1] [0] [0] 1
  scatter_S100000_S400000x1_S400000_n_0_0_1_wf : ScatterDims.WF S100000 S400000x1 S400000 [] [0] [0] 1
  dot_S100000x128_S128x128_S100000x128_1_0_0_1_n_n_wf : DotDims.WF S100000x128 S128x128 S100000x128 [1] [0] [0] [1] [] []

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def dot_S400000x384_S384x128_S400000x128_1_0_0_1_n_n : DotDims S400000x384 S384x128 S400000x128 where
  lhsContracting := [1]
  rhsContracting := [0]
  lhsNonContracting := [0]
  rhsNonContracting := [1]
  lhsBatch := []
  rhsBatch := []
  wf := dot_S400000x384_S384x128_S400000x128_1_0_0_1_n_n_wf
def dot_S400000x128_S128x384_S400000x384_1_0_0_1_n_n : DotDims S400000x128 S128x384 S400000x384 where
  lhsContracting := [1]
  rhsContracting := [0]
  lhsNonContracting := [0]
  rhsNonContracting := [1]
  lhsBatch := []
  rhsBatch := []
  wf := dot_S400000x128_S128x384_S400000x384_1_0_0_1_n_n_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RefImports.lean ====
/-
  The reference program's run and its read-at-an-index lemmas, brought into scope for the modules that
  compare the kernel's result arrays with the reference's, operation by operation.
-/
import proofs.«419366_j60232621359657_3_alg».proof.Proof.Gen.ReferenceIdeal.Run
import proofs.«419366_j60232621359657_3_alg».proof.Proof.Gen.ReferenceIdeal.Read
-- ==== Proof.Bits.Net1Body.lean ====
/- The edge network's body half: the first TensorCore call of the printed program (pipeline 0, 80 points,
   twelve windows), at a PARAMETER V — the TensorCore's buffer contents when the call is entered.
   Each window's block at a point (iblk), what the body leaves in the three output buffers as closed
   functions of the nine input blocks (out9, out10, out11), the body's triple on whole staging memrefs
   (sound_kernel), the proof data (dat) and the body obligation at every point (body_obligation).
   Windows 0 and 2 read one array: each holds half of its share. -/
import proofs.«419366_j60232621359657_3_alg».proof.Proof.Gen.Kernel.Launch
import proofs.«419366_j60232621359657_3_alg».proof.Proof.Gen.Kernel.Skeleton
import proofs.«419366_j60232621359657_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate
set_option maxRecDepth 16384

noncomputable section

namespace Cert.Kernel.Net1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window w's block at point t, read off its array as the call finds it (V). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not, for ANY
    proof data whose array is V's (hA) and whose body leaves the block in place (hafter): unfetched, the
    block index has not moved. The row windows 0, 1, 2 are fetched at every point, the weight windows 3 to 8
    at the first point only; the windows are uncut and never idle, so one argument serves all nine. -/

theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before_7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before_8_of {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and every store goes through its buffer's whole-block rectangle -/

abbrev rB : Rect S5000x128 := Rect.unit (s := S5000x128) ![0, 0] S5000x128.size inb_S5000x128_S5000x128_0_0
abbrev rW : Rect S128x128 := Rect.unit (s := S128x128) ![0, 0] S128x128.size inb_S128x128_S128x128_0_0
abbrev rb : Rect S1x128 := Rect.unit (s := S1x128) ![0, 0] S1x128.size inb_S1x128_S1x128_0_0
abbrev rW2 : Rect S128x384 := Rect.unit (s := S128x384) ![0, 0] S128x384.size inb_S128x384_S128x384_0_0
abbrev rb2 : Rect S1x384 := Rect.unit (s := S1x384) ![0, 0] S1x384.size inb_S1x384_S1x384_0_0

/-! ## What the body leaves in each output window's buffer: one store of one piece over the whole block -/

/-- Window 9's buffer after the body: the first 128 columns of the second layer's 384, from the nine loads as the body reads them. -/
def out9 (x0 x1 x2 : Vec F S5000x128 .f32) (x3 x4 x5 : Vec F S128x128 .f32) (x6 : Vec F S1x128 .f32) (x7 : Vec F S128x384 .f32) (x8 : Vec F S1x384 .f32) : Vec F S5000x128 .f32 :=
  View.canon [⟨rB, k0_pay3 (View.ld x0 rB) (View.ld x1 rB) (View.ld x2 rB) (View.ld x3 rW) (View.ld x4 rW) (View.ld x5 rW) (View.ld x6 rb) (View.ld x7 rW2) (View.ld x8 rb2)⟩]

/-- Window 10's buffer after the body: the middle 128 columns. -/
def out10 (x0 x1 x2 : Vec F S5000x128 .f32) (x3 x4 x5 : Vec F S128x128 .f32) (x6 : Vec F S1x128 .f32) (x7 : Vec F S128x384 .f32) (x8 : Vec F S1x384 .f32) : Vec F S5000x128 .f32 :=
  View.canon [⟨rB, k0_pay4 (View.ld x0 rB) (View.ld x1 rB) (View.ld x2 rB) (View.ld x3 rW) (View.ld x4 rW) (View.ld x5 rW) (View.ld x6 rb) (View.ld x7 rW2) (View.ld x8 rb2)⟩]

/-- Window 11's buffer after the body: the last 128 columns. -/
def out11 (x0 x1 x2 : Vec F S5000x128 .f32) (x3 x4 x5 : Vec F S128x128 .f32) (x6 : Vec F S1x128 .f32) (x7 : Vec F S128x384 .f32) (x8 : Vec F S1x384 .f32) : Vec F S5000x128 .f32 :=
  View.canon [⟨rB, k0_pay1 (k0_pay2 (View.ld x0 rB) (View.ld x1 rB) (View.ld x2 rB) (View.ld x3 rW) (View.ld x4 rW) (View.ld x5 rW) (View.ld x6 rb) (View.ld x7 rW2) (View.ld x8 rb2))⟩]

/-- One piece over the whole-block rectangle tiles the buffer (checked by evaluation), so it covers it. -/
theorem coverB (p0 : Vec F S5000x128 .f32) (y : S5000x128.Idx) :
    ∃ pc ∈ ([⟨rB, p0⟩] : List (View.Piece (Elt F) S5000x128 .f32)), y ∈ pc.1.set :=
  View.cover_of_tiled [⟨rB, p0⟩] S5000x128.size (by rfl) y

/-! ## The pipeline's proof data -/

/-- The proof data of pipeline 0 on core c: the arrays as the call finds them (V); after the body at point t
    each input's buffer at its block and each output's at its closed form of the nine input blocks; the
    invariant the plain class's (the scoped rest and the generator register, untouched); nothing owed; full
    shares, but for windows 0 and 2, which read one array and hold a half of its share each. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => out9 (iblk V c 0 t) (iblk V c 1 t) (iblk V c 2 t) (iblk V c 3 t) (iblk V c 4 t) (iblk V c 5 t) (iblk V c 6 t) (iblk V c 7 t) (iblk V c 8 t)
    | ⟨10, _⟩ => out10 (iblk V c 0 t) (iblk V c 1 t) (iblk V c 2 t) (iblk V c 3 t) (iblk V c 4 t) (iblk V c 5 t) (iblk V c 6 t) (iblk V c 7 t) (iblk V c 8 t)
    | ⟨11, _⟩ => out11 (iblk V c 0 t) (iblk V c 1 t) (iblk V c 2 t) (iblk V c 3 t) (iblk V c 4 t) (iblk V c 5 t) (iblk V c 6 t) (iblk V c 7 t) (iblk V c 8 t)
  Φ _ := Pipeline.ΦA spec0 c
  q w := match w with
    | ⟨0, _⟩ => fullShare.left
    | ⟨1, _⟩ => fullShare
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
  owed _ := 0

/-- The proof data's arrays are the entry contents. -/
theorem A_eq (c : Dev nD) (w : Fin cfg0.W) : (dat V c).A w = V c (Pipeline.arrRef spec0 w) := by
  dsimp only [dat]

/-- The shares: a half each for the two windows on one array, full elsewhere. -/
theorem q_0 (c : Dev nD) : (dat V c).q 0 = fullShare.left := by dsimp only [dat]
theorem q_2 (c : Dev nD) : (dat V c).q 2 = fullShare.right := by dsimp only [dat]
theorem q_full (c : Dev nD) (w : Fin cfg0.W) (h0 : w ≠ 0) (h2 : w ≠ 2) : (dat V c).q w = fullShare := by
  match w, h0, h2 with
  | ⟨0, _⟩, h0, _ => exact absurd rfl h0
  | ⟨1, _⟩, _, _ => dsimp only [dat]
  | ⟨2, _⟩, _, h2 => exact absurd rfl h2
  | ⟨3, _⟩, _, _ => dsimp only [dat]
  | ⟨4, _⟩, _, _ => dsimp only [dat]
  | ⟨5, _⟩, _, _ => dsimp only [dat]
  | ⟨6, _⟩, _, _ => dsimp only [dat]
  | ⟨7, _⟩, _, _ => dsimp only [dat]
  | ⟨8, _⟩, _, _ => dsimp only [dat]
  | ⟨9, _⟩, _, _ => dsimp only [dat]
  | ⟨10, _⟩, _, _ => dsimp only [dat]
  | ⟨11, _⟩, _, _ => dsimp only [dat]

/-- What the body leaves, window by window (the proof data's match reduced by dsimp). -/
theorem after_in0 (c : Dev nD) (t : Fin cfg0.N) : (dat V c).after 0 t = iblk V c 0 t := by dsimp only [dat]
theorem after_in1 (c : Dev nD) (t : Fin cfg0.N) : (dat V c).after 1 t = iblk V c 1 t := by dsimp only [dat]
theorem after_in2 (c : Dev nD) (t : Fin cfg0.N) : (dat V c).after 2 t = iblk V c 2 t := by dsimp only [dat]
theorem after_in3 (c : Dev nD) (t : Fin cfg0.N) : (dat V c).after 3 t = iblk V c 3 t := by dsimp only [dat]
theorem after_in4 (c : Dev nD) (t : Fin cfg0.N) : (dat V c).after 4 t = iblk V c 4 t := by dsimp only [dat]
theorem after_in5 (c : Dev nD) (t : Fin cfg0.N) : (dat V c).after 5 t = iblk V c 5 t := by dsimp only [dat]
theorem after_in6 (c : Dev nD) (t : Fin cfg0.N) : (dat V c).after 6 t = iblk V c 6 t := by dsimp only [dat]
theorem after_in7 (c : Dev nD) (t : Fin cfg0.N) : (dat V c).after 7 t = iblk V c 7 t := by dsimp only [dat]
theorem after_in8 (c : Dev nD) (t : Fin cfg0.N) : (dat V c).after 8 t = iblk V c 8 t := by dsimp only [dat]
theorem after9 (c : Dev nD) (t : Fin cfg0.N) : (dat V c).after 9 t = out9 (iblk V c 0 t) (iblk V c 1 t) (iblk V c 2 t) (iblk V c 3 t) (iblk V c 4 t) (iblk V c 5 t) (iblk V c 6 t) (iblk V c 7 t) (iblk V c 8 t) := by dsimp only [dat]
theorem after10 (c : Dev nD) (t : Fin cfg0.N) : (dat V c).after 10 t = out10 (iblk V c 0 t) (iblk V c 1 t) (iblk V c 2 t) (iblk V c 3 t) (iblk V c 4 t) (iblk V c 5 t) (iblk V c 6 t) (iblk V c 7 t) (iblk V c 8 t) := by dsimp only [dat]
theorem after11 (c : Dev nD) (t : Fin cfg0.N) : (dat V c).after 11 t = out11 (iblk V c 0 t) (iblk V c 1 t) (iblk V c 2 t) (iblk V c 3 t) (iblk V c 4 t) (iblk V c 5 t) (iblk V c 6 t) (iblk V c 7 t) (iblk V c 8 t) := by dsimp only [dat]

/-- Nothing is owed at any point. -/
theorem owed_zero (c : Dev nD) (t) : (dat V c).owed t = 0 := rfl

/-- Each input's current staging buffer holds its block at every point, fetched there or not. -/
theorem before_0 (c : Dev nD) (t : Fin cfg0.N) (d) : (dat V c).before 0 t d = iblk V c 0 t :=
  before_0_of V (dat V c) (A_eq V c 0) (after_in0 V c) t d
theorem before_1 (c : Dev nD) (t : Fin cfg0.N) (d) : (dat V c).before 1 t d = iblk V c 1 t :=
  before_1_of V (dat V c) (A_eq V c 1) (after_in1 V c) t d
theorem before_2 (c : Dev nD) (t : Fin cfg0.N) (d) : (dat V c).before 2 t d = iblk V c 2 t :=
  before_2_of V (dat V c) (A_eq V c 2) (after_in2 V c) t d
theorem before_3 (c : Dev nD) (t : Fin cfg0.N) (d) : (dat V c).before 3 t d = iblk V c 3 t :=
  before_3_of V (dat V c) (A_eq V c 3) (after_in3 V c) t d
theorem before_4 (c : Dev nD) (t : Fin cfg0.N) (d) : (dat V c).before 4 t d = iblk V c 4 t :=
  before_4_of V (dat V c) (A_eq V c 4) (after_in4 V c) t d
theorem before_5 (c : Dev nD) (t : Fin cfg0.N) (d) : (dat V c).before 5 t d = iblk V c 5 t :=
  before_5_of V (dat V c) (A_eq V c 5) (after_in5 V c) t d
theorem before_6 (c : Dev nD) (t : Fin cfg0.N) (d) : (dat V c).before 6 t d = iblk V c 6 t :=
  before_6_of V (dat V c) (A_eq V c 6) (after_in6 V c) t d
theorem before_7 (c : Dev nD) (t : Fin cfg0.N) (d) : (dat V c).before 7 t d = iblk V c 7 t :=
  before_7_of V (dat V c) (A_eq V c 7) (after_in7 V c) t d
theorem before_8 (c : Dev nD) (t : Fin cfg0.N) (d) : (dat V c).before 8 t d = iblk V c 8 t :=
  before_8_of V (dat V c) (A_eq V c 8) (after_in8 V c) t d

/-! ## The body's triple -/

set_option maxHeartbeats 1000000 in
/-- The kernel body on whole staging memrefs, the nine inputs' at read contents x0 to x8 and the three outputs' at
    anything, runs to the continuation holding the inputs' as they were and the outputs' at out9, out10, out11 of
    the inputs': the printed function and its part are their skeletons, which are run as one straight line of
    nine loads, three dead loads and three whole-block stores. -/
theorem sound_kernel (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S128x384 .f32) (harg8 : arg8.IsWhole)
    (arg9 : Memref sig .tc .vmem S1x384 .f32) (harg9 : arg9.IsWhole) (arg10 : Memref sig .tc .vmem S5000x128 .f32) (harg10 : arg10.IsWhole)
    (arg11 : Memref sig .tc .vmem S5000x128 .f32) (harg11 : arg11.IsWhole) (arg12 : Memref sig .tc .vmem S5000x128 .f32) (harg12 : arg12.IsWhole)
    (x0 x1 x2 : Vec F S5000x128 .f32) (x3 x4 x5 : Vec F S128x128 .f32) (x6 : Vec F S1x128 .f32) (x7 : Vec F S128x384 .f32) (x8 : Vec F S1x384 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (out9 x0 x1 x2 x3 x4 x5 x6 x7 x8)
            ∗ owns (c : Thread nD τ) arg11 fullShare (out10 x0 x1 x2 x3 x4 x5 x6 x7 x8)
            ∗ owns (c : Thread nD τ) arg12 fullShare (out11 x0 x1 x2 x3 x4 x5 x6 x7 x8)) -∗ K ⟨⟩))
      ⊢ wp frame (wpE (defs₀ (F := F)) Variants.none c none) E
          (cc0__net1_kernel i arg1 harg1 arg2 harg2 arg3 harg3 arg4 harg4 arg5 harg5 arg6 harg6 arg7 harg7 arg8 harg8 arg9 harg9 arg10 harg10 arg11 harg11 arg12 harg12) K := by
  simp only [cc0__net1_kernel_eq_skeleton]; unfold cc0__net1_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (coverB _)
  isplitl [H10]
  · iexists _; isplitr
    swap; · iexact H10
    ipureintro
    exact View.read_writes_eq_canon _ _ _ (coverB _)
  iexists _; isplitr
  swap; · iexact H11
  ipureintro
  exact View.read_writes_eq_canon _ _ _ (coverB _)

/-! ## The body obligation, at a generic point -/

/-- What the body is called with at point t (the body obligation's precondition, the windows one by one), -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d))
    ∗ (∃ d, owns (c : Thread nD τ) (st0_11 t) fullShare ((dat V c).before 11 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t)
    ∗ owns (c : Thread nD τ) (st0_11 t) fullShare ((dat V c).after 11 t))

/-- The body at any point: the inputs' memrefs hold their blocks (before_0 to before_8), so sound_kernel applies; the
    invariant and the core's owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8]
  rw [show (dat V c).Φ t.succ = (dat V c).Φ t.castSucc from rfl,
    show (dat V c).owesAt () t.succ = (dat V c).owesAt () t.castSucc from rfl,
    after_in0, after_in1, after_in2, after_in3, after_in4, after_in5, after_in6, after_in7, after_in8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _
    (iblk V c 0 t) (iblk V c 1 t) (iblk V c 2 t) (iblk V c 3 t) (iblk V c 4 t) (iblk V c 5 t) (iblk V c 6 t) (iblk V c 7 t) (iblk V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Net1

end
-- ==== Proof.Bits.SharedArray.lean ====
/-
  One array behind two windows.

  The edge network's twelve windows stand on ELEVEN distinct buffers: the gathered object rows are read through
  window 0 (the subjects' rows) and window 2 (the objects' rows).  While the call runs each of those two windows
  holds half of that buffer's ownership, every other window all of its own.  So the eleven buffers, each held
  whole at contents `V`, are exactly the twelve windows' arrays at `A w = V (the buffer of w)`: the gathered
  rows' ownership is split into its two halves one way and joined again the other way.
-/
import proofs.«419366_j60232621359657_3_alg».proof.Proof.Bits.Net1Body

set_option maxRecDepth 16384

noncomputable section

namespace Cert.Kernel.SharedArray

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The eleven distinct buffers behind the twelve windows, in window order. -/
abbrev buffers : List (Ref sig .tc) :=
  [main_v5, main_arg1, main_v6, main_v7, main_v8, main_v9, main_arg5, main_v10, main_v11_0, main_v11_1, main_v11_2]

theorem buffers_eq : Finset.univ.image (Pipeline.arrRef spec0) = buffers.toFinset := by decide
theorem buffers_nodup : buffers.Nodup := by decide

variable (V' : (c : Dev nD) → (b : Ref sig .tc) → Buf (Elt F) ((c : Thread nD τ).loc b))

/-- Each window's share of its array: the two windows on the gathered rows a half each, the others everything. -/
theorem share_0 (c : Dev nD) : (Net1.dat V' c).share 0 = fullShare.left := by
  unfold Dat.share; rw [if_neg (by decide)]; exact Net1.q_0 V' c
theorem share_2 (c : Dev nD) : (Net1.dat V' c).share 2 = fullShare.right := by
  unfold Dat.share; rw [if_neg (by decide)]; exact Net1.q_2 V' c
theorem share_in (c : Dev nD) (w : Fin cfg0.W) (hin : (cfg0.win w).isOut = false) (h0 : w ≠ 0) (h2 : w ≠ 2) :
    (Net1.dat V' c).share w = fullShare := by
  unfold Dat.share; rw [if_neg (by rw [hin]; decide)]; exact Net1.q_full V' c w h0 h2
theorem share_out (c : Dev nD) (w : Fin cfg0.W) (hout : (cfg0.win w).isOut = true) : (Net1.dat V' c).share w = fullShare := by
  unfold Dat.share; rw [if_pos hout]

/-- The eleven buffers each whole at `V` are the twelve windows' arrays at `A w = V (the buffer of w)`. -/
theorem arrays_iff_buffers (c : Dev nD) (V : (b : Ref sig .tc) → Buf (Elt F) ((c : Thread nD τ).loc b))
    (A : (w : Fin cfg0.W) → Buf (Elt F) ((cfg0.win w).arr.view.loc (c : Thread nD τ)))
    (hA : ∀ w, A w = V (Pipeline.arrRef spec0 w)) :
    (Pipeline.arrBufs (Ix := Unit) (Name := ℕ) (U := UR sig nD τ) (Lvl := ℕ) spec0 c V : sProp 𝕄) ⊣⊢ (Net1.dat V' c).arrays A := by
  have hR : (Net1.dat V' c).arrays A
      = bigSep Finset.univ fun w : Fin cfg0.W =>
          ((((c : Thread nD τ).loc (Pipeline.arrRef spec0 w)) ↦{(Net1.dat V' c).share w} V (Pipeline.arrRef spec0 w)) : sProp 𝕄) := by
    unfold Dat.arrays
    exact bigSep_congr fun w _ => by rw [(arr_whole0 w).set_eq_univ, hA w]
  have hL : (Pipeline.arrBufs (Ix := Unit) (Name := ℕ) (U := UR sig nD τ) (Lvl := ℕ) spec0 c V : sProp 𝕄)
      = iprop((((c : Thread nD τ).loc main_v5) ↦{fullShare} V main_v5) ∗ (((c : Thread nD τ).loc main_arg1) ↦{fullShare} V main_arg1)
          ∗ (((c : Thread nD τ).loc main_v6) ↦{fullShare} V main_v6) ∗ (((c : Thread nD τ).loc main_v7) ↦{fullShare} V main_v7)
          ∗ (((c : Thread nD τ).loc main_v8) ↦{fullShare} V main_v8) ∗ (((c : Thread nD τ).loc main_v9) ↦{fullShare} V main_v9)
          ∗ (((c : Thread nD τ).loc main_arg5) ↦{fullShare} V main_arg5) ∗ (((c : Thread nD τ).loc main_v10) ↦{fullShare} V main_v10)
          ∗ (((c : Thread nD τ).loc main_v11_0) ↦{fullShare} V main_v11_0) ∗ (((c : Thread nD τ).loc main_v11_1) ↦{fullShare} V main_v11_1)
          ∗ (((c : Thread nD τ).loc main_v11_2) ↦{fullShare} V main_v11_2)) := by
    unfold Pipeline.arrBufs
    exact bigSep_eq_bigSepL_of_eq buffers buffers_eq buffers_nodup _
  rw [hR, hL, bigSep_W0, share_0, share_2,
    share_in V' c 1 rfl (by decide) (by decide), share_in V' c 3 rfl (by decide) (by decide), share_in V' c 4 rfl (by decide) (by decide),
    share_in V' c 5 rfl (by decide) (by decide), share_in V' c 6 rfl (by decide) (by decide), share_in V' c 7 rfl (by decide) (by decide),
    share_in V' c 8 rfl (by decide) (by decide), share_out V' c 9 rfl, share_out V' c 10 rfl, share_out V' c 11 rfl]
  have hsh : ((((c : Thread nD τ).loc main_v5) ↦{fullShare} V main_v5) : sProp 𝕄)
      ⊣⊢ iprop((((c : Thread nD τ).loc main_v5) ↦{fullShare.left} V main_v5) ∗ (((c : Thread nD τ).loc main_v5) ↦{fullShare.right} V main_v5)) :=
    pointsTo_share (PosShare.mem_left_op_right fullShare)
  show _ ⊣⊢ iprop((((c : Thread nD τ).loc main_v5) ↦{fullShare.left} V main_v5) ∗ (((c : Thread nD τ).loc main_arg1) ↦{fullShare} V main_arg1)
          ∗ (((c : Thread nD τ).loc main_v5) ↦{fullShare.right} V main_v5)
          ∗ (((c : Thread nD τ).loc main_v6) ↦{fullShare} V main_v6) ∗ (((c : Thread nD τ).loc main_v7) ↦{fullShare} V main_v7)
          ∗ (((c : Thread nD τ).loc main_v8) ↦{fullShare} V main_v8) ∗ (((c : Thread nD τ).loc main_v9) ↦{fullShare} V main_v9)
          ∗ (((c : Thread nD τ).loc main_arg5) ↦{fullShare} V main_arg5) ∗ (((c : Thread nD τ).loc main_v10) ↦{fullShare} V main_v10)
          ∗ (((c : Thread nD τ).loc main_v11_0) ↦{fullShare} V main_v11_0) ∗ (((c : Thread nD τ).loc main_v11_1) ↦{fullShare} V main_v11_1)
          ∗ (((c : Thread nD τ).loc main_v11_2) ↦{fullShare} V main_v11_2))
  constructor
  · iintro ⟨H5, H1, H6, H7, H8, H9, HA5, H10, Ho0, Ho1, Ho2⟩
    ihave H5' := hsh.1 $$ H5
    icases H5' with ⟨H5l, H5r⟩
    isplitl [H5l]; · iexact H5l
    isplitl [H1]; · iexact H1
    isplitl [H5r]; · iexact H5r
    isplitl [H6]; · iexact H6
    isplitl [H7]; · iexact H7
    isplitl [H8]; · iexact H8
    isplitl [H9]; · iexact H9
    isplitl [HA5]; · iexact HA5
    isplitl [H10]; · iexact H10
    isplitl [Ho0]; · iexact Ho0
    isplitl [Ho1]; · iexact Ho1
    iexact Ho2
  · iintro ⟨H5l, H1, H5r, H6, H7, H8, H9, HA5, H10, Ho0, Ho1, Ho2⟩
    isplitl [H5l H5r]
    · iapply hsh.2; isplitl [H5l]; · iexact H5l
      iexact H5r
    isplitl [H1]; · iexact H1
    isplitl [H6]; · iexact H6
    isplitl [H7]; · iexact H7
    isplitl [H8]; · iexact H8
    isplitl [H9]; · iexact H9
    isplitl [HA5]; · iexact HA5
    isplitl [H10]; · iexact H10
    isplitl [Ho0]; · iexact Ho0
    isplitl [Ho1]; · iexact Ho1
    iexact Ho2

end Cert.Kernel.SharedArray

end
-- ==== Proof.Bits.Net2Body.lean ====
/- The node network's body (custom_call 1 of @main) at a parameter `V`, the TensorCore's buffer contents when the
   region is entered: each window's block at a grid point, the output buffer after the body as one piece through the
   whole-block rectangle, the body's triple, the pipeline's proof data and the body obligation at every point. -/
import proofs.«419366_j60232621359657_3_alg».proof.Proof.Gen.Kernel.Launch
import proofs.«419366_j60232621359657_3_alg».proof.Proof.Gen.Kernel.Skeleton
import proofs.«419366_j60232621359657_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 20000 rows: the elaborator's structural look recurses once per coordinate of the
-- long axis
set_option maxRecDepth 16384

noncomputable section

namespace Cert.Kernel.Net2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched at each of them, for any proof data whose
    array is `V`'s (`hA`) and whose body leaves the block in place (`hafter`): where the window is not fetched its
    block index has not moved since the last fetch. -/
theorem before_in0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, though fetched at the first only, for any proof data whose
    array is `V`'s (`hA`) and whose body leaves the block in place (`hafter`): where the window is not fetched its
    block index has not moved since the last fetch. -/
theorem before_in1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, though fetched at the first only, for any proof data whose
    array is `V`'s (`hA`) and whose body leaves the block in place (`hafter`): where the window is not fetched its
    block index has not moved since the last fetch. -/
theorem before_in2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, though fetched at the first only, for any proof data whose
    array is `V`'s (`hA`) and whose body leaves the block in place (`hafter`): where the window is not fetched its
    block index has not moved since the last fetch. -/
theorem before_in3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, though fetched at the first only, for any proof data whose
    array is `V`'s (`hA`) and whose body leaves the block in place (`hafter`): where the window is not fetched its
    block index has not moved since the last fetch. -/
theorem before_in4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rB : Rect S20000x128 := Rect.unit (s := S20000x128) ![0, 0] S20000x128.size inb_S20000x128_S20000x128_0_0
abbrev rW : Rect S128x128 := Rect.unit (s := S128x128) ![0, 0] S128x128.size inb_S128x128_S128x128_0_0
abbrev rb : Rect S1x128 := Rect.unit (s := S1x128) ![0, 0] S1x128.size inb_S1x128_S1x128_0_0

/-! ## What the body leaves in the output window's buffer -/

/-- Window 5's staging buffer after the body, from the five input windows' blocks: its one store as one piece through
    the whole-block rectangle, the payload the two-layer network of the row block. -/
def out5 (x0 : Vec F S20000x128 .f32) (x1 : Vec F S128x128 .f32) (x2 : Vec F S1x128 .f32) (x3 : Vec F S128x128 .f32) (x4 : Vec F S1x128 .f32) : Vec F S20000x128 .f32 :=
  View.canon [⟨rB, k1_pay1 (View.ld x0 rB) (View.ld x1 rW) (View.ld x2 rb) (View.ld x3 rW) (View.ld x4 rb)⟩]

/-- The one store's rectangle is the whole block, so it covers the buffer. -/
theorem cover5 (p0 : Vec F S20000x128 .f32) (y : S20000x128.Idx) :
    ∃ pc ∈ ([⟨rB, p0⟩] : List (View.Piece (Elt F) S20000x128 .f32)), y ∈ pc.1.set :=
  View.cover_of_tiled [⟨rB, p0⟩] S20000x128.size (by rfl) y

/-! ## The body's triple -/

set_option maxHeartbeats 1000000 in
/-- The kernel body on whole staging memrefs, the five inputs' at read contents `x0 … x4` and the output's at anything,
    runs to the continuation holding the inputs' as they were and the output's at `out5` of the inputs': five whole-block
    loads, a load of the output buffer whose value is never used, and one whole-block store of the payload. -/
theorem sound_kernel (c : Dev nD) (E : Set ℕ) (i : grid1.Coords)
    (arg1 : Memref sig .tc .vmem S20000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S20000x128 .f32) (harg6 : arg6.IsWhole)
    (x0 : Vec F S20000x128 .f32) (x1 : Vec F S128x128 .f32) (x2 : Vec F S1x128 .f32) (x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x2 x3 x4)) -∗ K ⟨⟩))
      ⊢ wp frame (wpE (defs₀ (F := F)) Variants.none c none) E
          (cc1__net2_kernel i arg1 harg1 arg2 harg2 arg3 harg3 arg4 harg4 arg5 harg5 arg6 harg6) K := by
  simp only [cc1__net2_kernel_eq_skeleton]; unfold cc1__net2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The pipeline's proof data -/

/-- The proof data of the pipeline on core `c`: the arrays as the region finds them (`V`); after the body at point
    `t` each input's buffer at its block and the output's at `out5` of the input blocks; the invariant the scoped rest
    and the generator register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := Pipeline.ΦA spec1 c
  q _ := fullShare
  owed _ := 0

/-- The proof data's arrays are the region-entry contents. -/
theorem A_eq (c : Dev nD) (w : Fin cfg1.W) : (dat V c).A w = V c (Pipeline.arrRef spec1 w) := by
  dsimp only [dat]

/-- What the body leaves, window by window. -/
theorem after_in0 (c : Dev nD) (t : Fin cfg1.N) : (dat V c).after 0 t = iblk V c 0 t := by dsimp only [dat]
theorem after_in1 (c : Dev nD) (t : Fin cfg1.N) : (dat V c).after 1 t = iblk V c 1 t := by dsimp only [dat]
theorem after_in2 (c : Dev nD) (t : Fin cfg1.N) : (dat V c).after 2 t = iblk V c 2 t := by dsimp only [dat]
theorem after_in3 (c : Dev nD) (t : Fin cfg1.N) : (dat V c).after 3 t = iblk V c 3 t := by dsimp only [dat]
theorem after_in4 (c : Dev nD) (t : Fin cfg1.N) : (dat V c).after 4 t = iblk V c 4 t := by dsimp only [dat]
theorem after5 (c : Dev nD) (t : Fin cfg1.N) :
    (dat V c).after 5 t = out5 (iblk V c 0 t) (iblk V c 1 t) (iblk V c 2 t) (iblk V c 3 t) (iblk V c 4 t) := by dsimp only [dat]

/-- Nothing is owed at any point. -/
theorem owed_zero (c : Dev nD) (t) : (dat V c).owed t = 0 := rfl

/-- Each input's current staging buffer holds its block at every point, fetched there or not. -/
theorem before_in0 (c : Dev nD) (t : Fin cfg1.N) (d) : (dat V c).before 0 t d = iblk V c 0 t :=
  before_in0_of V (dat V c) (A_eq V c 0) (after_in0 V c) t d
theorem before_in1 (c : Dev nD) (t : Fin cfg1.N) (d) : (dat V c).before 1 t d = iblk V c 1 t :=
  before_in1_of V (dat V c) (A_eq V c 1) (after_in1 V c) t d
theorem before_in2 (c : Dev nD) (t : Fin cfg1.N) (d) : (dat V c).before 2 t d = iblk V c 2 t :=
  before_in2_of V (dat V c) (A_eq V c 2) (after_in2 V c) t d
theorem before_in3 (c : Dev nD) (t : Fin cfg1.N) (d) : (dat V c).before 3 t d = iblk V c 3 t :=
  before_in3_of V (dat V c) (A_eq V c 3) (after_in3 V c) t d
theorem before_in4 (c : Dev nD) (t : Fin cfg1.N) (d) : (dat V c).before 4 t d = iblk V c 4 t :=
  before_in4_of V (dat V c) (A_eq V c 4) (after_in4 V c) t d

/-! ## The body obligation, at a generic point -/

/-- What the body is called with at point `t` (the obligation's precondition, the windows one by one), -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' memrefs hold their blocks (`before_inK`), so `sound_kernel` applies; the
    invariant and the core's `owes` pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in0, before_in1, before_in2, before_in3, before_in4]
  rw [show (dat V c).Φ t.succ = (dat V c).Φ t.castSucc from rfl,
    show (dat V c).owesAt () t.succ = (dat V c).owesAt () t.castSucc from rfl,
    after_in0, after_in1, after_in2, after_in3, after_in4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _
    (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Net2

end
-- ==== Proof.Bits.Run.lean ====
/-
  The kernel program's run, boundary by boundary.

  @main is three stretches of host operations, the edge network's pallas_call, one more stretch, the node
  network's pallas_call.  Between two items every buffer that no pallas_call stages holds a known array: the
  launch contents, then each stretch's operations applied in order, then — after a pallas_call — the same
  contents with the call's result arrays replaced by what its grid points wrote back, block after block.
  The edge network reads ONE array (the gathered object rows) through two of its windows, the subject rows
  in blocks 0 … 79 and the object rows in blocks 80 … 159; while that call runs each of the two windows holds
  half of the array's ownership, and the halves are joined again when it ends.  Every execution ends with
  each such buffer at the last boundary's array.
-/
import proofs.«419366_j60232621359657_3_alg».proof.Proof.Bits.Net1Body
import proofs.«419366_j60232621359657_3_alg».proof.Proof.Bits.SharedArray
import proofs.«419366_j60232621359657_3_alg».proof.Proof.Bits.Net2Body
import proofs.«419366_j60232621359657_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at each boundary -/

/-- At launch. -/
abbrev atLaunch (c : Dev nD) : Valuation τ sig (Elt F) := fun b => m (c, b)
/-- After the index columns and their concatenation. -/
abbrev atTake (c : Dev nD) : Valuation τ sig (Elt F) := StableHlo.after hostOps0 (atLaunch m c)
/-- After the gather. -/
abbrev atSlices (c : Dev nD) : Valuation τ sig (Elt F) := StableHlo.after hostOps0_1 (atTake m c)
/-- As the edge network's call finds them. -/
abbrev atCall0 (c : Dev nD) : Valuation τ sig (Elt F) := StableHlo.after hostOps0_2 (atSlices m c)
/-- The same read at the core's own references. -/
abbrev vCall0 : (c : Dev nD) → (b : Ref sig .tc) → Buf (Elt F) ((c : Thread nD τ).loc b) := fun c b => atCall0 m c b

/-- As the edge network's call leaves them: its three result arrays at what the eighty points wrote back. -/
def afterCall0 (c : Dev nD) : Valuation τ sig (Elt F) :=
  Function.update (Function.update (Function.update (atCall0 m c)
    main_v11_0 ((Net1.dat (vCall0 m) c).arrAt 9 cfg0.N))
    main_v11_1 ((Net1.dat (vCall0 m) c).arrAt 10 cfg0.N))
    main_v11_2 ((Net1.dat (vCall0 m) c).arrAt 11 cfg0.N)

/-- As the node network's call finds them. -/
abbrev atCall1 (c : Dev nD) : Valuation τ sig (Elt F) := StableHlo.after hostOps1 (afterCall0 m c)
abbrev vCall1 : (c : Dev nD) → (b : Ref sig .tc) → Buf (Elt F) ((c : Thread nD τ).loc b) := fun c b => atCall1 m c b

/-- As the node network's call leaves them. -/
def afterCall1 (c : Dev nD) : Valuation τ sig (Elt F) :=
  Pipeline.withArrays spec1 c (atCall1 m c) fun w => (Net2.dat (vCall1 m) c).arrAt w cfg1.N

theorem afterCall1_arr (c : Dev nD) (w : Fin cfg1.W) :
    afterCall1 m c (Proc.devRef .tc (Pipeline.arrRef spec1 w)) = (Net2.dat (vCall1 m) c).arrAt w cfg1.N := by
  unfold afterCall1; exact Pipeline.withArrays_arr spec1 launch1.win.arr_inj c _ _ w
theorem afterCall1_of_ne (c : Dev nD) (b : Ref sig .tc) (hb : ∀ w, Pipeline.arrRef spec1 w ≠ b) :
    afterCall1 m c (Proc.devRef .tc b) = atCall1 m c (Proc.devRef .tc b) := by
  unfold afterCall1; exact Pipeline.withArrays_of_ne spec1 c _ _ b hb
abbrev vAfter1 : (c : Dev nD) → (b : Ref sig .tc) → Buf (Elt F) ((c : Thread nD τ).loc b) := fun c b => afterCall1 m c b
theorem exit1_arr (c : Dev nD) (w : Fin cfg1.W) : (Net2.dat (vCall1 m) c).arrAt w cfg1.N = vAfter1 m c (Pipeline.arrRef spec1 w) :=
  (afterCall1_arr m c w).symm
theorem exit1_rest (c : Dev nD) : ∀ b, b ∉ Finset.univ.image (Pipeline.arrRef spec1) → vAfter1 m c b = vCall1 m c b :=
  fun b hb => afterCall1_of_ne m c b fun w e => hb (Finset.mem_image.mpr ⟨w, Finset.mem_univ _, e⟩)

/-- The edge network's exit contents at a result array, and off the three of them. -/
theorem afterCall0_v11_0 (c : Dev nD) : afterCall0 m c (Proc.devRef .tc main_v11_0) = (Net1.dat (vCall0 m) c).arrAt 9 cfg0.N := by
  unfold afterCall0
  rw [Function.update_of_ne (StableHlo.devRef_ne_of_ne (by decide) : (Proc.devRef .tc main_v11_0 : DevRef τ sig) ≠ Proc.devRef .tc main_v11_2),
    Function.update_of_ne (StableHlo.devRef_ne_of_ne (by decide) : (Proc.devRef .tc main_v11_0 : DevRef τ sig) ≠ Proc.devRef .tc main_v11_1)]
  exact Function.update_self ..
theorem afterCall0_v11_1 (c : Dev nD) : afterCall0 m c (Proc.devRef .tc main_v11_1) = (Net1.dat (vCall0 m) c).arrAt 10 cfg0.N := by
  unfold afterCall0
  rw [Function.update_of_ne (StableHlo.devRef_ne_of_ne (by decide) : (Proc.devRef .tc main_v11_1 : DevRef τ sig) ≠ Proc.devRef .tc main_v11_2)]
  exact Function.update_self ..
theorem afterCall0_v11_2 (c : Dev nD) : afterCall0 m c (Proc.devRef .tc main_v11_2) = (Net1.dat (vCall0 m) c).arrAt 11 cfg0.N := by
  unfold afterCall0
  exact Function.update_self ..
theorem afterCall0_of_ne (c : Dev nD) (r : Ref sig .tc) (h : r ∉ ([main_v11_0, main_v11_1, main_v11_2] : List (Ref sig .tc))) :
    afterCall0 m c (Proc.devRef .tc r) = atCall0 m c (Proc.devRef .tc r) := by
  unfold afterCall0
  rw [Function.update_of_ne (StableHlo.devRef_ne_of_ne (List.ne_of_not_mem_cons (List.not_mem_of_not_mem_cons (List.not_mem_of_not_mem_cons h))) : (Proc.devRef .tc r : DevRef τ sig) ≠ Proc.devRef .tc main_v11_2),
    Function.update_of_ne (StableHlo.devRef_ne_of_ne (List.ne_of_not_mem_cons (List.not_mem_of_not_mem_cons h)) : (Proc.devRef .tc r : DevRef τ sig) ≠ Proc.devRef .tc main_v11_1),
    Function.update_of_ne (StableHlo.devRef_ne_of_ne (List.ne_of_not_mem_cons h) : (Proc.devRef .tc r : DevRef τ sig) ≠ Proc.devRef .tc main_v11_0)]
abbrev vAfter0 : (c : Dev nD) → (b : Ref sig .tc) → Buf (Elt F) ((c : Thread nD τ).loc b) := fun c b => afterCall0 m c b

/-- At the edge network's exit every window's array is the exit contents at its buffer: an input's array was never
    written, a result's is what the points wrote. -/
theorem exit0_in (c : Dev nD) (w : Fin cfg0.W) (hin : (cfg0.win w).isOut = false)
    (hne : Pipeline.arrRef spec0 w ∉ ([main_v11_0, main_v11_1, main_v11_2] : List (Ref sig .tc))) :
    (Net1.dat (vCall0 m) c).arrAt w cfg0.N = vAfter0 m c (Pipeline.arrRef spec0 w) :=
  ((Net1.dat (vCall0 m) c).arrAt_in w hin _).trans ((Net1.A_eq (vCall0 m) c w).trans (afterCall0_of_ne m c _ hne).symm)
theorem exit0_arr (c : Dev nD) : ∀ w : Fin cfg0.W, (Net1.dat (vCall0 m) c).arrAt w cfg0.N = vAfter0 m c (Pipeline.arrRef spec0 w)
  | ⟨0, _⟩ => exit0_in m c 0 rfl (by decide)
  | ⟨1, _⟩ => exit0_in m c 1 rfl (by decide)
  | ⟨2, _⟩ => exit0_in m c 2 rfl (by decide)
  | ⟨3, _⟩ => exit0_in m c 3 rfl (by decide)
  | ⟨4, _⟩ => exit0_in m c 4 rfl (by decide)
  | ⟨5, _⟩ => exit0_in m c 5 rfl (by decide)
  | ⟨6, _⟩ => exit0_in m c 6 rfl (by decide)
  | ⟨7, _⟩ => exit0_in m c 7 rfl (by decide)
  | ⟨8, _⟩ => exit0_in m c 8 rfl (by decide)
  | ⟨9, _⟩ => (afterCall0_v11_0 m c).symm
  | ⟨10, _⟩ => (afterCall0_v11_1 m c).symm
  | ⟨11, _⟩ => (afterCall0_v11_2 m c).symm
theorem exit0_rest (c : Dev nD) : ∀ b, b ∉ Finset.univ.image (Pipeline.arrRef spec0) → vAfter0 m c b = vCall0 m c b := fun b hb =>
  afterCall0_of_ne m c b fun h => hb (by
    rcases List.mem_cons.mp h with rfl | h
    · exact Finset.mem_image.mpr ⟨9, Finset.mem_univ _, rfl⟩
    rcases List.mem_cons.mp h with rfl | h
    · exact Finset.mem_image.mpr ⟨10, Finset.mem_univ _, rfl⟩
    rcases List.mem_cons.mp h with rfl | h
    · exact Finset.mem_image.mpr ⟨11, Finset.mem_univ _, rfl⟩
    · exact absurd h List.not_mem_nil)

/-! ## The proof data of both calls, and what rides beside the buffers -/

/-- Each call's proof data at the contents its call is entered from. -/
def pdat : (p : Fin 2) → (c : Dev nD) → Dat τ (Elt F) Unit ℕ (UR sig nD τ) ℕ (Pipeline.pin (pcfgs (F := F)) adm p) c
  | ⟨0, _⟩ => fun c => Net1.dat (vCall0 m) c
  | ⟨1, _⟩ => fun c => Net2.dat (vCall1 m) c
abbrev noVariants : Variants := Variants.none
/-- No core owes another anything: no level is assigned. -/
abbrev noPairs : GSem nD τ sig → Finset Unit := fun _ => ∅
abbrev noLevel : GSem nD τ sig → Unit → ℕ := fun _ _ => 0
/-- Beside the buffers: the core's generator register at some state, and the core owing nothing. -/
abbrev beside (c : Dev nD) : sProp 𝕄 := iprop((∃ r, prngReg c r) ∗ ∃ W, owes (c : Thread nD τ) (0 : CellTallies nD τ sig Unit) W)
/-- A stretch of host operations from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the `owes`. -/
abbrev atEnd (c : Dev nD) : sProp 𝕄 := iprop(StableHlo.held (c : Thread nD τ) (Pipeline.ucRefs τ sig) (afterCall1 m c) ∗ ∃ r, prngReg c r)

/-! ## The two calls as items of @main -/

set_option backward.isDefEq.respectTransparency.types false in
/-- The edge network's call: entered from every tracked buffer at `atCall0`, left at `afterCall0`.  At entry the
    eleven buffers behind its windows are taken out of the tracked ones and dealt to the twelve windows; at exit they
    are put back, the three result arrays at what the points wrote. -/
def region0 : Pipeline.RegionSeg (pcfgs (F := F)) adm (pdat m) () defs₀ noVariants noPairs noLevel 0 where
  win := winFacts₀0
  block_pos := block_pos0
  stage_whole := stage_whole0
  K := PEmpty
  osem k := k.elim
  ho := Pipeline.OwnSemFacts.none _
  hbody c := (Net1.body_obligation (vCall0 m) c).loose
  hwaits := Pipeline.hwaits_of_owed_zero _ _ _ _ noPairs noLevel 0 fun _ _ => rfl
  pre c := iprop(StableHlo.held (c : Thread nD τ) (Pipeline.ucRefs τ sig) (atCall0 m c) ∗ beside c)
  post c := iprop(StableHlo.held (c : Thread nD τ) (Pipeline.ucRefs τ sig) (afterCall0 m c) ∗ beside c)
  X c := iprop(∃ r, prngReg c r)
  Y c := iprop(∃ r, prngReg c r)
  Z c := Pipeline.unscopedRest (Ix := Unit) (Name := ℕ) (U := UR sig nD τ) (Lvl := ℕ) spec0 c (vCall0 m c)
  hentry c := by
    rw [Pipeline.ownSems0_none]
    have hsplit : (unscopedBufs c (vCall0 m c) : sProp 𝕄)
        ⊢ iprop((pdat m 0 c).arrays ((pdat m 0 c).arrAt · 0) ∗ Pipeline.unscopedRest spec0 c (vCall0 m c)) := by
      rw [Pipeline.unscopedBufs_split₀ (Pipeline.pin (pcfgs (F := F)) adm) 0 winFacts₀0.arr_unscoped c (vCall0 m c)]
      exact sep_mono (SharedArray.arrays_iff_buffers (vCall0 m) c (vCall0 m c) _ fun w => Net1.A_eq (vCall0 m) c w).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdat m 0 c).arrays ((pdat m 0 c).arrAt · cfg0.N) ∗ Pipeline.unscopedRest spec0 c (vCall0 m c))
        ⊢ (unscopedBufs c (vAfter0 m c) : sProp 𝕄) := by
      rw [Pipeline.unscopedBufs_split₀ (Pipeline.pin (pcfgs (F := F)) adm) 0 winFacts₀0.arr_unscoped c (vAfter0 m c)]
      refine sep_mono (SharedArray.arrays_iff_buffers (vCall0 m) c (vAfter0 m c) _ (exit0_arr m c)).2 (Entails.of_eq ?_)
      unfold Pipeline.unscopedRest
      exact bigSep_congr fun b hb => by rw [exit0_rest m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node network's call: entered from `atCall1`, left at `afterCall1`; its six windows are on six distinct
    buffers, each held whole. -/
def region1 : Pipeline.RegionSeg (pcfgs (F := F)) adm (pdat m) () defs₀ noVariants noPairs noLevel 1 where
  win := launch1.win.to₀
  block_pos := launch1.block_pos
  stage_whole := launch1.stage_whole
  K := PEmpty
  osem k := k.elim
  ho := Pipeline.OwnSemFacts.none _
  hbody c := (Net2.body_obligation (vCall1 m) c).loose
  hwaits := Pipeline.hwaits_of_owed_zero _ _ _ _ noPairs noLevel 1 fun _ _ => rfl
  pre c := iprop(StableHlo.held (c : Thread nD τ) (Pipeline.ucRefs τ sig) (atCall1 m c) ∗ beside c)
  post c := iprop(atEnd m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (vCall1 m c)
  hentry c := by
    rw [Pipeline.ownSems0_none]
    have hsplit := Pipeline.arrays_of_unscopedBufs (p := 1) (pcfgs (F := F)) adm (pdat m) launch1.win launch1.arr_whole c
      ((pdat m 1 c).share_full fun _ => rfl) (vCall1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdat m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdat m) ((pdat m 1 c).share_full fun _ => rfl)
      (vCall1 m c) (vAfter1 m c) ((pdat m 1 c).arrAt · cfg1.N) (exit1_arr m c) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its items, and the run -/

/-- @main's six items in order. -/
abbrev items : List (Pipeline.Seg (pcfgs (F := F)) adm (pdat m) () defs₀ noVariants noPairs noLevel) :=
  [ .host (stretch hostOps0 hostOps0_sub hostOps0_fresh (atLaunch m)),
    .host (stretch hostOps0_1 hostOps0_1_sub hostOps0_1_fresh (atTake m)),
    .host (stretch hostOps0_2 hostOps0_2_sub hostOps0_2_fresh (atSlices m)),
    .region (region0 m),
    .host (stretch hostOps1 hostOps1_sub hostOps1_fresh (afterCall0 m)),
    .region (region1 m) ]

set_option backward.isDefEq.respectTransparency.types false in
/-- Every weakly fair execution of @main from memory `m` with zero counters ends, nothing faulting, with every buffer
    no pallas_call stages at the last boundary's contents. -/
theorem run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = afterCall1 m c b) :=
  Pipeline.θ_run_regions_kit_dev (pcfgs (F := F)) adm (pdat m) () cellOf_inj emb₁ defs₀ noVariants noPairs noLevel m ρ main (fun _ => items m)
    (fun c Q => by
      rewrite [main_chain c, Pipeline.Seg.run_eq_chain,
        show (items m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      exact .rfl)
    (fun c => by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m c) ∗ beside c)) (Tₙ := atEnd m)
    (hch := fun c => ⟨.rfl, .rfl, .rfl, .rfl, .rfl, .rfl, .rfl⟩)
    (hinit := by
      refine Pipeline.initEach noPairs noLevel fun c => ?_
      rw [show unscopedBufs c (fun b => m ((c : Thread nD τ).loc b)) = StableHlo.held (c : Thread nD τ) (Pipeline.ucRefs τ sig) (atLaunch m c)
        from Pipeline.unscopedBufs_held c (atLaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = afterCall1 m c b)
    (hfin := fun c s' => by
      iintro ⟨⟨Hh, -⟩, HSI⟩
      unfold StableHlo.held
      imodintro
      iapply (pointsTo_read_all (Pipeline.ucRefs τ sig) (fun b => (((c : Thread nD τ)).1, b)) (afterCall1 m c) s')
      isplitl [Hh] <;> iassumption)
    (hQ := fun s h c => h c)

end Cert.Kernel.Run

end
-- ==== Proof.Bits.Frames.lean ====
/-
  The argument arrays end as launched.

  No host operation of the kernel's program writes an argument array and no pallas_call has one as a result:
  an argument is either not touched by a call at all, or read through an input window, whose array is never
  written.  So each argument's buffer at the last boundary walks back, item by item, to the launch memory, and the
  run's end state has every argument as launched.
-/
import proofs.«419366_j60232621359657_3_alg».proof.Proof.Bits.Run

set_option maxRecDepth 16384

noncomputable section

namespace Cert.Kernel.Run

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- A buffer none of the three first stretches writes is, at the edge network's entry, as launched. -/
theorem atCall0_kept (c : Dev nD) (b : Ref sig .tc) (h0 : b ∉ hostOps0_W) (h1 : b ∉ hostOps0_1_W) (h2 : b ∉ hostOps0_2_W) :
    atCall0 m c (Proc.devRef .tc b) = m ((c.tc : Thread nD τ).loc b) :=
  (StableHlo.after_of_writes_sub hostOps0_2 _ hostOps0_2_writes h2).trans <|
    (StableHlo.after_of_writes_sub hostOps0_1 _ hostOps0_1_writes h1).trans <|
      (StableHlo.after_of_writes_sub hostOps0 _ hostOps0_writes h0).trans rfl

/-- The same at the node network's entry, for a buffer that is also no result of the edge network and that the
    fourth stretch does not write. -/
theorem atCall1_kept (c : Dev nD) (b : Ref sig .tc) (h0 : b ∉ hostOps0_W) (h1 : b ∉ hostOps0_1_W) (h2 : b ∉ hostOps0_2_W)
    (ho : b ∉ ([main_v11_0, main_v11_1, main_v11_2] : List (Ref sig .tc))) (h3 : b ∉ hostOps1_W) :
    atCall1 m c (Proc.devRef .tc b) = m ((c.tc : Thread nD τ).loc b) :=
  (StableHlo.after_of_writes_sub hostOps1 _ hostOps1_writes h3).trans <|
    (afterCall0_of_ne m c b ho).trans (atCall0_kept m c b h0 h1 h2)

/-- At the end, a buffer the node network does not window. -/
theorem end_bypass (c : Dev nD) (b : Ref sig .tc) (h0 : b ∉ hostOps0_W) (h1 : b ∉ hostOps0_1_W) (h2 : b ∉ hostOps0_2_W)
    (ho : b ∉ ([main_v11_0, main_v11_1, main_v11_2] : List (Ref sig .tc))) (h3 : b ∉ hostOps1_W)
    (hw : ∀ w, Pipeline.arrRef spec1 w ≠ b) :
    afterCall1 m c (Proc.devRef .tc b) = m ((c.tc : Thread nD τ).loc b) :=
  (afterCall1_of_ne m c b hw).trans (atCall1_kept m c b h0 h1 h2 ho h3)

/-- At the end, the array of an input window of the node network. -/
theorem end_window (c : Dev nD) (w : Fin cfg1.W) (hin : (cfg1.win w).isOut = false)
    (h0 : Pipeline.arrRef spec1 w ∉ hostOps0_W) (h1 : Pipeline.arrRef spec1 w ∉ hostOps0_1_W) (h2 : Pipeline.arrRef spec1 w ∉ hostOps0_2_W)
    (ho : Pipeline.arrRef spec1 w ∉ ([main_v11_0, main_v11_1, main_v11_2] : List (Ref sig .tc))) (h3 : Pipeline.arrRef spec1 w ∉ hostOps1_W) :
    afterCall1 m c (Proc.devRef .tc (Pipeline.arrRef spec1 w)) = m ((c.tc : Thread nD τ).loc (Pipeline.arrRef spec1 w)) :=
  (afterCall1_arr m c w).trans <| ((Net2.dat (vCall1 m) c).arrAt_in w hin _).trans <|
    (Net2.A_eq (vCall1 m) c w).trans (atCall1_kept m c _ h0 h1 h2 ho h3)

theorem end_main_arg0 (c : Dev nD) : afterCall1 m c (Proc.devRef .tc main_arg0) = m ((c.tc : Thread nD τ).loc main_arg0) :=
  end_bypass m c main_arg0 (by decide) (by decide) (by decide) (by decide) (by decide) (by decide)
theorem end_main_arg1 (c : Dev nD) : afterCall1 m c (Proc.devRef .tc main_arg1) = m ((c.tc : Thread nD τ).loc main_arg1) :=
  end_bypass m c main_arg1 (by decide) (by decide) (by decide) (by decide) (by decide) (by decide)
theorem end_main_arg2 (c : Dev nD) : afterCall1 m c (Proc.devRef .tc main_arg2) = m ((c.tc : Thread nD τ).loc main_arg2) :=
  end_bypass m c main_arg2 (by decide) (by decide) (by decide) (by decide) (by decide) (by decide)
theorem end_main_arg3 (c : Dev nD) : afterCall1 m c (Proc.devRef .tc main_arg3) = m ((c.tc : Thread nD τ).loc main_arg3) :=
  end_bypass m c main_arg3 (by decide) (by decide) (by decide) (by decide) (by decide) (by decide)
theorem end_main_arg4 (c : Dev nD) : afterCall1 m c (Proc.devRef .tc main_arg4) = m ((c.tc : Thread nD τ).loc main_arg4) :=
  end_bypass m c main_arg4 (by decide) (by decide) (by decide) (by decide) (by decide) (by decide)
theorem end_main_arg5 (c : Dev nD) : afterCall1 m c (Proc.devRef .tc main_arg5) = m ((c.tc : Thread nD τ).loc main_arg5) :=
  end_bypass m c main_arg5 (by decide) (by decide) (by decide) (by decide) (by decide) (by decide)
theorem end_main_arg6 (c : Dev nD) : afterCall1 m c (Proc.devRef .tc main_arg6) = m ((c.tc : Thread nD τ).loc main_arg6) :=
  end_bypass m c main_arg6 (by decide) (by decide) (by decide) (by decide) (by decide) (by decide)
theorem end_main_arg7 (c : Dev nD) : afterCall1 m c (Proc.devRef .tc main_arg7) = m ((c.tc : Thread nD τ).loc main_arg7) :=
  end_window m c 1 rfl (by decide) (by decide) (by decide) (by decide) (by decide)
theorem end_main_arg8 (c : Dev nD) : afterCall1 m c (Proc.devRef .tc main_arg8) = m ((c.tc : Thread nD τ).loc main_arg8) :=
  end_bypass m c main_arg8 (by decide) (by decide) (by decide) (by decide) (by decide) (by decide)
theorem end_main_arg9 (c : Dev nD) : afterCall1 m c (Proc.devRef .tc main_arg9) = m ((c.tc : Thread nD τ).loc main_arg9) :=
  end_window m c 3 rfl (by decide) (by decide) (by decide) (by decide) (by decide)
theorem end_main_arg10 (c : Dev nD) : afterCall1 m c (Proc.devRef .tc main_arg10) = m ((c.tc : Thread nD τ).loc main_arg10) :=
  end_bypass m c main_arg10 (by decide) (by decide) (by decide) (by decide) (by decide) (by decide)

/-- Every weakly fair execution of @main from memory `m` with zero counters ends, nothing faulting, with each argument
    array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (end_main_arg0 m c),
    (h c _ (mem_uc main_arg1 (by decide))).trans (end_main_arg1 m c),
    (h c _ (mem_uc main_arg2 (by decide))).trans (end_main_arg2 m c),
    (h c _ (mem_uc main_arg3 (by decide))).trans (end_main_arg3 m c),
    (h c _ (mem_uc main_arg4 (by decide))).trans (end_main_arg4 m c),
    (h c _ (mem_uc main_arg5 (by decide))).trans (end_main_arg5 m c),
    (h c _ (mem_uc main_arg6 (by decide))).trans (end_main_arg6 m c),
    (h c _ (mem_uc main_arg7 (by decide))).trans (end_main_arg7 m c),
    (h c _ (mem_uc main_arg8 (by decide))).trans (end_main_arg8 m c),
    (h c _ (mem_uc main_arg9 (by decide))).trans (end_main_arg9 m c),
    (h c _ (mem_uc main_arg10 (by decide))).trans (end_main_arg10 m c)⟩) (run m ρ)

end Cert.Kernel.Run

end
-- ==== Proof.Net1Body.lean ====
/- The edge network's body half: the first TensorCore call of the printed program (pipeline 0, 80 points,
   twelve windows), at a PARAMETER V — the TensorCore's buffer contents when the call is entered.
   Each window's block at a point (iblk), what the body leaves in the three output buffers as closed
   functions of the nine input blocks (out9, out10, out11), the body's triple on whole staging memrefs
   (sound_kernel), the proof data (dat) and the body obligation at every point (body_obligation).
   Windows 0 and 2 read one array: each holds half of its share. -/
import proofs.«419366_j60232621359657_3_alg».proof.Proof.Gen.KernelIdeal.Launch
import proofs.«419366_j60232621359657_3_alg».proof.Proof.Gen.KernelIdeal.Skeleton
import proofs.«419366_j60232621359657_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate
set_option maxRecDepth 16384

noncomputable section

namespace Cert.KernelIdeal.Net1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window w's block at point t, read off its array as the call finds it (V). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not, for ANY
    proof data whose array is V's (hA) and whose body leaves the block in place (hafter): unfetched, the
    block index has not moved. The row windows 0, 1, 2 are fetched at every point, the weight windows 3 to 8
    at the first point only; the windows are uncut and never idle, so one argument serves all nine. -/

theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before_7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before_8_of {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and every store goes through its buffer's whole-block rectangle -/

abbrev rB : Rect S5000x128 := Rect.unit (s := S5000x128) ![0, 0] S5000x128.size inb_S5000x128_S5000x128_0_0
abbrev rW : Rect S128x128 := Rect.unit (s := S128x128) ![0, 0] S128x128.size inb_S128x128_S128x128_0_0
abbrev rb : Rect S1x128 := Rect.unit (s := S1x128) ![0, 0] S1x128.size inb_S1x128_S1x128_0_0
abbrev rW2 : Rect S128x384 := Rect.unit (s := S128x384) ![0, 0] S128x384.size inb_S128x384_S128x384_0_0
abbrev rb2 : Rect S1x384 := Rect.unit (s := S1x384) ![0, 0] S1x384.size inb_S1x384_S1x384_0_0

/-! ## What the body leaves in each output window's buffer: one store of one piece over the whole block -/

/-- Window 9's buffer after the body: the first 128 columns of the second layer's 384, from the nine loads as the body reads them. -/
def out9 (x0 x1 x2 : Vec F S5000x128 .f32) (x3 x4 x5 : Vec F S128x128 .f32) (x6 : Vec F S1x128 .f32) (x7 : Vec F S128x384 .f32) (x8 : Vec F S1x384 .f32) : Vec F S5000x128 .f32 :=
  View.canon [⟨rB, k0_pay3 (View.ld x0 rB) (View.ld x1 rB) (View.ld x2 rB) (View.ld x3 rW) (View.ld x4 rW) (View.ld x5 rW) (View.ld x6 rb) (View.ld x7 rW2) (View.ld x8 rb2)⟩]

/-- Window 10's buffer after the body: the middle 128 columns. -/
def out10 (x0 x1 x2 : Vec F S5000x128 .f32) (x3 x4 x5 : Vec F S128x128 .f32) (x6 : Vec F S1x128 .f32) (x7 : Vec F S128x384 .f32) (x8 : Vec F S1x384 .f32) : Vec F S5000x128 .f32 :=
  View.canon [⟨rB, k0_pay4 (View.ld x0 rB) (View.ld x1 rB) (View.ld x2 rB) (View.ld x3 rW) (View.ld x4 rW) (View.ld x5 rW) (View.ld x6 rb) (View.ld x7 rW2) (View.ld x8 rb2)⟩]

/-- Window 11's buffer after the body: the last 128 columns. -/
def out11 (x0 x1 x2 : Vec F S5000x128 .f32) (x3 x4 x5 : Vec F S128x128 .f32) (x6 : Vec F S1x128 .f32) (x7 : Vec F S128x384 .f32) (x8 : Vec F S1x384 .f32) : Vec F S5000x128 .f32 :=
  View.canon [⟨rB, k0_pay1 (k0_pay2 (View.ld x0 rB) (View.ld x1 rB) (View.ld x2 rB) (View.ld x3 rW) (View.ld x4 rW) (View.ld x5 rW) (View.ld x6 rb) (View.ld x7 rW2) (View.ld x8 rb2))⟩]

/-- One piece over the whole-block rectangle tiles the buffer (checked by evaluation), so it covers it. -/
theorem coverB (p0 : Vec F S5000x128 .f32) (y : S5000x128.Idx) :
    ∃ pc ∈ ([⟨rB, p0⟩] : List (View.Piece (Elt F) S5000x128 .f32)), y ∈ pc.1.set :=
  View.cover_of_tiled [⟨rB, p0⟩] S5000x128.size (by rfl) y

/-! ## The pipeline's proof data -/

/-- The proof data of pipeline 0 on core c: the arrays as the call finds them (V); after the body at point t
    each input's buffer at its block and each output's at its closed form of the nine input blocks; the
    invariant the plain class's (the scoped rest and the generator register, untouched); nothing owed; full
    shares, but for windows 0 and 2, which read one array and hold a half of its share each. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => out9 (iblk V c 0 t) (iblk V c 1 t) (iblk V c 2 t) (iblk V c 3 t) (iblk V c 4 t) (iblk V c 5 t) (iblk V c 6 t) (iblk V c 7 t) (iblk V c 8 t)
    | ⟨10, _⟩ => out10 (iblk V c 0 t) (iblk V c 1 t) (iblk V c 2 t) (iblk V c 3 t) (iblk V c 4 t) (iblk V c 5 t) (iblk V c 6 t) (iblk V c 7 t) (iblk V c 8 t)
    | ⟨11, _⟩ => out11 (iblk V c 0 t) (iblk V c 1 t) (iblk V c 2 t) (iblk V c 3 t) (iblk V c 4 t) (iblk V c 5 t) (iblk V c 6 t) (iblk V c 7 t) (iblk V c 8 t)
  Φ _ := Pipeline.ΦA spec0 c
  q w := match w with
    | ⟨0, _⟩ => fullShare.left
    | ⟨1, _⟩ => fullShare
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
  owed _ := 0

/-- The proof data's arrays are the entry contents. -/
theorem A_eq (c : Dev nD) (w : Fin cfg0.W) : (dat V c).A w = V c (Pipeline.arrRef spec0 w) := by
  dsimp only [dat]

/-- The shares: a half each for the two windows on one array, full elsewhere. -/
theorem q_0 (c : Dev nD) : (dat V c).q 0 = fullShare.left := by dsimp only [dat]
theorem q_2 (c : Dev nD) : (dat V c).q 2 = fullShare.right := by dsimp only [dat]
theorem q_full (c : Dev nD) (w : Fin cfg0.W) (h0 : w ≠ 0) (h2 : w ≠ 2) : (dat V c).q w = fullShare := by
  match w, h0, h2 with
  | ⟨0, _⟩, h0, _ => exact absurd rfl h0
  | ⟨1, _⟩, _, _ => dsimp only [dat]
  | ⟨2, _⟩, _, h2 => exact absurd rfl h2
  | ⟨3, _⟩, _, _ => dsimp only [dat]
  | ⟨4, _⟩, _, _ => dsimp only [dat]
  | ⟨5, _⟩, _, _ => dsimp only [dat]
  | ⟨6, _⟩, _, _ => dsimp only [dat]
  | ⟨7, _⟩, _, _ => dsimp only [dat]
  | ⟨8, _⟩, _, _ => dsimp only [dat]
  | ⟨9, _⟩, _, _ => dsimp only [dat]
  | ⟨10, _⟩, _, _ => dsimp only [dat]
  | ⟨11, _⟩, _, _ => dsimp only [dat]

/-- What the body leaves, window by window (the proof data's match reduced by dsimp). -/
theorem after_in0 (c : Dev nD) (t : Fin cfg0.N) : (dat V c).after 0 t = iblk V c 0 t := by dsimp only [dat]
theorem after_in1 (c : Dev nD) (t : Fin cfg0.N) : (dat V c).after 1 t = iblk V c 1 t := by dsimp only [dat]
theorem after_in2 (c : Dev nD) (t : Fin cfg0.N) : (dat V c).after 2 t = iblk V c 2 t := by dsimp only [dat]
theorem after_in3 (c : Dev nD) (t : Fin cfg0.N) : (dat V c).after 3 t = iblk V c 3 t := by dsimp only [dat]
theorem after_in4 (c : Dev nD) (t : Fin cfg0.N) : (dat V c).after 4 t = iblk V c 4 t := by dsimp only [dat]
theorem after_in5 (c : Dev nD) (t : Fin cfg0.N) : (dat V c).after 5 t = iblk V c 5 t := by dsimp only [dat]
theorem after_in6 (c : Dev nD) (t : Fin cfg0.N) : (dat V c).after 6 t = iblk V c 6 t := by dsimp only [dat]
theorem after_in7 (c : Dev nD) (t : Fin cfg0.N) : (dat V c).after 7 t = iblk V c 7 t := by dsimp only [dat]
theorem after_in8 (c : Dev nD) (t : Fin cfg0.N) : (dat V c).after 8 t = iblk V c 8 t := by dsimp only [dat]
theorem after9 (c : Dev nD) (t : Fin cfg0.N) : (dat V c).after 9 t = out9 (iblk V c 0 t) (iblk V c 1 t) (iblk V c 2 t) (iblk V c 3 t) (iblk V c 4 t) (iblk V c 5 t) (iblk V c 6 t) (iblk V c 7 t) (iblk V c 8 t) := by dsimp only [dat]
theorem after10 (c : Dev nD) (t : Fin cfg0.N) : (dat V c).after 10 t = out10 (iblk V c 0 t) (iblk V c 1 t) (iblk V c 2 t) (iblk V c 3 t) (iblk V c 4 t) (iblk V c 5 t) (iblk V c 6 t) (iblk V c 7 t) (iblk V c 8 t) := by dsimp only [dat]
theorem after11 (c : Dev nD) (t : Fin cfg0.N) : (dat V c).after 11 t = out11 (iblk V c 0 t) (iblk V c 1 t) (iblk V c 2 t) (iblk V c 3 t) (iblk V c 4 t) (iblk V c 5 t) (iblk V c 6 t) (iblk V c 7 t) (iblk V c 8 t) := by dsimp only [dat]

/-- Nothing is owed at any point. -/
theorem owed_zero (c : Dev nD) (t) : (dat V c).owed t = 0 := rfl

/-- Each input's current staging buffer holds its block at every point, fetched there or not. -/
theorem before_0 (c : Dev nD) (t : Fin cfg0.N) (d) : (dat V c).before 0 t d = iblk V c 0 t :=
  before_0_of V (dat V c) (A_eq V c 0) (after_in0 V c) t d
theorem before_1 (c : Dev nD) (t : Fin cfg0.N) (d) : (dat V c).before 1 t d = iblk V c 1 t :=
  before_1_of V (dat V c) (A_eq V c 1) (after_in1 V c) t d
theorem before_2 (c : Dev nD) (t : Fin cfg0.N) (d) : (dat V c).before 2 t d = iblk V c 2 t :=
  before_2_of V (dat V c) (A_eq V c 2) (after_in2 V c) t d
theorem before_3 (c : Dev nD) (t : Fin cfg0.N) (d) : (dat V c).before 3 t d = iblk V c 3 t :=
  before_3_of V (dat V c) (A_eq V c 3) (after_in3 V c) t d
theorem before_4 (c : Dev nD) (t : Fin cfg0.N) (d) : (dat V c).before 4 t d = iblk V c 4 t :=
  before_4_of V (dat V c) (A_eq V c 4) (after_in4 V c) t d
theorem before_5 (c : Dev nD) (t : Fin cfg0.N) (d) : (dat V c).before 5 t d = iblk V c 5 t :=
  before_5_of V (dat V c) (A_eq V c 5) (after_in5 V c) t d
theorem before_6 (c : Dev nD) (t : Fin cfg0.N) (d) : (dat V c).before 6 t d = iblk V c 6 t :=
  before_6_of V (dat V c) (A_eq V c 6) (after_in6 V c) t d
theorem before_7 (c : Dev nD) (t : Fin cfg0.N) (d) : (dat V c).before 7 t d = iblk V c 7 t :=
  before_7_of V (dat V c) (A_eq V c 7) (after_in7 V c) t d
theorem before_8 (c : Dev nD) (t : Fin cfg0.N) (d) : (dat V c).before 8 t d = iblk V c 8 t :=
  before_8_of V (dat V c) (A_eq V c 8) (after_in8 V c) t d

/-! ## The body's triple -/

set_option maxHeartbeats 1000000 in
/-- The kernel body on whole staging memrefs, the nine inputs' at read contents x0 to x8 and the three outputs' at
    anything, runs to the continuation holding the inputs' as they were and the outputs' at out9, out10, out11 of
    the inputs': the printed function and its part are their skeletons, which are run as one straight line of
    nine loads, three dead loads and three whole-block stores. -/
theorem sound_kernel (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S128x384 .f32) (harg8 : arg8.IsWhole)
    (arg9 : Memref sig .tc .vmem S1x384 .f32) (harg9 : arg9.IsWhole) (arg10 : Memref sig .tc .vmem S5000x128 .f32) (harg10 : arg10.IsWhole)
    (arg11 : Memref sig .tc .vmem S5000x128 .f32) (harg11 : arg11.IsWhole) (arg12 : Memref sig .tc .vmem S5000x128 .f32) (harg12 : arg12.IsWhole)
    (x0 x1 x2 : Vec F S5000x128 .f32) (x3 x4 x5 : Vec F S128x128 .f32) (x6 : Vec F S1x128 .f32) (x7 : Vec F S128x384 .f32) (x8 : Vec F S1x384 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (out9 x0 x1 x2 x3 x4 x5 x6 x7 x8)
            ∗ owns (c : Thread nD τ) arg11 fullShare (out10 x0 x1 x2 x3 x4 x5 x6 x7 x8)
            ∗ owns (c : Thread nD τ) arg12 fullShare (out11 x0 x1 x2 x3 x4 x5 x6 x7 x8)) -∗ K ⟨⟩))
      ⊢ wp frame (wpE (defs₀ (F := F)) Variants.none c none) E
          (cc0__net1_kernel i arg1 harg1 arg2 harg2 arg3 harg3 arg4 harg4 arg5 harg5 arg6 harg6 arg7 harg7 arg8 harg8 arg9 harg9 arg10 harg10 arg11 harg11 arg12 harg12) K := by
  simp only [cc0__net1_kernel_eq_skeleton]; unfold cc0__net1_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (coverB _)
  isplitl [H10]
  · iexists _; isplitr
    swap; · iexact H10
    ipureintro
    exact View.read_writes_eq_canon _ _ _ (coverB _)
  iexists _; isplitr
  swap; · iexact H11
  ipureintro
  exact View.read_writes_eq_canon _ _ _ (coverB _)

/-! ## The body obligation, at a generic point -/

/-- What the body is called with at point t (the body obligation's precondition, the windows one by one), -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d))
    ∗ (∃ d, owns (c : Thread nD τ) (st0_11 t) fullShare ((dat V c).before 11 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t)
    ∗ owns (c : Thread nD τ) (st0_11 t) fullShare ((dat V c).after 11 t))

/-- The body at any point: the inputs' memrefs hold their blocks (before_0 to before_8), so sound_kernel applies; the
    invariant and the core's owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8]
  rw [show (dat V c).Φ t.succ = (dat V c).Φ t.castSucc from rfl,
    show (dat V c).owesAt () t.succ = (dat V c).owesAt () t.castSucc from rfl,
    after_in0, after_in1, after_in2, after_in3, after_in4, after_in5, after_in6, after_in7, after_in8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _
    (iblk V c 0 t) (iblk V c 1 t) (iblk V c 2 t) (iblk V c 3 t) (iblk V c 4 t) (iblk V c 5 t) (iblk V c 6 t) (iblk V c 7 t) (iblk V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Net1

end
-- ==== Proof.SharedArray.lean ====
/-
  One array behind two windows.

  The edge network's twelve windows stand on ELEVEN distinct buffers: the gathered object rows are read through
  window 0 (the subjects' rows) and window 2 (the objects' rows).  While the call runs each of those two windows
  holds half of that buffer's ownership, every other window all of its own.  So the eleven buffers, each held
  whole at contents `V`, are exactly the twelve windows' arrays at `A w = V (the buffer of w)`: the gathered
  rows' ownership is split into its two halves one way and joined again the other way.
-/
import proofs.«419366_j60232621359657_3_alg».proof.Proof.Net1Body

set_option maxRecDepth 16384

noncomputable section

namespace Cert.KernelIdeal.SharedArray

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The eleven distinct buffers behind the twelve windows, in window order. -/
abbrev buffers : List (Ref sig .tc) :=
  [main_v5, main_arg1, main_v6, main_v7, main_v8, main_v9, main_arg5, main_v10, main_v11_0, main_v11_1, main_v11_2]

theorem buffers_eq : Finset.univ.image (Pipeline.arrRef spec0) = buffers.toFinset := by decide
theorem buffers_nodup : buffers.Nodup := by decide

variable (V' : (c : Dev nD) → (b : Ref sig .tc) → Buf (Elt F) ((c : Thread nD τ).loc b))

/-- Each window's share of its array: the two windows on the gathered rows a half each, the others everything. -/
theorem share_0 (c : Dev nD) : (Net1.dat V' c).share 0 = fullShare.left := by
  unfold Dat.share; rw [if_neg (by decide)]; exact Net1.q_0 V' c
theorem share_2 (c : Dev nD) : (Net1.dat V' c).share 2 = fullShare.right := by
  unfold Dat.share; rw [if_neg (by decide)]; exact Net1.q_2 V' c
theorem share_in (c : Dev nD) (w : Fin cfg0.W) (hin : (cfg0.win w).isOut = false) (h0 : w ≠ 0) (h2 : w ≠ 2) :
    (Net1.dat V' c).share w = fullShare := by
  unfold Dat.share; rw [if_neg (by rw [hin]; decide)]; exact Net1.q_full V' c w h0 h2
theorem share_out (c : Dev nD) (w : Fin cfg0.W) (hout : (cfg0.win w).isOut = true) : (Net1.dat V' c).share w = fullShare := by
  unfold Dat.share; rw [if_pos hout]

/-- The eleven buffers each whole at `V` are the twelve windows' arrays at `A w = V (the buffer of w)`. -/
theorem arrays_iff_buffers (c : Dev nD) (V : (b : Ref sig .tc) → Buf (Elt F) ((c : Thread nD τ).loc b))
    (A : (w : Fin cfg0.W) → Buf (Elt F) ((cfg0.win w).arr.view.loc (c : Thread nD τ)))
    (hA : ∀ w, A w = V (Pipeline.arrRef spec0 w)) :
    (Pipeline.arrBufs (Ix := Unit) (Name := ℕ) (U := UR sig nD τ) (Lvl := ℕ) spec0 c V : sProp 𝕄) ⊣⊢ (Net1.dat V' c).arrays A := by
  have hR : (Net1.dat V' c).arrays A
      = bigSep Finset.univ fun w : Fin cfg0.W =>
          ((((c : Thread nD τ).loc (Pipeline.arrRef spec0 w)) ↦{(Net1.dat V' c).share w} V (Pipeline.arrRef spec0 w)) : sProp 𝕄) := by
    unfold Dat.arrays
    exact bigSep_congr fun w _ => by rw [(arr_whole0 w).set_eq_univ, hA w]
  have hL : (Pipeline.arrBufs (Ix := Unit) (Name := ℕ) (U := UR sig nD τ) (Lvl := ℕ) spec0 c V : sProp 𝕄)
      = iprop((((c : Thread nD τ).loc main_v5) ↦{fullShare} V main_v5) ∗ (((c : Thread nD τ).loc main_arg1) ↦{fullShare} V main_arg1)
          ∗ (((c : Thread nD τ).loc main_v6) ↦{fullShare} V main_v6) ∗ (((c : Thread nD τ).loc main_v7) ↦{fullShare} V main_v7)
          ∗ (((c : Thread nD τ).loc main_v8) ↦{fullShare} V main_v8) ∗ (((c : Thread nD τ).loc main_v9) ↦{fullShare} V main_v9)
          ∗ (((c : Thread nD τ).loc main_arg5) ↦{fullShare} V main_arg5) ∗ (((c : Thread nD τ).loc main_v10) ↦{fullShare} V main_v10)
          ∗ (((c : Thread nD τ).loc main_v11_0) ↦{fullShare} V main_v11_0) ∗ (((c : Thread nD τ).loc main_v11_1) ↦{fullShare} V main_v11_1)
          ∗ (((c : Thread nD τ).loc main_v11_2) ↦{fullShare} V main_v11_2)) := by
    unfold Pipeline.arrBufs
    exact bigSep_eq_bigSepL_of_eq buffers buffers_eq buffers_nodup _
  rw [hR, hL, bigSep_W0, share_0, share_2,
    share_in V' c 1 rfl (by decide) (by decide), share_in V' c 3 rfl (by decide) (by decide), share_in V' c 4 rfl (by decide) (by decide),
    share_in V' c 5 rfl (by decide) (by decide), share_in V' c 6 rfl (by decide) (by decide), share_in V' c 7 rfl (by decide) (by decide),
    share_in V' c 8 rfl (by decide) (by decide), share_out V' c 9 rfl, share_out V' c 10 rfl, share_out V' c 11 rfl]
  have hsh : ((((c : Thread nD τ).loc main_v5) ↦{fullShare} V main_v5) : sProp 𝕄)
      ⊣⊢ iprop((((c : Thread nD τ).loc main_v5) ↦{fullShare.left} V main_v5) ∗ (((c : Thread nD τ).loc main_v5) ↦{fullShare.right} V main_v5)) :=
    pointsTo_share (PosShare.mem_left_op_right fullShare)
  show _ ⊣⊢ iprop((((c : Thread nD τ).loc main_v5) ↦{fullShare.left} V main_v5) ∗ (((c : Thread nD τ).loc main_arg1) ↦{fullShare} V main_arg1)
          ∗ (((c : Thread nD τ).loc main_v5) ↦{fullShare.right} V main_v5)
          ∗ (((c : Thread nD τ).loc main_v6) ↦{fullShare} V main_v6) ∗ (((c : Thread nD τ).loc main_v7) ↦{fullShare} V main_v7)
          ∗ (((c : Thread nD τ).loc main_v8) ↦{fullShare} V main_v8) ∗ (((c : Thread nD τ).loc main_v9) ↦{fullShare} V main_v9)
          ∗ (((c : Thread nD τ).loc main_arg5) ↦{fullShare} V main_arg5) ∗ (((c : Thread nD τ).loc main_v10) ↦{fullShare} V main_v10)
          ∗ (((c : Thread nD τ).loc main_v11_0) ↦{fullShare} V main_v11_0) ∗ (((c : Thread nD τ).loc main_v11_1) ↦{fullShare} V main_v11_1)
          ∗ (((c : Thread nD τ).loc main_v11_2) ↦{fullShare} V main_v11_2))
  constructor
  · iintro ⟨H5, H1, H6, H7, H8, H9, HA5, H10, Ho0, Ho1, Ho2⟩
    ihave H5' := hsh.1 $$ H5
    icases H5' with ⟨H5l, H5r⟩
    isplitl [H5l]; · iexact H5l
    isplitl [H1]; · iexact H1
    isplitl [H5r]; · iexact H5r
    isplitl [H6]; · iexact H6
    isplitl [H7]; · iexact H7
    isplitl [H8]; · iexact H8
    isplitl [H9]; · iexact H9
    isplitl [HA5]; · iexact HA5
    isplitl [H10]; · iexact H10
    isplitl [Ho0]; · iexact Ho0
    isplitl [Ho1]; · iexact Ho1
    iexact Ho2
  · iintro ⟨H5l, H1, H5r, H6, H7, H8, H9, HA5, H10, Ho0, Ho1, Ho2⟩
    isplitl [H5l H5r]
    · iapply hsh.2; isplitl [H5l]; · iexact H5l
      iexact H5r
    isplitl [H1]; · iexact H1
    isplitl [H6]; · iexact H6
    isplitl [H7]; · iexact H7
    isplitl [H8]; · iexact H8
    isplitl [H9]; · iexact H9
    isplitl [HA5]; · iexact HA5
    isplitl [H10]; · iexact H10
    isplitl [Ho0]; · iexact Ho0
    isplitl [Ho1]; · iexact Ho1
    iexact Ho2

end Cert.KernelIdeal.SharedArray

end
-- ==== Proof.Net2Body.lean ====
/- The node network's body (custom_call 1 of @main) at a parameter `V`, the TensorCore's buffer contents when the
   region is entered: each window's block at a grid point, the output buffer after the body as one piece through the
   whole-block rectangle, the body's triple, the pipeline's proof data and the body obligation at every point. -/
import proofs.«419366_j60232621359657_3_alg».proof.Proof.Gen.KernelIdeal.Launch
import proofs.«419366_j60232621359657_3_alg».proof.Proof.Gen.KernelIdeal.Skeleton
import proofs.«419366_j60232621359657_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 20000 rows: the elaborator's structural look recurses once per coordinate of the
-- long axis
set_option maxRecDepth 16384

noncomputable section

namespace Cert.KernelIdeal.Net2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched at each of them, for any proof data whose
    array is `V`'s (`hA`) and whose body leaves the block in place (`hafter`): where the window is not fetched its
    block index has not moved since the last fetch. -/
theorem before_in0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, though fetched at the first only, for any proof data whose
    array is `V`'s (`hA`) and whose body leaves the block in place (`hafter`): where the window is not fetched its
    block index has not moved since the last fetch. -/
theorem before_in1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, though fetched at the first only, for any proof data whose
    array is `V`'s (`hA`) and whose body leaves the block in place (`hafter`): where the window is not fetched its
    block index has not moved since the last fetch. -/
theorem before_in2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, though fetched at the first only, for any proof data whose
    array is `V`'s (`hA`) and whose body leaves the block in place (`hafter`): where the window is not fetched its
    block index has not moved since the last fetch. -/
theorem before_in3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, though fetched at the first only, for any proof data whose
    array is `V`'s (`hA`) and whose body leaves the block in place (`hafter`): where the window is not fetched its
    block index has not moved since the last fetch. -/
theorem before_in4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rB : Rect S20000x128 := Rect.unit (s := S20000x128) ![0, 0] S20000x128.size inb_S20000x128_S20000x128_0_0
abbrev rW : Rect S128x128 := Rect.unit (s := S128x128) ![0, 0] S128x128.size inb_S128x128_S128x128_0_0
abbrev rb : Rect S1x128 := Rect.unit (s := S1x128) ![0, 0] S1x128.size inb_S1x128_S1x128_0_0

/-! ## What the body leaves in the output window's buffer -/

/-- Window 5's staging buffer after the body, from the five input windows' blocks: its one store as one piece through
    the whole-block rectangle, the payload the two-layer network of the row block. -/
def out5 (x0 : Vec F S20000x128 .f32) (x1 : Vec F S128x128 .f32) (x2 : Vec F S1x128 .f32) (x3 : Vec F S128x128 .f32) (x4 : Vec F S1x128 .f32) : Vec F S20000x128 .f32 :=
  View.canon [⟨rB, k1_pay1 (View.ld x0 rB) (View.ld x1 rW) (View.ld x2 rb) (View.ld x3 rW) (View.ld x4 rb)⟩]

/-- The one store's rectangle is the whole block, so it covers the buffer. -/
theorem cover5 (p0 : Vec F S20000x128 .f32) (y : S20000x128.Idx) :
    ∃ pc ∈ ([⟨rB, p0⟩] : List (View.Piece (Elt F) S20000x128 .f32)), y ∈ pc.1.set :=
  View.cover_of_tiled [⟨rB, p0⟩] S20000x128.size (by rfl) y

/-! ## The body's triple -/

set_option maxHeartbeats 1000000 in
/-- The kernel body on whole staging memrefs, the five inputs' at read contents `x0 … x4` and the output's at anything,
    runs to the continuation holding the inputs' as they were and the output's at `out5` of the inputs': five whole-block
    loads, a load of the output buffer whose value is never used, and one whole-block store of the payload. -/
theorem sound_kernel (c : Dev nD) (E : Set ℕ) (i : grid1.Coords)
    (arg1 : Memref sig .tc .vmem S20000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S20000x128 .f32) (harg6 : arg6.IsWhole)
    (x0 : Vec F S20000x128 .f32) (x1 : Vec F S128x128 .f32) (x2 : Vec F S1x128 .f32) (x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x2 x3 x4)) -∗ K ⟨⟩))
      ⊢ wp frame (wpE (defs₀ (F := F)) Variants.none c none) E
          (cc1__net2_kernel i arg1 harg1 arg2 harg2 arg3 harg3 arg4 harg4 arg5 harg5 arg6 harg6) K := by
  simp only [cc1__net2_kernel_eq_skeleton]; unfold cc1__net2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The pipeline's proof data -/

/-- The proof data of the pipeline on core `c`: the arrays as the region finds them (`V`); after the body at point
    `t` each input's buffer at its block and the output's at `out5` of the input blocks; the invariant the scoped rest
    and the generator register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := Pipeline.ΦA spec1 c
  q _ := fullShare
  owed _ := 0

/-- The proof data's arrays are the region-entry contents. -/
theorem A_eq (c : Dev nD) (w : Fin cfg1.W) : (dat V c).A w = V c (Pipeline.arrRef spec1 w) := by
  dsimp only [dat]

/-- What the body leaves, window by window. -/
theorem after_in0 (c : Dev nD) (t : Fin cfg1.N) : (dat V c).after 0 t = iblk V c 0 t := by dsimp only [dat]
theorem after_in1 (c : Dev nD) (t : Fin cfg1.N) : (dat V c).after 1 t = iblk V c 1 t := by dsimp only [dat]
theorem after_in2 (c : Dev nD) (t : Fin cfg1.N) : (dat V c).after 2 t = iblk V c 2 t := by dsimp only [dat]
theorem after_in3 (c : Dev nD) (t : Fin cfg1.N) : (dat V c).after 3 t = iblk V c 3 t := by dsimp only [dat]
theorem after_in4 (c : Dev nD) (t : Fin cfg1.N) : (dat V c).after 4 t = iblk V c 4 t := by dsimp only [dat]
theorem after5 (c : Dev nD) (t : Fin cfg1.N) :
    (dat V c).after 5 t = out5 (iblk V c 0 t) (iblk V c 1 t) (iblk V c 2 t) (iblk V c 3 t) (iblk V c 4 t) := by dsimp only [dat]

/-- Nothing is owed at any point. -/
theorem owed_zero (c : Dev nD) (t) : (dat V c).owed t = 0 := rfl

/-- Each input's current staging buffer holds its block at every point, fetched there or not. -/
theorem before_in0 (c : Dev nD) (t : Fin cfg1.N) (d) : (dat V c).before 0 t d = iblk V c 0 t :=
  before_in0_of V (dat V c) (A_eq V c 0) (after_in0 V c) t d
theorem before_in1 (c : Dev nD) (t : Fin cfg1.N) (d) : (dat V c).before 1 t d = iblk V c 1 t :=
  before_in1_of V (dat V c) (A_eq V c 1) (after_in1 V c) t d
theorem before_in2 (c : Dev nD) (t : Fin cfg1.N) (d) : (dat V c).before 2 t d = iblk V c 2 t :=
  before_in2_of V (dat V c) (A_eq V c 2) (after_in2 V c) t d
theorem before_in3 (c : Dev nD) (t : Fin cfg1.N) (d) : (dat V c).before 3 t d = iblk V c 3 t :=
  before_in3_of V (dat V c) (A_eq V c 3) (after_in3 V c) t d
theorem before_in4 (c : Dev nD) (t : Fin cfg1.N) (d) : (dat V c).before 4 t d = iblk V c 4 t :=
  before_in4_of V (dat V c) (A_eq V c 4) (after_in4 V c) t d

/-! ## The body obligation, at a generic point -/

/-- What the body is called with at point `t` (the obligation's precondition, the windows one by one), -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' memrefs hold their blocks (`before_inK`), so `sound_kernel` applies; the
    invariant and the core's `owes` pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in0, before_in1, before_in2, before_in3, before_in4]
  rw [show (dat V c).Φ t.succ = (dat V c).Φ t.castSucc from rfl,
    show (dat V c).owesAt () t.succ = (dat V c).owesAt () t.castSucc from rfl,
    after_in0, after_in1, after_in2, after_in3, after_in4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _
    (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Net2

end
-- ==== Proof.Run.lean ====
/-
  The kernel program's run, boundary by boundary.

  @main is three stretches of host operations, the edge network's pallas_call, one more stretch, the node
  network's pallas_call.  Between two items every buffer that no pallas_call stages holds a known array: the
  launch contents, then each stretch's operations applied in order, then — after a pallas_call — the same
  contents with the call's result arrays replaced by what its grid points wrote back, block after block.
  The edge network reads ONE array (the gathered object rows) through two of its windows, the subject rows
  in blocks 0 … 79 and the object rows in blocks 80 … 159; while that call runs each of the two windows holds
  half of the array's ownership, and the halves are joined again when it ends.  Every execution ends with
  each such buffer at the last boundary's array.
-/
import proofs.«419366_j60232621359657_3_alg».proof.Proof.Net1Body
import proofs.«419366_j60232621359657_3_alg».proof.Proof.SharedArray
import proofs.«419366_j60232621359657_3_alg».proof.Proof.Net2Body
import proofs.«419366_j60232621359657_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at each boundary -/

/-- At launch. -/
abbrev atLaunch (c : Dev nD) : Valuation τ sig (Elt F) := fun b => m (c, b)
/-- After the index columns and their concatenation. -/
abbrev atTake (c : Dev nD) : Valuation τ sig (Elt F) := StableHlo.after hostOps0 (atLaunch m c)
/-- After the gather. -/
abbrev atSlices (c : Dev nD) : Valuation τ sig (Elt F) := StableHlo.after hostOps0_1 (atTake m c)
/-- As the edge network's call finds them. -/
abbrev atCall0 (c : Dev nD) : Valuation τ sig (Elt F) := StableHlo.after hostOps0_2 (atSlices m c)
/-- The same read at the core's own references. -/
abbrev vCall0 : (c : Dev nD) → (b : Ref sig .tc) → Buf (Elt F) ((c : Thread nD τ).loc b) := fun c b => atCall0 m c b

/-- As the edge network's call leaves them: its three result arrays at what the eighty points wrote back. -/
def afterCall0 (c : Dev nD) : Valuation τ sig (Elt F) :=
  Function.update (Function.update (Function.update (atCall0 m c)
    main_v11_0 ((Net1.dat (vCall0 m) c).arrAt 9 cfg0.N))
    main_v11_1 ((Net1.dat (vCall0 m) c).arrAt 10 cfg0.N))
    main_v11_2 ((Net1.dat (vCall0 m) c).arrAt 11 cfg0.N)

/-- As the node network's call finds them. -/
abbrev atCall1 (c : Dev nD) : Valuation τ sig (Elt F) := StableHlo.after hostOps1 (afterCall0 m c)
abbrev vCall1 : (c : Dev nD) → (b : Ref sig .tc) → Buf (Elt F) ((c : Thread nD τ).loc b) := fun c b => atCall1 m c b

/-- As the node network's call leaves them. -/
def afterCall1 (c : Dev nD) : Valuation τ sig (Elt F) :=
  Pipeline.withArrays spec1 c (atCall1 m c) fun w => (Net2.dat (vCall1 m) c).arrAt w cfg1.N

theorem afterCall1_arr (c : Dev nD) (w : Fin cfg1.W) :
    afterCall1 m c (Proc.devRef .tc (Pipeline.arrRef spec1 w)) = (Net2.dat (vCall1 m) c).arrAt w cfg1.N := by
  unfold afterCall1; exact Pipeline.withArrays_arr spec1 launch1.win.arr_inj c _ _ w
theorem afterCall1_of_ne (c : Dev nD) (b : Ref sig .tc) (hb : ∀ w, Pipeline.arrRef spec1 w ≠ b) :
    afterCall1 m c (Proc.devRef .tc b) = atCall1 m c (Proc.devRef .tc b) := by
  unfold afterCall1; exact Pipeline.withArrays_of_ne spec1 c _ _ b hb
abbrev vAfter1 : (c : Dev nD) → (b : Ref sig .tc) → Buf (Elt F) ((c : Thread nD τ).loc b) := fun c b => afterCall1 m c b
theorem exit1_arr (c : Dev nD) (w : Fin cfg1.W) : (Net2.dat (vCall1 m) c).arrAt w cfg1.N = vAfter1 m c (Pipeline.arrRef spec1 w) :=
  (afterCall1_arr m c w).symm
theorem exit1_rest (c : Dev nD) : ∀ b, b ∉ Finset.univ.image (Pipeline.arrRef spec1) → vAfter1 m c b = vCall1 m c b :=
  fun b hb => afterCall1_of_ne m c b fun w e => hb (Finset.mem_image.mpr ⟨w, Finset.mem_univ _, e⟩)

/-- The edge network's exit contents at a result array, and off the three of them. -/
theorem afterCall0_v11_0 (c : Dev nD) : afterCall0 m c (Proc.devRef .tc main_v11_0) = (Net1.dat (vCall0 m) c).arrAt 9 cfg0.N := by
  unfold afterCall0
  rw [Function.update_of_ne (StableHlo.devRef_ne_of_ne (by decide) : (Proc.devRef .tc main_v11_0 : DevRef τ sig) ≠ Proc.devRef .tc main_v11_2),
    Function.update_of_ne (StableHlo.devRef_ne_of_ne (by decide) : (Proc.devRef .tc main_v11_0 : DevRef τ sig) ≠ Proc.devRef .tc main_v11_1)]
  exact Function.update_self ..
theorem afterCall0_v11_1 (c : Dev nD) : afterCall0 m c (Proc.devRef .tc main_v11_1) = (Net1.dat (vCall0 m) c).arrAt 10 cfg0.N := by
  unfold afterCall0
  rw [Function.update_of_ne (StableHlo.devRef_ne_of_ne (by decide) : (Proc.devRef .tc main_v11_1 : DevRef τ sig) ≠ Proc.devRef .tc main_v11_2)]
  exact Function.update_self ..
theorem afterCall0_v11_2 (c : Dev nD) : afterCall0 m c (Proc.devRef .tc main_v11_2) = (Net1.dat (vCall0 m) c).arrAt 11 cfg0.N := by
  unfold afterCall0
  exact Function.update_self ..
theorem afterCall0_of_ne (c : Dev nD) (r : Ref sig .tc) (h : r ∉ ([main_v11_0, main_v11_1, main_v11_2] : List (Ref sig .tc))) :
    afterCall0 m c (Proc.devRef .tc r) = atCall0 m c (Proc.devRef .tc r) := by
  unfold afterCall0
  rw [Function.update_of_ne (StableHlo.devRef_ne_of_ne (List.ne_of_not_mem_cons (List.not_mem_of_not_mem_cons (List.not_mem_of_not_mem_cons h))) : (Proc.devRef .tc r : DevRef τ sig) ≠ Proc.devRef .tc main_v11_2),
    Function.update_of_ne (StableHlo.devRef_ne_of_ne (List.ne_of_not_mem_cons (List.not_mem_of_not_mem_cons h)) : (Proc.devRef .tc r : DevRef τ sig) ≠ Proc.devRef .tc main_v11_1),
    Function.update_of_ne (StableHlo.devRef_ne_of_ne (List.ne_of_not_mem_cons h) : (Proc.devRef .tc r : DevRef τ sig) ≠ Proc.devRef .tc main_v11_0)]
abbrev vAfter0 : (c : Dev nD) → (b : Ref sig .tc) → Buf (Elt F) ((c : Thread nD τ).loc b) := fun c b => afterCall0 m c b

/-- At the edge network's exit every window's array is the exit contents at its buffer: an input's array was never
    written, a result's is what the points wrote. -/
theorem exit0_in (c : Dev nD) (w : Fin cfg0.W) (hin : (cfg0.win w).isOut = false)
    (hne : Pipeline.arrRef spec0 w ∉ ([main_v11_0, main_v11_1, main_v11_2] : List (Ref sig .tc))) :
    (Net1.dat (vCall0 m) c).arrAt w cfg0.N = vAfter0 m c (Pipeline.arrRef spec0 w) :=
  ((Net1.dat (vCall0 m) c).arrAt_in w hin _).trans ((Net1.A_eq (vCall0 m) c w).trans (afterCall0_of_ne m c _ hne).symm)
theorem exit0_arr (c : Dev nD) : ∀ w : Fin cfg0.W, (Net1.dat (vCall0 m) c).arrAt w cfg0.N = vAfter0 m c (Pipeline.arrRef spec0 w)
  | ⟨0, _⟩ => exit0_in m c 0 rfl (by decide)
  | ⟨1, _⟩ => exit0_in m c 1 rfl (by decide)
  | ⟨2, _⟩ => exit0_in m c 2 rfl (by decide)
  | ⟨3, _⟩ => exit0_in m c 3 rfl (by decide)
  | ⟨4, _⟩ => exit0_in m c 4 rfl (by decide)
  | ⟨5, _⟩ => exit0_in m c 5 rfl (by decide)
  | ⟨6, _⟩ => exit0_in m c 6 rfl (by decide)
  | ⟨7, _⟩ => exit0_in m c 7 rfl (by decide)
  | ⟨8, _⟩ => exit0_in m c 8 rfl (by decide)
  | ⟨9, _⟩ => (afterCall0_v11_0 m c).symm
  | ⟨10, _⟩ => (afterCall0_v11_1 m c).symm
  | ⟨11, _⟩ => (afterCall0_v11_2 m c).symm
theorem exit0_rest (c : Dev nD) : ∀ b, b ∉ Finset.univ.image (Pipeline.arrRef spec0) → vAfter0 m c b = vCall0 m c b := fun b hb =>
  afterCall0_of_ne m c b fun h => hb (by
    rcases List.mem_cons.mp h with rfl | h
    · exact Finset.mem_image.mpr ⟨9, Finset.mem_univ _, rfl⟩
    rcases List.mem_cons.mp h with rfl | h
    · exact Finset.mem_image.mpr ⟨10, Finset.mem_univ _, rfl⟩
    rcases List.mem_cons.mp h with rfl | h
    · exact Finset.mem_image.mpr ⟨11, Finset.mem_univ _, rfl⟩
    · exact absurd h List.not_mem_nil)

/-! ## The proof data of both calls, and what rides beside the buffers -/

/-- Each call's proof data at the contents its call is entered from. -/
def pdat : (p : Fin 2) → (c : Dev nD) → Dat τ (Elt F) Unit ℕ (UR sig nD τ) ℕ (Pipeline.pin (pcfgs (F := F)) adm p) c
  | ⟨0, _⟩ => fun c => Net1.dat (vCall0 m) c
  | ⟨1, _⟩ => fun c => Net2.dat (vCall1 m) c
abbrev noVariants : Variants := Variants.none
/-- No core owes another anything: no level is assigned. -/
abbrev noPairs : GSem nD τ sig → Finset Unit := fun _ => ∅
abbrev noLevel : GSem nD τ sig → Unit → ℕ := fun _ _ => 0
/-- Beside the buffers: the core's generator register at some state, and the core owing nothing. -/
abbrev beside (c : Dev nD) : sProp 𝕄 := iprop((∃ r, prngReg c r) ∗ ∃ W, owes (c : Thread nD τ) (0 : CellTallies nD τ sig Unit) W)
/-- A stretch of host operations from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the `owes`. -/
abbrev atEnd (c : Dev nD) : sProp 𝕄 := iprop(StableHlo.held (c : Thread nD τ) (Pipeline.ucRefs τ sig) (afterCall1 m c) ∗ ∃ r, prngReg c r)

/-! ## The two calls as items of @main -/

set_option backward.isDefEq.respectTransparency.types false in
/-- The edge network's call: entered from every tracked buffer at `atCall0`, left at `afterCall0`.  At entry the
    eleven buffers behind its windows are taken out of the tracked ones and dealt to the twelve windows; at exit they
    are put back, the three result arrays at what the points wrote. -/
def region0 : Pipeline.RegionSeg (pcfgs (F := F)) adm (pdat m) () defs₀ noVariants noPairs noLevel 0 where
  win := winFacts₀0
  block_pos := block_pos0
  stage_whole := stage_whole0
  K := PEmpty
  osem k := k.elim
  ho := Pipeline.OwnSemFacts.none _
  hbody c := (Net1.body_obligation (vCall0 m) c).loose
  hwaits := Pipeline.hwaits_of_owed_zero _ _ _ _ noPairs noLevel 0 fun _ _ => rfl
  pre c := iprop(StableHlo.held (c : Thread nD τ) (Pipeline.ucRefs τ sig) (atCall0 m c) ∗ beside c)
  post c := iprop(StableHlo.held (c : Thread nD τ) (Pipeline.ucRefs τ sig) (afterCall0 m c) ∗ beside c)
  X c := iprop(∃ r, prngReg c r)
  Y c := iprop(∃ r, prngReg c r)
  Z c := Pipeline.unscopedRest (Ix := Unit) (Name := ℕ) (U := UR sig nD τ) (Lvl := ℕ) spec0 c (vCall0 m c)
  hentry c := by
    rw [Pipeline.ownSems0_none]
    have hsplit : (unscopedBufs c (vCall0 m c) : sProp 𝕄)
        ⊢ iprop((pdat m 0 c).arrays ((pdat m 0 c).arrAt · 0) ∗ Pipeline.unscopedRest spec0 c (vCall0 m c)) := by
      rw [Pipeline.unscopedBufs_split₀ (Pipeline.pin (pcfgs (F := F)) adm) 0 winFacts₀0.arr_unscoped c (vCall0 m c)]
      exact sep_mono (SharedArray.arrays_iff_buffers (vCall0 m) c (vCall0 m c) _ fun w => Net1.A_eq (vCall0 m) c w).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdat m 0 c).arrays ((pdat m 0 c).arrAt · cfg0.N) ∗ Pipeline.unscopedRest spec0 c (vCall0 m c))
        ⊢ (unscopedBufs c (vAfter0 m c) : sProp 𝕄) := by
      rw [Pipeline.unscopedBufs_split₀ (Pipeline.pin (pcfgs (F := F)) adm) 0 winFacts₀0.arr_unscoped c (vAfter0 m c)]
      refine sep_mono (SharedArray.arrays_iff_buffers (vCall0 m) c (vAfter0 m c) _ (exit0_arr m c)).2 (Entails.of_eq ?_)
      unfold Pipeline.unscopedRest
      exact bigSep_congr fun b hb => by rw [exit0_rest m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node network's call: entered from `atCall1`, left at `afterCall1`; its six windows are on six distinct
    buffers, each held whole. -/
def region1 : Pipeline.RegionSeg (pcfgs (F := F)) adm (pdat m) () defs₀ noVariants noPairs noLevel 1 where
  win := launch1.win.to₀
  block_pos := launch1.block_pos
  stage_whole := launch1.stage_whole
  K := PEmpty
  osem k := k.elim
  ho := Pipeline.OwnSemFacts.none _
  hbody c := (Net2.body_obligation (vCall1 m) c).loose
  hwaits := Pipeline.hwaits_of_owed_zero _ _ _ _ noPairs noLevel 1 fun _ _ => rfl
  pre c := iprop(StableHlo.held (c : Thread nD τ) (Pipeline.ucRefs τ sig) (atCall1 m c) ∗ beside c)
  post c := iprop(atEnd m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (vCall1 m c)
  hentry c := by
    rw [Pipeline.ownSems0_none]
    have hsplit := Pipeline.arrays_of_unscopedBufs (p := 1) (pcfgs (F := F)) adm (pdat m) launch1.win launch1.arr_whole c
      ((pdat m 1 c).share_full fun _ => rfl) (vCall1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdat m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdat m) ((pdat m 1 c).share_full fun _ => rfl)
      (vCall1 m c) (vAfter1 m c) ((pdat m 1 c).arrAt · cfg1.N) (exit1_arr m c) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its items, and the run -/

/-- @main's six items in order. -/
abbrev items : List (Pipeline.Seg (pcfgs (F := F)) adm (pdat m) () defs₀ noVariants noPairs noLevel) :=
  [ .host (stretch hostOps0 hostOps0_sub hostOps0_fresh (atLaunch m)),
    .host (stretch hostOps0_1 hostOps0_1_sub hostOps0_1_fresh (atTake m)),
    .host (stretch hostOps0_2 hostOps0_2_sub hostOps0_2_fresh (atSlices m)),
    .region (region0 m),
    .host (stretch hostOps1 hostOps1_sub hostOps1_fresh (afterCall0 m)),
    .region (region1 m) ]

set_option backward.isDefEq.respectTransparency.types false in
/-- Every weakly fair execution of @main from memory `m` with zero counters ends, nothing faulting, with every buffer
    no pallas_call stages at the last boundary's contents. -/
theorem run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = afterCall1 m c b) :=
  Pipeline.θ_run_regions_kit_dev (pcfgs (F := F)) adm (pdat m) () cellOf_inj emb₁ defs₀ noVariants noPairs noLevel m ρ main (fun _ => items m)
    (fun c Q => by
      rewrite [main_chain c, Pipeline.Seg.run_eq_chain,
        show (items m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      exact .rfl)
    (fun c => by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m c) ∗ beside c)) (Tₙ := atEnd m)
    (hch := fun c => ⟨.rfl, .rfl, .rfl, .rfl, .rfl, .rfl, .rfl⟩)
    (hinit := by
      refine Pipeline.initEach noPairs noLevel fun c => ?_
      rw [show unscopedBufs c (fun b => m ((c : Thread nD τ).loc b)) = StableHlo.held (c : Thread nD τ) (Pipeline.ucRefs τ sig) (atLaunch m c)
        from Pipeline.unscopedBufs_held c (atLaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = afterCall1 m c b)
    (hfin := fun c s' => by
      iintro ⟨⟨Hh, -⟩, HSI⟩
      unfold StableHlo.held
      imodintro
      iapply (pointsTo_read_all (Pipeline.ucRefs τ sig) (fun b => (((c : Thread nD τ)).1, b)) (afterCall1 m c) s')
      isplitl [Hh] <;> iassumption)
    (hQ := fun s h c => h c)

end Cert.KernelIdeal.Run

end
-- ==== Proof.Frames.lean ====
/-
  The argument arrays end as launched.

  No host operation of the kernel's program writes an argument array and no pallas_call has one as a result:
  an argument is either not touched by a call at all, or read through an input window, whose array is never
  written.  So each argument's buffer at the last boundary walks back, item by item, to the launch memory, and the
  run's end state has every argument as launched.
-/
import proofs.«419366_j60232621359657_3_alg».proof.Proof.Run

set_option maxRecDepth 16384

noncomputable section

namespace Cert.KernelIdeal.Run

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- A buffer none of the three first stretches writes is, at the edge network's entry, as launched. -/
theorem atCall0_kept (c : Dev nD) (b : Ref sig .tc) (h0 : b ∉ hostOps0_W) (h1 : b ∉ hostOps0_1_W) (h2 : b ∉ hostOps0_2_W) :
    atCall0 m c (Proc.devRef .tc b) = m ((c.tc : Thread nD τ).loc b) :=
  (StableHlo.after_of_writes_sub hostOps0_2 _ hostOps0_2_writes h2).trans <|
    (StableHlo.after_of_writes_sub hostOps0_1 _ hostOps0_1_writes h1).trans <|
      (StableHlo.after_of_writes_sub hostOps0 _ hostOps0_writes h0).trans rfl

/-- The same at the node network's entry, for a buffer that is also no result of the edge network and that the
    fourth stretch does not write. -/
theorem atCall1_kept (c : Dev nD) (b : Ref sig .tc) (h0 : b ∉ hostOps0_W) (h1 : b ∉ hostOps0_1_W) (h2 : b ∉ hostOps0_2_W)
    (ho : b ∉ ([main_v11_0, main_v11_1, main_v11_2] : List (Ref sig .tc))) (h3 : b ∉ hostOps1_W) :
    atCall1 m c (Proc.devRef .tc b) = m ((c.tc : Thread nD τ).loc b) :=
  (StableHlo.after_of_writes_sub hostOps1 _ hostOps1_writes h3).trans <|
    (afterCall0_of_ne m c b ho).trans (atCall0_kept m c b h0 h1 h2)

/-- At the end, a buffer the node network does not window. -/
theorem end_bypass (c : Dev nD) (b : Ref sig .tc) (h0 : b ∉ hostOps0_W) (h1 : b ∉ hostOps0_1_W) (h2 : b ∉ hostOps0_2_W)
    (ho : b ∉ ([main_v11_0, main_v11_1, main_v11_2] : List (Ref sig .tc))) (h3 : b ∉ hostOps1_W)
    (hw : ∀ w, Pipeline.arrRef spec1 w ≠ b) :
    afterCall1 m c (Proc.devRef .tc b) = m ((c.tc : Thread nD τ).loc b) :=
  (afterCall1_of_ne m c b hw).trans (atCall1_kept m c b h0 h1 h2 ho h3)

/-- At the end, the array of an input window of the node network. -/
theorem end_window (c : Dev nD) (w : Fin cfg1.W) (hin : (cfg1.win w).isOut = false)
    (h0 : Pipeline.arrRef spec1 w ∉ hostOps0_W) (h1 : Pipeline.arrRef spec1 w ∉ hostOps0_1_W) (h2 : Pipeline.arrRef spec1 w ∉ hostOps0_2_W)
    (ho : Pipeline.arrRef spec1 w ∉ ([main_v11_0, main_v11_1, main_v11_2] : List (Ref sig .tc))) (h3 : Pipeline.arrRef spec1 w ∉ hostOps1_W) :
    afterCall1 m c (Proc.devRef .tc (Pipeline.arrRef spec1 w)) = m ((c.tc : Thread nD τ).loc (Pipeline.arrRef spec1 w)) :=
  (afterCall1_arr m c w).trans <| ((Net2.dat (vCall1 m) c).arrAt_in w hin _).trans <|
    (Net2.A_eq (vCall1 m) c w).trans (atCall1_kept m c _ h0 h1 h2 ho h3)

theorem end_main_arg0 (c : Dev nD) : afterCall1 m c (Proc.devRef .tc main_arg0) = m ((c.tc : Thread nD τ).loc main_arg0) :=
  end_bypass m c main_arg0 (by decide) (by decide) (by decide) (by decide) (by decide) (by decide)
theorem end_main_arg1 (c : Dev nD) : afterCall1 m c (Proc.devRef .tc main_arg1) = m ((c.tc : Thread nD τ).loc main_arg1) :=
  end_bypass m c main_arg1 (by decide) (by decide) (by decide) (by decide) (by decide) (by decide)
theorem end_main_arg2 (c : Dev nD) : afterCall1 m c (Proc.devRef .tc main_arg2) = m ((c.tc : Thread nD τ).loc main_arg2) :=
  end_bypass m c main_arg2 (by decide) (by decide) (by decide) (by decide) (by decide) (by decide)
theorem end_main_arg3 (c : Dev nD) : afterCall1 m c (Proc.devRef .tc main_arg3) = m ((c.tc : Thread nD τ).loc main_arg3) :=
  end_bypass m c main_arg3 (by decide) (by decide) (by decide) (by decide) (by decide) (by decide)
theorem end_main_arg4 (c : Dev nD) : afterCall1 m c (Proc.devRef .tc main_arg4) = m ((c.tc : Thread nD τ).loc main_arg4) :=
  end_bypass m c main_arg4 (by decide) (by decide) (by decide) (by decide) (by decide) (by decide)
theorem end_main_arg5 (c : Dev nD) : afterCall1 m c (Proc.devRef .tc main_arg5) = m ((c.tc : Thread nD τ).loc main_arg5) :=
  end_bypass m c main_arg5 (by decide) (by decide) (by decide) (by decide) (by decide) (by decide)
theorem end_main_arg6 (c : Dev nD) : afterCall1 m c (Proc.devRef .tc main_arg6) = m ((c.tc : Thread nD τ).loc main_arg6) :=
  end_bypass m c main_arg6 (by decide) (by decide) (by decide) (by decide) (by decide) (by decide)
theorem end_main_arg7 (c : Dev nD) : afterCall1 m c (Proc.devRef .tc main_arg7) = m ((c.tc : Thread nD τ).loc main_arg7) :=
  end_window m c 1 rfl (by decide) (by decide) (by decide) (by decide) (by decide)
theorem end_main_arg8 (c : Dev nD) : afterCall1 m c (Proc.devRef .tc main_arg8) = m ((c.tc : Thread nD τ).loc main_arg8) :=
  end_bypass m c main_arg8 (by decide) (by decide) (by decide) (by decide) (by decide) (by decide)
theorem end_main_arg9 (c : Dev nD) : afterCall1 m c (Proc.devRef .tc main_arg9) = m ((c.tc : Thread nD τ).loc main_arg9) :=
  end_window m c 3 rfl (by decide) (by decide) (by decide) (by decide) (by decide)
theorem end_main_arg10 (c : Dev nD) : afterCall1 m c (Proc.devRef .tc main_arg10) = m ((c.tc : Thread nD τ).loc main_arg10) :=
  end_bypass m c main_arg10 (by decide) (by decide) (by decide) (by decide) (by decide) (by decide)

/-- Every weakly fair execution of @main from memory `m` with zero counters ends, nothing faulting, with each argument
    array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (end_main_arg0 m c),
    (h c _ (mem_uc main_arg1 (by decide))).trans (end_main_arg1 m c),
    (h c _ (mem_uc main_arg2 (by decide))).trans (end_main_arg2 m c),
    (h c _ (mem_uc main_arg3 (by decide))).trans (end_main_arg3 m c),
    (h c _ (mem_uc main_arg4 (by decide))).trans (end_main_arg4 m c),
    (h c _ (mem_uc main_arg5 (by decide))).trans (end_main_arg5 m c),
    (h c _ (mem_uc main_arg6 (by decide))).trans (end_main_arg6 m c),
    (h c _ (mem_uc main_arg7 (by decide))).trans (end_main_arg7 m c),
    (h c _ (mem_uc main_arg8 (by decide))).trans (end_main_arg8 m c),
    (h c _ (mem_uc main_arg9 (by decide))).trans (end_main_arg9 m c),
    (h c _ (mem_uc main_arg10 (by decide))).trans (end_main_arg10 m c)⟩) (run m ρ)

end Cert.KernelIdeal.Run

end
-- ==== Proof.HostTerms.lean ====
/-
  The host operations of the kernel's program around its two pallas_calls, as functions of the arrays they read.

  Before the first call: the two index columns of the edge list, their concatenation, the wrap of negative indices
  (i < 0 ↦ i + 100000), the in-range mask 0 ≤ i ≤ 99999, and the row gather of the object table with the rows of
  masked-out indices replaced by a fill value.  Between the calls: the two segment sums of the edge messages into
  the 100000 node slots, the neighbour counts (segment sums of ones), and the quotient by max(count, 1).
-/
import proofs.«419366_j60232621359657_3_alg».proof.Proof.Gen.KernelIdeal

noncomputable section

namespace Cert.KernelIdeal.HostTerms

open Cert.KernelIdeal Cert.KernelIdeal.Facts₀ Cert.KernelIdeal.Facts Idealize.ShloMosaic

variable {F : FTy → Type} [FloatOps F]

/-- Column 0 of the edge list: each edge's subject index. -/
def sIdx (e : IVec S400000x2 32) : IVec S400000 32 :=
  shapeCast _ (extractStridedSlice S400000x1 ![0, 0] e slices_S400000x2_S400000x1_0_0) shapeCasts_S400000x1_S400000

/-- Column 1 of the edge list: each edge's object index. -/
def oIdx (e : IVec S400000x2 32) : IVec S400000 32 :=
  shapeCast _ (extractStridedSlice S400000x1 ![0, 1] e slices_S400000x2_S400000x1_0_1) shapeCasts_S400000x1_S400000

/-- Subjects then objects: the 800000 indices of the one gather. -/
def bothIdx (e : IVec S400000x2 32) : IVec S800000 32 :=
  concatenate S800000 0 [⟨S400000, sIdx e⟩, ⟨S400000, oIdx e⟩] concatenates_S400000_S400000_S800000_d0

/-- Negative indices wrapped once: i < 0 ↦ i + 100000. -/
def wrapped (e : IVec S400000x2 32) : IVec S800000 32 :=
  select (cmpi .slt (bothIdx e) (broadcastInDim S800000 ![] bcast_S_S800000 (constantI S_ 32 0#32)))
    (addi (bothIdx e) (broadcastInDim S800000 ![] bcast_S_S800000 (constantI S_ 32 100000#32)))
    (bothIdx e)

/-- The wrapped indices as the gather's start indices. -/
def startIdx (e : IVec S400000x2 32) : IVec S800000x1 32 :=
  broadcastInDim S800000x1 ![0] bcast_S800000_S800000x1_0 (wrapped e)

/-- The mask 0 ≤ i ≤ 99999 of the wrapped indices. -/
def inRange (e : IVec S400000x2 32) : IVec S800000 1 :=
  Host.reduce IntOp.andi
    (andi (cmpi .sge (startIdx e) (broadcastInDim S800000x1 ![] bcast_S_S800000x1 (constantI S_ 32 0#32)))
      (cmpi .sle (startIdx e)
        (broadcastInDim S800000x1 ![0, 1] bcast_S1x1_S800000x1_0_1 (broadcastInDim S1x1 ![1] bcast_S1_S1x1_1 (constantI S1 32 99999#32)))))
    (constantI S_ 1 1#1) reducesTo_S800000x1_S800000_d1 h_S_

/-- The gathered rows of the object table: row r is the table's row at wrapped index r where the mask holds, the
    fill value elsewhere. -/
def gathered (x : FVec F S100000x128 .f32) (e : IVec S400000x2 32) : FVec F S800000x128 .f32 :=
  select (broadcastInDim S800000x128 ![0] bcast_S800000_S800000x128_0 (inRange e))
    (Host.gather gather_S100000x128_S800000x1_S800000x128_1_0_n_n_0_1_1128 x (startIdx e))
    (broadcastInDim S800000x128 ![] bcast_S_S800000x128 (constant S_ .f32 0x7FC00000#32))

/-- The three 128-row pieces of the first layer's 384-row weight matrix. -/
def w1aRows0 (w : FVec F S384x128 .f32) : FVec F S128x128 .f32 := extractStridedSlice S128x128 ![0, 0] w slices_S384x128_S128x128_0_0
def w1aRows1 (w : FVec F S384x128 .f32) : FVec F S128x128 .f32 := extractStridedSlice S128x128 ![128, 0] w slices_S384x128_S128x128_128_0
def w1aRows2 (w : FVec F S384x128 .f32) : FVec F S128x128 .f32 := extractStridedSlice S128x128 ![256, 0] w slices_S384x128_S128x128_256_0

/-- A bias vector as a one-row matrix. -/
def row128 (b : FVec F S128 .f32) : FVec F S1x128 .f32 := shapeCast _ b shapeCasts_S128_S1x128
def row384 (b : FVec F S384 .f32) : FVec F S1x384 .f32 := shapeCast _ b shapeCasts_S384_S1x384

/-- The messages summed into their nodes: subject messages by subject index plus object messages by object index. -/
def pooled (ns no : FVec F S400000x128 .f32) (e : IVec S400000x2 32) : FVec F S100000x128 .f32 :=
  addf
    (Host.scatterAdd scatter_S100000x128_S400000x1_S400000x128_1_0_0_1
      (broadcastInDim S100000x128 ![] bcast_S_S100000x128 (constant S_ .f32 0x00000000#32))
      (broadcastInDim S400000x1 ![0] bcast_S400000_S400000x1_0 (sIdx e)) ns)
    (Host.scatterAdd scatter_S100000x128_S400000x1_S400000x128_1_0_0_1
      (broadcastInDim S100000x128 ![] bcast_S_S100000x128 (constant S_ .f32 0x00000000#32))
      (broadcastInDim S400000x1 ![0] bcast_S400000_S400000x1_0 (oIdx e)) no)

/-- Each node's number of incident edge ends. -/
def counts (e : IVec S400000x2 32) : FVec F S100000 .f32 :=
  addf
    (Host.scatterAdd scatter_S100000_S400000x1_S400000_n_0_0_1
      (broadcastInDim S100000 ![] bcast_S_S100000 (constant S_ .f32 0x00000000#32))
      (broadcastInDim S400000x1 ![0] bcast_S400000_S400000x1_0 (sIdx e))
      (broadcastInDim S400000 ![] bcast_S_S400000 (constant S_ .f32 0x3F800000#32)))
    (Host.scatterAdd scatter_S100000_S400000x1_S400000_n_0_0_1
      (broadcastInDim S100000 ![] bcast_S_S100000 (constant S_ .f32 0x00000000#32))
      (broadcastInDim S400000x1 ![0] bcast_S400000_S400000x1_0 (oIdx e))
      (broadcastInDim S400000 ![] bcast_S_S400000 (constant S_ .f32 0x3F800000#32)))

/-- The pooled messages averaged: divided by max(count, 1), the divisor broadcast along the feature axis. -/
def norm (ns no : FVec F S400000x128 .f32) (e : IVec S400000x2 32) : FVec F S100000x128 .f32 :=
  Host.divf (pooled ns no e)
    (broadcastInDim S100000x128 ![0, 1] bcast_S100000x1_S100000x128_0_1
      (broadcastInDim S100000x1 ![0] bcast_S100000_S100000x1_0
        (maximumf (counts (F := F) e) (broadcastInDim S100000 ![] bcast_S_S100000 (constant S_ .f32 0x3F800000#32)))))

end Cert.KernelIdeal.HostTerms

end
-- ==== Proof.HostRead.lean ====
/-
  What each buffer the two pallas_calls read holds when the call is reached, as a function of the launch arrays.

  The program's host operations run in four stretches.  Each stretch rewrites the buffers it writes and leaves the
  others; read back one stretch at a time, a buffer written by a stretch holds the composed term of the operations
  that feed it, and a buffer no stretch writes holds what the launch put there.
-/
import proofs.«419366_j60232621359657_3_alg».proof.Proof.Gen.KernelIdeal.Regions
import proofs.«419366_j60232621359657_3_alg».proof.Proof.HostTerms
import Idealize.ShloMosaic.Lib.StableHlo.Run

noncomputable section

namespace Cert.KernelIdeal.HostRead

open Cert.KernelIdeal Cert.KernelIdeal.Facts₀ Cert.KernelIdeal.Facts Cert.KernelIdeal.Gen Cert.KernelIdeal.HostTerms
open Idealize.ShloMosaic Idealize.ShloMosaic.TcCoe Idealize.ShloMosaic.StableHlo

variable {F : FTy → Type} [FloatOps F]

local macro "R" b:term:max : term => `(Proc.devRef (τ := τ) .tc $b)

/-- the buffers as the first call finds them, from any launch contents W -/
abbrev entry0 (W : Valuation τ sig (Elt F)) : Valuation τ sig (Elt F) :=
  StableHlo.after hostOps0_2 (StableHlo.after hostOps0_1 (StableHlo.after hostOps0 W))

/-! ### The third stretch: the weight's row pieces and the bias rows -/

/-- a buffer the first two stretches do not write holds its launch contents when the third stretch begins -/
theorem pre2_keep (W : Valuation τ sig (Elt F)) (b : Ref sig .tc) (h0 : b ∉ hostOps0_W) (h1 : b ∉ hostOps0_1_W) :
    StableHlo.after hostOps0_1 (StableHlo.after hostOps0 W) (R b) = W (R b) :=
  (StableHlo.after_of_writes_sub hostOps0_1 _ hostOps0_1_writes h1).trans
    (StableHlo.after_of_writes_sub hostOps0 _ hostOps0_writes h0)

theorem entry0_v6 (W : Valuation τ sig (Elt F)) : entry0 W (R main_v6) = w1aRows0 (W (R main_arg3)) := by
  show StableHlo.after hostOps0_2 _ (Proc.devRef .tc main_v6) = _
  after_results
  rfl

theorem entry0_v7 (W : Valuation τ sig (Elt F)) : entry0 W (R main_v7) = w1aRows1 (W (R main_arg3)) := by
  show StableHlo.after hostOps0_2 _ (Proc.devRef .tc main_v7) = _
  after_results
  rfl

theorem entry0_v8 (W : Valuation τ sig (Elt F)) : entry0 W (R main_v8) = w1aRows2 (W (R main_arg3)) := by
  show StableHlo.after hostOps0_2 _ (Proc.devRef .tc main_v8) = _
  after_results
  rfl

theorem entry0_v9 (W : Valuation τ sig (Elt F)) : entry0 W (R main_v9) = row128 (W (R main_arg4)) := by
  show StableHlo.after hostOps0_2 _ (Proc.devRef .tc main_v9) = _
  after_results
  rfl

theorem entry0_v10 (W : Valuation τ sig (Elt F)) : entry0 W (R main_v10) = row384 (W (R main_arg6)) := by
  show StableHlo.after hostOps0_2 _ (Proc.devRef .tc main_v10) = _
  after_results
  rfl

/-! ### The first stretch: the two index columns -/

theorem entry0_v1 (W : Valuation τ sig (Elt F)) : entry0 W (R main_v1) = sIdx (W (R main_arg2)) := by
  refine (StableHlo.after_of_writes_sub hostOps0_2 _ hostOps0_2_writes (by decide)).trans ?_
  refine (StableHlo.after_of_writes_sub hostOps0_1 _ hostOps0_1_writes (by decide)).trans ?_
  show StableHlo.after hostOps0 W (Proc.devRef .tc main_v1) = _
  after_results
  rfl

theorem entry0_v3 (W : Valuation τ sig (Elt F)) : entry0 W (R main_v3) = oIdx (W (R main_arg2)) := by
  refine (StableHlo.after_of_writes_sub hostOps0_2 _ hostOps0_2_writes (by decide)).trans ?_
  refine (StableHlo.after_of_writes_sub hostOps0_1 _ hostOps0_1_writes (by decide)).trans ?_
  show StableHlo.after hostOps0 W (Proc.devRef .tc main_v3) = _
  after_results
  rfl

/-! ### The launch arrays: no stretch writes them -/

/-- none of the eleven launch arrays is written by a stretch before the first call -/
theorem args_unwritten : ∀ b ∈ ([main_arg0, main_arg1, main_arg2, main_arg3, main_arg4, main_arg5, main_arg6, main_arg7, main_arg8,
      main_arg9, main_arg10] : List (Ref sig .tc)), b ∉ hostOps0_W ∧ b ∉ hostOps0_1_W ∧ b ∉ hostOps0_2_W := by
  decide

theorem entry0_arg (W : Valuation τ sig (Elt F)) (b : Ref sig .tc)
    (hb : b ∈ ([main_arg0, main_arg1, main_arg2, main_arg3, main_arg4, main_arg5, main_arg6, main_arg7, main_arg8, main_arg9,
      main_arg10] : List (Ref sig .tc))) : entry0 W (R b) = W (R b) := by
  obtain ⟨h0, h1, h2⟩ := args_unwritten b hb
  exact (StableHlo.after_of_writes_sub hostOps0_2 _ hostOps0_2_writes h2).trans (pre2_keep W b h0 h1)

theorem entry0_arg1 (W : Valuation τ sig (Elt F)) : entry0 W (R main_arg1) = W (R main_arg1) :=
  entry0_arg W main_arg1 (by decide)

theorem entry0_arg5 (W : Valuation τ sig (Elt F)) : entry0 W (R main_arg5) = W (R main_arg5) :=
  entry0_arg W main_arg5 (by decide)

/-! ### The second stretch: the wrapped, masked gather of the object table -/

theorem entry0_v5 (W : Valuation τ sig (Elt F)) :
    entry0 W (R main_v5) = gathered (F := F) (W (R main_arg0)) (W (R main_arg2)) := by
  refine (StableHlo.after_of_writes_sub hostOps0_2 _ hostOps0_2_writes (by decide)).trans ?_
  have h4 : StableHlo.after hostOps0 W (R main_v4) = bothIdx (W (R main_arg2)) := by
    after_results
    rfl
  have h0 : StableHlo.after hostOps0 W (R main_arg0) = W (R main_arg0) :=
    StableHlo.after_of_writes_sub hostOps0 _ hostOps0_writes (by decide)
  show StableHlo.after hostOps0_1 (StableHlo.after hostOps0 W) (Proc.devRef .tc main_v5) = _
  generalize StableHlo.after hostOps0 W = V at h4 h0 ⊢
  after_results_simp
  rw [h4, h0]
  simp only [TRef.ofBuf, TRef.toBuf, cast_eq]
  rfl

/-! ### The stretch between the calls -/

/-- the buffers as the second call finds them, from any contents W' at the first call's exit -/
abbrev entry1 (W' : Valuation τ sig (Elt F)) : Valuation τ sig (Elt F) := StableHlo.after hostOps1 W'

theorem entry1_keep (W' : Valuation τ sig (Elt F)) (b : Ref sig .tc) (hb : b ∉ hostOps1_W) : entry1 W' (R b) = W' (R b) :=
  StableHlo.after_of_writes_sub hostOps1 _ hostOps1_writes hb

theorem entry1_v32 (W' : Valuation τ sig (Elt F)) : entry1 W' (R main_v32) = row128 (W' (R main_arg8)) := by
  show StableHlo.after hostOps1 W' (Proc.devRef .tc main_v32) = _
  after_results
  rfl

theorem entry1_v33 (W' : Valuation τ sig (Elt F)) : entry1 W' (R main_v33) = row128 (W' (R main_arg10)) := by
  show StableHlo.after hostOps1 W' (Proc.devRef .tc main_v33) = _
  after_results
  rfl

theorem entry1_v31 (W' : Valuation τ sig (Elt F)) (e : IVec S400000x2 32) (hs : W' (R main_v1) = sIdx e)
    (ho : W' (R main_v3) = oIdx e) :
    entry1 W' (R main_v31) = norm (F := F) (W' (R main_v11_0)) (W' (R main_v11_2)) e := by
  show StableHlo.after hostOps1 W' (Proc.devRef .tc main_v31) = _
  after_results_simp
  rw [hs, ho]
  rfl

end Cert.KernelIdeal.HostRead

end
-- ==== Proof.HostTermsAt.lean ====
/-
  The small host terms read at an index: rows k, 128 + k and 256 + k of the first layer's 384-row weight matrix
  are rows k of its three 128-row pieces, and a bias vector laid out as a one-row matrix has, in column j of its
  only row, the vector's entry j.
-/
import proofs.«419366_j60232621359657_3_alg».proof.Proof.HostTerms
import Idealize.ShloMosaic.Lib.Pipeline.Value
import Idealize.ShloMosaic.Lib.ValueIdx

noncomputable section

namespace Cert.KernelIdeal.HostTerms

open Cert.KernelIdeal Cert.KernelIdeal.Facts₀ Cert.KernelIdeal.Facts Idealize.ShloMosaic Idealize.ShloMosaic.ValueIdx

variable {F : FTy → Type} [FloatOps F]

theorem w1aRows0_apply (w : FVec F S384x128 .f32) (k j : Fin 128) : w1aRows0 w (ix2 k j) = w (ix2 ⟨k.val, by omega⟩ j) := by
  unfold w1aRows0
  exact extractStridedSlice_apply ![0, 0] w slices_S384x128_S128x128_0_0 (ix2 k j) (ix2 ⟨k.val, by omega⟩ j) (fun a => match a with
    | ⟨0, _⟩ => by show k.val = 0 + k.val; omega
    | ⟨1, _⟩ => by show j.val = 0 + j.val; omega)

theorem w1aRows1_apply (w : FVec F S384x128 .f32) (k j : Fin 128) : w1aRows1 w (ix2 k j) = w (ix2 ⟨128 + k.val, by omega⟩ j) := by
  unfold w1aRows1
  exact extractStridedSlice_apply ![128, 0] w slices_S384x128_S128x128_128_0 (ix2 k j) (ix2 ⟨128 + k.val, by omega⟩ j) (fun a => match a with
    | ⟨0, _⟩ => by show 128 + k.val = 128 + k.val; rfl
    | ⟨1, _⟩ => by show j.val = 0 + j.val; omega)

theorem w1aRows2_apply (w : FVec F S384x128 .f32) (k j : Fin 128) : w1aRows2 w (ix2 k j) = w (ix2 ⟨256 + k.val, by omega⟩ j) := by
  unfold w1aRows2
  exact extractStridedSlice_apply ![256, 0] w slices_S384x128_S128x128_256_0 (ix2 k j) (ix2 ⟨256 + k.val, by omega⟩ j) (fun a => match a with
    | ⟨0, _⟩ => by show 256 + k.val = 256 + k.val; rfl
    | ⟨1, _⟩ => by show j.val = 0 + j.val; omega)

theorem row128_apply (b : FVec F S128 .f32) (j : Fin 128) : row128 b (ix2 0 j) = b (ix1 j) := by
  unfold row128
  refine shapeCast_apply b shapeCasts_S128_S1x128 (ix2 0 j) (ix1 j) ?_
  rw [Shape.rowMajor_val_one, Shape.rowMajor_val_two]
  show j.val = 0 * 128 + j.val
  omega

theorem row384_apply (b : FVec F S384 .f32) (j : Fin 384) : row384 b (ix2 0 j) = b (ix1 j) := by
  unfold row384
  refine shapeCast_apply b shapeCasts_S384_S1x384 (ix2 0 j) (ix1 j) ?_
  rw [Shape.rowMajor_val_one, Shape.rowMajor_val_two]
  show j.val = 0 * 384 + j.val
  omega

end Cert.KernelIdeal.HostTerms

end
-- ==== Proof.IndexRange.lean ====
/-
  The index range of the edge list and what it gives the row gather.

  The certificate's precondition says every entry of the edge list is a row number of the object table, 0 ≤ i < 100000.
  Under it the wrap of negative indices never fires and the mask 0 ≤ i ≤ 99999 of the wrapped indices holds everywhere, so
  the kernel's one gather of 800000 rows (subjects, then objects) reads, row by row, what the reference's two gathers of
  400000 rows read: row r is the first gather's row r for r < 400000 and the second's row r − 400000 from there on.

  A gather of whole rows — one collapsed axis carrying the start index, one offset axis carrying the row — reads, at
  (r, j), the table at (the start index of r read signed and clamped to the table's rows, j).
-/
import proofs.«419366_j60232621359657_3_alg».proof.Proof.HostTerms
import proofs.«419366_j60232621359657_3_alg».proof.Proof.RefImports
import proofs.«419366_j60232621359657_3_alg».proof.Proof.Gen.Pre_finite_inputs
import proofs.«419366_j60232621359657_3_alg».proof.Defs
import Idealize.ShloMosaic.Lib.ReduceAll
import Idealize.ShloMosaic.Lib.Pipeline.Value
import Idealize.ShloMosaic.Lib.ValueIdx
import Idealize.ShloMosaic.Lib.Affine

noncomputable section

namespace Cert.KernelIdeal.IndexRange

open Cert.KernelIdeal Cert.KernelIdeal.Facts₀ Cert.KernelIdeal.Facts Cert.KernelIdeal.HostTerms Idealize.ShloMosaic
open Idealize.ShloMosaic.ValueIdx Idealize.SL.Sem

variable {F : FTy → Type} [FloatOps F]

/-! ## A gather of whole rows, read at an index -/

section Rows
variable {α : Type}

/-- The dimension numbers of a gather of whole rows of an [N × C] table at an [R × 1] array of start indices. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry (v read signed and clamped into [0, N − 1], j) of an [N × C] table. -/
def clampedRow {N C w : Nat} (hN : 0 < N) (x : (⟨2, ![N, C]⟩ : Shape).Idx → α) (v : BitVec w) (j : Fin C) : α :=
  x (ix2 ⟨min v.toInt.toNat (N - 1), by omega⟩ j)

/-- The gather read at (r, j): the table at the start index of r, read signed and clamped into [0, N − 1], and j. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (j : Fin C) :
    Host.gather (rowDims N R C wf) x idx (ix2 r j) = clampedRow hN x (idx (ix2 r ⟨0, Nat.one_pos⟩)) j := by
  unfold Host.gather clampedRow
  congr 1
  funext a
  refine Fin.ext ?_
  match a with
  | ⟨0, _⟩ =>
    show (rowDims N R C wf).start (ix2 r j) idx 0 + (rowDims N R C wf).batchCoord (ix2 r j) 0
      + (rowDims N R C wf).offCoord (ix2 r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r j) ⟨List.idxOf (0 : Fin 2) (rowDims N R C wf).startIndexMap,
        List.idxOf_lt_length_iff.2 (List.mem_singleton.mpr rfl)⟩ = ix2 r ⟨0, Nat.one_pos⟩ := by
      funext b; refine Fin.ext ?_
      match b with
      | ⟨0, _⟩ => rfl
      | ⟨1, _⟩ => rfl
    rw [hsi]
    rfl
  | ⟨1, _⟩ =>
    show (rowDims N R C wf).start (ix2 r j) idx 1 + (rowDims N R C wf).batchCoord (ix2 r j) 1
      + (rowDims N R C wf).offCoord (ix2 r j) 1 = j.val
    rw [GatherDims.batchCoord_eq_zero _ _ _ List.not_mem_nil]
    unfold GatherDims.start
    rw [dif_neg (show ¬ (1 : Fin 2) ∈ ([0] : List (Fin 2)) by decide)]
    simp only [Nat.add_zero, Nat.zero_add]
    unfold GatherDims.offCoord
    rw [dif_pos ((GatherDims.mem_sKept (rowDims N R C wf) 1).mpr
      ⟨show ¬ (1 : Fin 2) ∈ ([0] : List (Fin 2)) by decide, List.not_mem_nil⟩)]
    rfl

end Rows

/-! ## A reduce by `and` of an array of ones -/

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have h11 : IntOp.andi 1#1 1#1 = 1#1 := by decide
    rw [List.foldl_cons, h a (List.mem_cons_self ..), h11]
    exact foldl_andi_one f l (fun n hn => h n (List.mem_cons_of_mem _ hn))

/-- A reduce by `and`, from an initial value of ones, of an array of ones is 1 at every index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_one x _ (fun n _ => hx n)

/-! ## The index stages at a row -/

/-- every entry of the edge list is a valid row number -/
def InRange (e : IVec S400000x2 32) : Prop := ∀ i : S400000x2.Idx, 0 ≤ (e i).toInt ∧ (e i).toInt < 100000

/-- The object table has a row. -/
theorem rows_pos : 0 < 100000 := by decide

/-- The wrap of a negative index, at one word: a nonnegative index is kept. -/
theorem wrap_of_nonneg (v : BitVec 32) (h0 : 0 ≤ v.toInt) :
    Scalar.select (IntOp.cmpi .slt v 0#32) (IntOp.addi v 100000#32) v = v := by
  have hz : (0#32 : BitVec 32).toInt = 0 := by decide
  have hn : ¬ IntOp.cmpi .slt v 0#32 = 1#1 := fun h => by
    have := IntOp.cmpi_slt.1 h
    rw [hz] at this
    omega
  rw [eq_zero_of_ne_one hn, select_zero]

/-- The subjects are column 0 of the edge list, read as the reference reads it. -/
theorem sIdx_eq_ref (e : IVec S400000x2 32) : sIdx e = Cert.ReferenceIdeal.Read.val_main_v1 (F := F) e := rfl

/-- The objects are column 1 of the edge list, read as the reference reads it. -/
theorem oIdx_eq_ref (e : IVec S400000x2 32) : oIdx e = Cert.ReferenceIdeal.Read.val_main_v3 (F := F) e := rfl

theorem sIdx_mem (e : IVec S400000x2 32) (he : InRange e) (i : S400000.Idx) :
    0 ≤ (sIdx e i).toInt ∧ (sIdx e i).toInt < 100000 := by
  rw [sIdx_eq_ref (F := Ideal) e, Cert.ReferenceIdeal.Read.val_main_v1_apply, Cert.ReferenceIdeal.Read.val_main_v0_apply]
  exact he _

theorem oIdx_mem (e : IVec S400000x2 32) (he : InRange e) (i : S400000.Idx) :
    0 ≤ (oIdx e i).toInt ∧ (oIdx e i).toInt < 100000 := by
  rw [oIdx_eq_ref (F := Ideal) e, Cert.ReferenceIdeal.Read.val_main_v3_apply, Cert.ReferenceIdeal.Read.val_main_v2_apply]
  exact he _

/-- The first 400000 of the concatenated indices are the subjects. -/
theorem bothIdx_subject (e : IVec S400000x2 32) (k : Fin 800000) (r : Fin 400000) (hk : k.val = r.val) :
    bothIdx e (ix1 k) = sIdx e (ix1 r) := by
  unfold bothIdx
  exact concatenate_pair_apply_left (0 : Fin S800000.rank) (sIdx e) (oIdx e) concatenates_S400000_S400000_S800000_d0
    (ix1 k) rfl (ix1 r) (fun b => match b with | ⟨0, _⟩ => hk.symm)

/-- The last 400000 of the concatenated indices are the objects. -/
theorem bothIdx_object (e : IVec S400000x2 32) (k : Fin 800000) (r : Fin 400000) (hk : k.val = 400000 + r.val) :
    bothIdx e (ix1 k) = oIdx e (ix1 r) := by
  unfold bothIdx
  exact concatenate_pair_apply_right (0 : Fin S800000.rank) (sIdx e) (oIdx e) concatenates_S400000_S400000_S800000_d0
    (ix1 k) rfl rfl (ix1 r) (fun b hb => absurd (Subsingleton.elim _ _) hb)
    (by show r.val + 400000 = k.val; omega)

theorem bothIdx_mem (e : IVec S400000x2 32) (he : InRange e) (i : S800000.Idx) :
    0 ≤ (bothIdx e i).toInt ∧ (bothIdx e i).toInt < 100000 := by
  obtain ⟨k, rfl⟩ : ∃ k : Fin 800000, i = ix1 k := ⟨i 0, eq_ix1 i⟩
  by_cases hk : k.val < 400000
  · rw [bothIdx_subject e k ⟨k.val, hk⟩ rfl]
    exact sIdx_mem e he _
  · rw [bothIdx_object e k ⟨k.val - 400000, by omega⟩ (by show k.val = 400000 + (k.val - 400000); omega)]
    exact oIdx_mem e he _

/-- Under the range precondition the wrap changes nothing. -/
theorem wrapped_eq (e : IVec S400000x2 32) (he : InRange e) (i : S800000.Idx) : wrapped e i = bothIdx e i :=
  wrap_of_nonneg (bothIdx e i) (bothIdx_mem e he i).1

/-- The start indices are the wrapped indices, one per row. -/
theorem startIdx_apply (e : IVec S400000x2 32) (i : S800000x1.Idx) : startIdx e i = wrapped e (ix1 (i 0)) := by
  unfold startIdx
  exact broadcastInDim_apply _ bcast_S800000_S800000x1_0 (wrapped e) i (ix1 (i 0)) (fun a => match a with
    | ⟨0, _⟩ => by show (i 0).val = if (800000 : Nat) = 1 then 0 else (i 0).val; rw [if_neg (by decide)])

/-- Under the range precondition the mask 0 ≤ i ≤ 99999 holds at every row. -/
theorem inRange_eq_one (e : IVec S400000x2 32) (he : InRange e) (j : S800000.Idx) : inRange e j = 1#1 := by
  unfold inRange
  refine reduce_andi_of_all _ _ _ _ (fun _ => rfl) (fun i => ?_) j
  show IntOp.andi (IntOp.cmpi .sge (startIdx e i) 0#32) (IntOp.cmpi .sle (startIdx e i) 99999#32) = 1#1
  have hz : (0#32 : BitVec 32).toInt = 0 := by decide
  have hn : (99999#32 : BitVec 32).toInt = 99999 := by decide
  have hm := bothIdx_mem e he (ix1 (i 0))
  rw [IntOp.andi_eq_one, IntOp.cmpi_sge, IntOp.cmpi_sle, startIdx_apply, wrapped_eq e he, hz, hn]
  omega

/-- Under the range precondition the kernel's gathered array at (k, j) is the table at (index k of the concatenated
    list, j): the mask holds, the wrap does nothing, and the clamp is what the gather itself does. -/
theorem gathered_apply (x : FVec F S100000x128 .f32) (e : IVec S400000x2 32) (he : InRange e) (k : Fin 800000) (j : Fin 128) :
    gathered x e (ix2 k j) = clampedRow rows_pos x (bothIdx e (ix1 k)) j := by
  have hm : broadcastInDim S800000x128 ![0] bcast_S800000_S800000x128_0 (inRange e) (ix2 k j) = 1#1 := by
    rw [broadcastInDim_apply _ bcast_S800000_S800000x128_0 (inRange e) (ix2 k j) (ix1 k) (fun a => match a with
      | ⟨0, _⟩ => by show k.val = if (800000 : Nat) = 1 then 0 else k.val; rw [if_neg (by decide)])]
    exact inRange_eq_one e he _
  unfold gathered
  show Scalar.select (broadcastInDim S800000x128 ![0] bcast_S800000_S800000x128_0 (inRange e) (ix2 k j)) _ _ = _
  rw [hm, select_one]
  show Host.gather (rowDims 100000 800000 128 gather_S100000x128_S800000x1_S800000x128_1_0_n_n_0_1_1128_wf) x (startIdx e)
    (ix2 k j) = _
  rw [gather_rows_apply rows_pos, startIdx_apply, wrapped_eq e he]

/-- The reference's wrapped subject index: under the range precondition, the subject index itself. -/
theorem ref_v8_eq (e : IVec S400000x2 32) (he : InRange e) (i : S400000.Idx) :
    Cert.ReferenceIdeal.Read.val_main_v8 (F := F) e i = sIdx e i := by
  rw [Cert.ReferenceIdeal.Read.val_main_v8_apply, Cert.ReferenceIdeal.Read.val_main_v5_apply,
    Cert.ReferenceIdeal.Read.val_main_v7_apply, Cert.ReferenceIdeal.Read.val_main_v4_apply,
    Cert.ReferenceIdeal.Read.val_main_v6_apply, Cert.ReferenceIdeal.Read.val_main_c_apply,
    Cert.ReferenceIdeal.Read.val_main_c_0_apply]
  exact wrap_of_nonneg _ (sIdx_mem e he i).1

/-- The reference's wrapped object index: under the range precondition, the object index itself. -/
theorem ref_v15_eq (e : IVec S400000x2 32) (he : InRange e) (i : S400000.Idx) :
    Cert.ReferenceIdeal.Read.val_main_v15 (F := F) e i = oIdx e i := by
  rw [Cert.ReferenceIdeal.Read.val_main_v15_apply, Cert.ReferenceIdeal.Read.val_main_v12_apply,
    Cert.ReferenceIdeal.Read.val_main_v14_apply, Cert.ReferenceIdeal.Read.val_main_v11_apply,
    Cert.ReferenceIdeal.Read.val_main_v13_apply, Cert.ReferenceIdeal.Read.val_main_c_1_apply,
    Cert.ReferenceIdeal.Read.val_main_c_2_apply]
  exact wrap_of_nonneg _ (oIdx_mem e he i).1

/-- The reference's first gather at (r, j): the table at (its wrapped subject index r, clamped, j). -/
theorem ref_v10_apply (x : FVec F S100000x128 .f32) (e : IVec S400000x2 32) (r : Fin 400000) (j : Fin 128) :
    Cert.ReferenceIdeal.Read.val_main_v10 (F := F) x e (ix2 r j)
      = clampedRow rows_pos x (Cert.ReferenceIdeal.Read.val_main_v8 (F := F) e (ix1 r)) j := by
  show Host.gather (rowDims 100000 400000 128
      Cert.ReferenceIdeal.Facts₀.gather_S100000x128_S400000x1_S400000x128_1_0_n_n_0_1_1128_wf) x
      (Cert.ReferenceIdeal.Read.val_main_v9 (F := F) e) (ix2 r j) = _
  rw [gather_rows_apply rows_pos, Cert.ReferenceIdeal.Read.val_main_v9_apply]
  rfl

/-- The reference's second gather at (r, j): the table at (its wrapped object index r, clamped, j). -/
theorem ref_v17_apply (x : FVec F S100000x128 .f32) (e : IVec S400000x2 32) (r : Fin 400000) (j : Fin 128) :
    Cert.ReferenceIdeal.Read.val_main_v17 (F := F) x e (ix2 r j)
      = clampedRow rows_pos x (Cert.ReferenceIdeal.Read.val_main_v15 (F := F) e (ix1 r)) j := by
  show Host.gather (rowDims 100000 400000 128
      Cert.ReferenceIdeal.Facts₀.gather_S100000x128_S400000x1_S400000x128_1_0_n_n_0_1_1128_wf) x
      (Cert.ReferenceIdeal.Read.val_main_v16 (F := F) e) (ix2 r j) = _
  rw [gather_rows_apply rows_pos, Cert.ReferenceIdeal.Read.val_main_v16_apply]
  rfl

/-! ## The two halves of the kernel's gather are the reference's two gathers -/

theorem gathered_subject (x : FVec F S100000x128 .f32) (e : IVec S400000x2 32) (he : InRange e) (r : Fin 400000) (j : Fin 128) :
    gathered (F := F) x e (ValueIdx.ix2 ⟨r.val, by omega⟩ j) = Cert.ReferenceIdeal.Read.val_main_v10 (F := F) x e (ValueIdx.ix2 r j) := by
  rw [gathered_apply x e he, ref_v10_apply, ref_v8_eq e he, bothIdx_subject e _ r rfl]

theorem gathered_object (x : FVec F S100000x128 .f32) (e : IVec S400000x2 32) (he : InRange e) (r : Fin 400000) (j : Fin 128) :
    gathered (F := F) x e (ValueIdx.ix2 ⟨400000 + r.val, by omega⟩ j) = Cert.ReferenceIdeal.Read.val_main_v17 (F := F) x e (ValueIdx.ix2 r j) := by
  rw [gathered_apply x e he, ref_v17_apply, ref_v15_eq e he, bothIdx_object e _ r rfl]

/-! ## The range, read off the printed precondition -/

/-- Where an `and` of two one-bit arrays is 1, both are. -/
theorem vec_andi_eq_one {s : Shape} {a b : IVec s 1} {i : s.Idx} (h : andi a b i = 1#1) : a i = 1#1 ∧ b i = 1#1 :=
  IntOp.andi_eq_one.1 h

/-- The printed predicate ends in `all(e ≥ 0) ∧ all(e < 100000)`: where it is 1, every entry of `e` is in range. The
    conjuncts before these two (the float arrays' finiteness) are dropped. -/
theorem inRange_of_fn (a0 : FVec Ideal Cert.Pre_finite_inputs.S100000x128 .f32) (a1 : FVec Ideal Cert.Pre_finite_inputs.S400000x128 .f32)
    (e : IVec Cert.Pre_finite_inputs.S400000x2 32) (a3 : FVec Ideal Cert.Pre_finite_inputs.S384x128 .f32)
    (a4 : FVec Ideal Cert.Pre_finite_inputs.S128 .f32) (a5 : FVec Ideal Cert.Pre_finite_inputs.S128x384 .f32)
    (a6 : FVec Ideal Cert.Pre_finite_inputs.S384 .f32) (a7 : FVec Ideal Cert.Pre_finite_inputs.S128x128 .f32)
    (a8 : FVec Ideal Cert.Pre_finite_inputs.S128 .f32) (a9 : FVec Ideal Cert.Pre_finite_inputs.S128x128 .f32)
    (a10 : FVec Ideal Cert.Pre_finite_inputs.S128 .f32)
    (h : Cert.Pre_finite_inputs.fn (F := Ideal) a0 a1 e a3 a4 a5 a6 a7 a8 a9 a10 = fun _ => 1#1) : InRange e := by
  haveI : Subsingleton Cert.Pre_finite_inputs.S_.Idx := ⟨fun a b => funext fun d => d.elim0⟩
  have h1 := congrFun h ValueIdx.ix0
  dsimp only [Cert.Pre_finite_inputs.fn, Cert.Pre_finite_inputs.fn_part1, Cert.Pre_finite_inputs.fn_part2,
    Cert.Pre_finite_inputs.fn_part3] at h1
  obtain ⟨h52, h55⟩ := vec_andi_eq_one h1
  obtain ⟨_, h51⟩ := vec_andi_eq_one h52
  intro i
  have hz : (0#32 : BitVec 32).toInt = 0 := by decide
  have hn : (100000#32 : BitVec 32).toInt = 100000 := by decide
  have hge : (0#32 : BitVec 32).toInt ≤ (e i).toInt := IntOp.cmpi_sge.1 (Host.reduce_andi_all _ _ _ _ _ h51 i)
  have hlt : (e i).toInt < (100000#32 : BitVec 32).toInt := IntOp.cmpi_slt.1 (Host.reduce_andi_all _ _ _ _ _ h55 i)
  rw [hz] at hge
  rw [hn] at hlt
  exact ⟨hge, hlt⟩

theorem inRange_of_pre (m : (ℓ : Loc nD τ sig) → Buf (Elt Ideal) ℓ) (h : Cert.Pre_KernelIdeal m) (c : Dev nD) :
    InRange (m ((c.tc : Thread nD τ).loc main_arg2)) :=
  inRange_of_fn _ _ _ _ _ _ _ _ _ _ _ (h c)

end Cert.KernelIdeal.IndexRange

end
-- ==== Proof.Spec.lean ====
/-
  The two small networks of the graph convolution, one row at a time, over the extended reals.

  An edge's hidden vector: the rectified sum of three 128-term contractions — the subject's row, the
  predicate's row and the object's row, each against its own 128 rows of the first weight matrix — and a bias.
  An edge's 384 outputs: one contraction of the hidden vector with a 128×384 matrix, plus a bias; columns
  0 … 127 go to the subject, 128 … 255 are the new predicate vector, 256 … 383 go to the object.
  A node's new vector: a 128×128 layer, rectified, then another 128×128 layer.

  The one law that relates the kernel's three partial products to the reference's single product over the
  concatenated row: a sum over 384 terms is the sum of its three consecutive 128-term pieces.  Addition on the
  extended reals is commutative and associative, so nothing about finiteness is needed.
-/
import Idealize.ShloMosaic.PureOps.Ideal.Laws

noncomputable section

namespace Cert.TripleConv

open scoped BigOperators

/-- One edge's hidden vector at feature `j`. -/
def hidden (hs pv ho : Fin 128 → EReal) (Ws Wp Wo : Fin 128 → Fin 128 → EReal) (b : Fin 128 → EReal) (j : Fin 128) : EReal :=
  max ((((∑ k, hs k * Ws k j) + ∑ k, pv k * Wp k j) + ∑ k, ho k * Wo k j) + b j) 0

/-- One edge's output at column `c` of the 384. -/
def edgeOut (h : Fin 128 → EReal) (W : Fin 128 → Fin 384 → EReal) (b : Fin 384 → EReal) (c : Fin 384) : EReal :=
  (∑ k, h k * W k c) + b c

/-- One node's new vector at feature `j`. -/
def nodeOut (x : Fin 128 → EReal) (Wa Wb : Fin 128 → Fin 128 → EReal) (ba bb : Fin 128 → EReal) (j : Fin 128) : EReal :=
  (∑ k, max ((∑ k', x k' * Wa k' k) + ba k) 0 * Wb k j) + bb j

/-- A sum over 384 terms is the sum of its three consecutive 128-term pieces. -/
theorem sum_three_blocks (f : Fin 384 → EReal) :
    ∑ k : Fin 384, f k
      = ((∑ k : Fin 128, f ⟨k.val, by omega⟩) + ∑ k : Fin 128, f ⟨128 + k.val, by omega⟩) + ∑ k : Fin 128, f ⟨256 + k.val, by omega⟩ := by
  have h1 : ∑ k : Fin 384, f k = ∑ k : Fin (256 + 128), f (Fin.cast (by norm_num) k) := by
    exact (Fintype.sum_equiv (finCongr (by norm_num : 256 + 128 = 384)) _ _ fun k => rfl).symm
  have h2 : ∀ g : Fin 256 → EReal, ∑ k : Fin 256, g k = ∑ k : Fin (128 + 128), g (Fin.cast (by norm_num) k) := fun g =>
    (Fintype.sum_equiv (finCongr (by norm_num : 128 + 128 = 256)) _ _ fun k => rfl).symm
  rw [h1, Fin.sum_univ_add, h2, Fin.sum_univ_add]
  rfl

end Cert.TripleConv

end
-- ==== Proof.Net1Value.lean ====
/-
  The edge network's call read as arrays: each of its three [400000,128] results is ONE function of the
  arrays the call reads, entry by entry.

  The call has 80 points.  Point t reads rows 5000 t … 5000 t + 4999 of the gathered node array (the subjects'
  rows), the same rows of the predicate array, and rows 400000 + 5000 t … of the SAME gathered array (the
  objects' rows: block 80 + t), together with three [128,128] weight matrices, a [1,128] bias, a [128,384]
  weight matrix and a [1,384] bias, each whole.  Its body forms, for each of the 5000 rows, the hidden vector
  max(((hs·Ws + pv·Wp) + ho·Wo) + b, 0) and from it the 384 outputs h·W + b', and stores columns 0 … 127,
  128 … 255 and 256 … 383 to rows 5000 t … of the three results.  So row p of point t's blocks is edge
  5000 t + p, the blocks of the 80 points tile each result, and entry (r, j) of result number i is output
  128 i + j of edge r (edgeRow).

  The order: a 128-term contraction of the body read at an entry; the body's [5000,384] value at an entry as one
  edge's output (the hidden layer once, for all three results); the three stored column slices; each window's
  block read at an entry as an entry of its array, the index maps decided once over the 80 points; what a point
  writes back as a block of the result function; every row r lies in the block of point r / 5000; the arrays.
-/
import proofs.«419366_j60232621359657_3_alg».proof.Proof.Net1Body
import proofs.«419366_j60232621359657_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Net1Value

open Cert.KernelIdeal Cert.KernelIdeal.Gen
open Idealize.ShloMosaic Idealize.ShloMosaic.TcCoe Idealize.ShloMosaic.ValueIdx
open Idealize.ShloMosaic.Pipeline (Dat)
open scoped BigOperators

/-! ## A contraction of the body read at an index -/

theorem lhs_dotH_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dotH_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_dotH_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dotH_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A row block times a square weight matrix into the zero accumulator: entry (p, j) is the sum over k of
    the block's (p, k) times the matrix's (k, j). -/
theorem matmulH_apply (l : FVec Ideal S5000x128 .f32) (r : FVec Ideal S128x128 .f32) (p : Fin 5000) (j : Fin 128) :
    matmul (F := Ideal) dot_S5000x128_S128x128_S5000x128_1_0_0_1_n_n none l r (constant (F := Ideal) S5000x128 .f32 0x00000000#32) (ix2 p j)
      = ∑ k : Fin 128, l (ix2 p k) * r (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p j) ((contrEquiv1 dot_S5000x128_S128x128_S5000x128_1_0_0_1_n_n 128 rfl rfl).symm k) = ix2 p k := funext fun a => Fin.ext (by
    match a with
    | ⟨0, _⟩ => exact lhs_dotH_0 _ _
    | ⟨1, _⟩ => exact (lhs_dotH_1 _ _).trans hk)
  have er : dot_S5000x128_S128x128_S5000x128_1_0_0_1_n_n.rhsIdx (ix2 p j) ((contrEquiv1 dot_S5000x128_S128x128_S5000x128_1_0_0_1_n_n 128 rfl rfl).symm k) = ix2 k j := funext fun a => Fin.ext (by
    match a with
    | ⟨0, _⟩ => exact (rhs_dotH_0 _ _).trans hk
    | ⟨1, _⟩ => exact rhs_dotH_1 _ _)
  rw [el, er]

theorem lhs_dotO_0 (i : S5000x384.Idx) (q : dot_S5000x128_S128x384_S5000x384_1_0_0_1_n_n.contr.Idx) :
    (dot_S5000x128_S128x384_S5000x384_1_0_0_1_n_n.lhsIdx i q 0).val = (i 0).val := by
  unfold DotDims.lhsIdx
  rw [dif_neg (show ¬(0 : Fin S5000x128.rank) ∈ dot_S5000x128_S128x384_S5000x384_1_0_0_1_n_n.lhsBatch by decide), dif_pos (show (0 : Fin S5000x128.rank) ∈ dot_S5000x128_S128x384_S5000x384_1_0_0_1_n_n.lhsNonContracting by decide)]
  rfl
theorem lhs_dotO_1 (i : S5000x384.Idx) (q : dot_S5000x128_S128x384_S5000x384_1_0_0_1_n_n.contr.Idx) :
    (dot_S5000x128_S128x384_S5000x384_1_0_0_1_n_n.lhsIdx i q 1).val = (q ⟨0, by decide⟩).val :=
  dot_S5000x128_S128x384_S5000x384_1_0_0_1_n_n.lhsIdx_val_of_single rfl i q
theorem rhs_dotO_0 (i : S5000x384.Idx) (q : dot_S5000x128_S128x384_S5000x384_1_0_0_1_n_n.contr.Idx) :
    (dot_S5000x128_S128x384_S5000x384_1_0_0_1_n_n.rhsIdx i q 0).val = (q ⟨0, by decide⟩).val :=
  dot_S5000x128_S128x384_S5000x384_1_0_0_1_n_n.rhsIdx_val_of_single rfl i q
theorem rhs_dotO_1 (i : S5000x384.Idx) (q : dot_S5000x128_S128x384_S5000x384_1_0_0_1_n_n.contr.Idx) :
    (dot_S5000x128_S128x384_S5000x384_1_0_0_1_n_n.rhsIdx i q 1).val = (i 1).val := by
  unfold DotDims.rhsIdx
  rw [dif_neg (show ¬(1 : Fin S128x384.rank) ∈ dot_S5000x128_S128x384_S5000x384_1_0_0_1_n_n.rhsBatch by decide), dif_pos (show (1 : Fin S128x384.rank) ∈ dot_S5000x128_S128x384_S5000x384_1_0_0_1_n_n.rhsNonContracting by decide)]
  rfl

/-- The hidden block times the [128,384] matrix into the zero accumulator, at entry (p, q). -/
theorem matmulO_apply (l : FVec Ideal S5000x128 .f32) (r : FVec Ideal S128x384 .f32) (p : Fin 5000) (q : Fin 384) :
    matmul (F := Ideal) dot_S5000x128_S128x384_S5000x384_1_0_0_1_n_n none l r (constant (F := Ideal) S5000x384 .f32 0x00000000#32) (ix2 p q)
      = ∑ k : Fin 128, l (ix2 p k) * r (ix2 k q) := by
  simp only [matmul]
  rw [Ideal.matmul_constant_zero_apply, ← Equiv.sum_comp (contrEquiv1 dot_S5000x128_S128x384_S5000x384_1_0_0_1_n_n 128 rfl rfl).symm]
  refine Finset.sum_congr rfl fun k _ => ?_
  have hk := contrEquiv1_symm_val dot_S5000x128_S128x384_S5000x384_1_0_0_1_n_n 128 rfl rfl k
  have el : dot_S5000x128_S128x384_S5000x384_1_0_0_1_n_n.lhsIdx (ix2 p q) ((contrEquiv1 dot_S5000x128_S128x384_S5000x384_1_0_0_1_n_n 128 rfl rfl).symm k) = ix2 p k := funext fun a => Fin.ext (by
    match a with
    | ⟨0, _⟩ => exact lhs_dotO_0 _ _
    | ⟨1, _⟩ => exact (lhs_dotO_1 _ _).trans hk)
  have er : dot_S5000x128_S128x384_S5000x384_1_0_0_1_n_n.rhsIdx (ix2 p q) ((contrEquiv1 dot_S5000x128_S128x384_S5000x384_1_0_0_1_n_n 128 rfl rfl).symm k) = ix2 k q := funext fun a => Fin.ext (by
    match a with
    | ⟨0, _⟩ => exact (rhs_dotO_0 _ _).trans hk
    | ⟨1, _⟩ => exact rhs_dotO_1 _ _)
  rw [el, er]

/-! ## The body's arithmetic at an entry -/

theorem hz : (![0, 0] : Fin 2 → Nat) = fun _ => 0 := funext fun a => by fin_cases a <;> rfl

/-- The one-row bias of the first layer broadcast down the 5000 rows. -/
theorem bcastH_apply (b : FVec Ideal S1x128 .f32) (p : Fin 5000) (j : Fin 128) :
    broadcastTo S5000x128 b Gen.broadcasts_S1x128_S5000x128 (ix2 p j) = b (ix2 0 j) :=
  broadcastTo_apply b Gen.broadcasts_S1x128_S5000x128 (ix2 p j) (ix2 0 j) (fun a => match a with
    | ⟨0, _⟩ => rfl
    | ⟨1, _⟩ => rfl)

/-- The one-row bias of the second layer broadcast down the 5000 rows. -/
theorem bcastO_apply (b : FVec Ideal S1x384 .f32) (p : Fin 5000) (q : Fin 384) :
    broadcastTo S5000x384 b Gen.broadcasts_S1x384_S5000x384 (ix2 p q) = b (ix2 0 q) :=
  broadcastTo_apply b Gen.broadcasts_S1x384_S5000x384 (ix2 p q) (ix2 0 q) (fun a => match a with
    | ⟨0, _⟩ => rfl
    | ⟨1, _⟩ => rfl)

/-- The hidden layer of a block of 5000 edges: the three products added left to right, the bias, the rectifier. -/
def hiddenBlk (x0 x1 x2 : FVec Ideal S5000x128 .f32) (x3 x4 x5 : FVec Ideal S128x128 .f32) (x6 : FVec Ideal S1x128 .f32) : FVec Ideal S5000x128 .f32 :=
  maximumf
    (addf
      (addf
        (addf (matmul (F := Ideal) dot_S5000x128_S128x128_S5000x128_1_0_0_1_n_n none x0 x3 (constant (F := Ideal) S5000x128 .f32 0x00000000#32))
          (matmul (F := Ideal) dot_S5000x128_S128x128_S5000x128_1_0_0_1_n_n none x1 x4 (constant (F := Ideal) S5000x128 .f32 0x00000000#32)))
        (matmul (F := Ideal) dot_S5000x128_S128x128_S5000x128_1_0_0_1_n_n none x2 x5 (constant (F := Ideal) S5000x128 .f32 0x00000000#32)))
      (broadcastTo S5000x128 x6 Gen.broadcasts_S1x128_S5000x128))
    (broadcast S5000x128 (Scalar.ofBits (F := Ideal) .f32 0x00000000#32))

/-- Row p of the hidden block is the hidden vector of row p of the three input blocks. -/
theorem hiddenBlk_apply (x0 x1 x2 : FVec Ideal S5000x128 .f32) (x3 x4 x5 : FVec Ideal S128x128 .f32) (x6 : FVec Ideal S1x128 .f32) (p : Fin 5000) (j : Fin 128) :
    hiddenBlk x0 x1 x2 x3 x4 x5 x6 (ix2 p j)
      = Cert.TripleConv.hidden (fun k => x0 (ix2 p k)) (fun k => x1 (ix2 p k)) (fun k => x2 (ix2 p k))
          (fun k j' => x3 (ix2 k j')) (fun k j' => x4 (ix2 k j')) (fun k j' => x5 (ix2 k j')) (fun j' => x6 (ix2 0 j')) j := by
  unfold hiddenBlk Cert.TripleConv.hidden
  rw [maximumf_apply, addf_apply, addf_apply, addf_apply, matmulH_apply, matmulH_apply, matmulH_apply, bcastH_apply, broadcast_apply]
  show max _ (Ideal.ofBits .f32 0x00000000#32) = _
  rw [Ideal.ofBits_zero_f32]

/-- The body's [5000,384] result is the second layer of the hidden block: the identity shape casts dropped. -/
theorem pay2_eq (x0 x1 x2 : Vec Ideal S5000x128 .f32) (x3 x4 x5 : Vec Ideal S128x128 .f32) (x6 : Vec Ideal S1x128 .f32) (x7 : Vec Ideal S128x384 .f32) (x8 : Vec Ideal S1x384 .f32) :
    k0_pay2 (F := Ideal) x0 x1 x2 x3 x4 x5 x6 x7 x8
      = addf (matmul (F := Ideal) (φ₁ := .f32) (φ₂ := .f32) dot_S5000x128_S128x384_S5000x384_1_0_0_1_n_n none (hiddenBlk x0 x1 x2 x3 x4 x5 x6) x7 (constant (F := Ideal) S5000x384 .f32 0x00000000#32))
          (broadcastTo S5000x384 (x8 : FVec Ideal S1x384 .f32) Gen.broadcasts_S1x384_S5000x384) := by
  unfold k0_pay2 hiddenBlk
  simp only [shapeCast_self]

/-- Entry (p, q) of the body's [5000,384] result: edge p's output q, from row p of the three row blocks. -/
theorem pay2_apply (x0 x1 x2 : Vec Ideal S5000x128 .f32) (x3 x4 x5 : Vec Ideal S128x128 .f32) (x6 : Vec Ideal S1x128 .f32) (x7 : Vec Ideal S128x384 .f32) (x8 : Vec Ideal S1x384 .f32)
    (p : Fin 5000) (q : Fin 384) :
    k0_pay2 (F := Ideal) x0 x1 x2 x3 x4 x5 x6 x7 x8 (ix2 p q)
      = Cert.TripleConv.edgeOut
          (Cert.TripleConv.hidden (fun k => x0 (ix2 p k)) (fun k => x1 (ix2 p k)) (fun k => x2 (ix2 p k))
            (fun k j' => x3 (ix2 k j')) (fun k j' => x4 (ix2 k j')) (fun k j' => x5 (ix2 k j')) (fun j' => x6 (ix2 0 j')))
          (fun k q' => x7 (ix2 k q')) (fun q' => x8 (ix2 0 q')) q := by
  rw [pay2_eq, addf_apply, matmulO_apply, bcastO_apply]
  unfold Cert.TripleConv.edgeOut
  have e : (fun k => hiddenBlk x0 x1 x2 x3 x4 x5 x6 (ix2 p k))
      = Cert.TripleConv.hidden (fun k => x0 (ix2 p k)) (fun k => x1 (ix2 p k)) (fun k => x2 (ix2 p k))
          (fun k j' => x3 (ix2 k j')) (fun k j' => x4 (ix2 k j')) (fun k j' => x5 (ix2 k j')) (fun j' => x6 (ix2 0 j')) :=
    funext fun k => hiddenBlk_apply x0 x1 x2 x3 x4 x5 x6 p k
  exact congrArg (fun h : Fin 128 → EReal => (∑ k : Fin 128, h k * x7 (ix2 k q)) + x8 (ix2 0 q)) e

/-! ## The three stored slices and the three output buffers at an entry -/

/-- Columns 0 … 127 of the 384. -/
theorem pay3_apply (x0 x1 x2 : Vec Ideal S5000x128 .f32) (x3 x4 x5 : Vec Ideal S128x128 .f32) (x6 : Vec Ideal S1x128 .f32) (x7 : Vec Ideal S128x384 .f32) (x8 : Vec Ideal S1x384 .f32)
    (p : Fin 5000) (j : Fin 128) :
    k0_pay3 (F := Ideal) x0 x1 x2 x3 x4 x5 x6 x7 x8 (ix2 p j) = k0_pay2 (F := Ideal) x0 x1 x2 x3 x4 x5 x6 x7 x8 (ix2 p ⟨j.val, by omega⟩) := by
  unfold k0_pay3
  exact extractStridedSlice_apply ![0, 0] _ Gen.slices_S5000x384_o0_0_S5000x128 (ix2 p j) (ix2 p ⟨j.val, by omega⟩) (fun a => match a with
    | ⟨0, _⟩ => by show p.val = 0 + p.val; omega
    | ⟨1, _⟩ => by show j.val = 0 + j.val; omega)

/-- Columns 128 … 255 of the 384. -/
theorem pay4_apply (x0 x1 x2 : Vec Ideal S5000x128 .f32) (x3 x4 x5 : Vec Ideal S128x128 .f32) (x6 : Vec Ideal S1x128 .f32) (x7 : Vec Ideal S128x384 .f32) (x8 : Vec Ideal S1x384 .f32)
    (p : Fin 5000) (j : Fin 128) :
    k0_pay4 (F := Ideal) x0 x1 x2 x3 x4 x5 x6 x7 x8 (ix2 p j) = k0_pay2 (F := Ideal) x0 x1 x2 x3 x4 x5 x6 x7 x8 (ix2 p ⟨128 + j.val, by omega⟩) := by
  unfold k0_pay4
  exact extractStridedSlice_apply ![0, 128] _ Gen.slices_S5000x384_o0_128_S5000x128 (ix2 p j) (ix2 p ⟨128 + j.val, by omega⟩) (fun a => match a with
    | ⟨0, _⟩ => by show p.val = 0 + p.val; omega
    | ⟨1, _⟩ => by show 128 + j.val = 128 + j.val; omega)

/-- Columns 256 … 383 of the 384. -/
theorem pay1_apply (v : FVec Ideal S5000x384 .f32) (p : Fin 5000) (j : Fin 128) :
    k0_pay1 (F := Ideal) v (ix2 p j) = v (ix2 p ⟨256 + j.val, by omega⟩) := by
  unfold k0_pay1
  exact extractStridedSlice_apply ![0, 256] v Gen.slices_S5000x384_o0_256_S5000x128 (ix2 p j) (ix2 p ⟨256 + j.val, by omega⟩) (fun a => match a with
    | ⟨0, _⟩ => by show p.val = 0 + p.val; omega
    | ⟨1, _⟩ => by show 256 + j.val = 256 + j.val; omega)

/-- One store through the whole-block rectangle leaves its payload, and a load through it reads the buffer. -/
theorem out9_eq (x0 x1 x2 : Vec Ideal S5000x128 .f32) (x3 x4 x5 : Vec Ideal S128x128 .f32) (x6 : Vec Ideal S1x128 .f32) (x7 : Vec Ideal S128x384 .f32) (x8 : Vec Ideal S1x384 .f32) :
    Net1.out9 (F := Ideal) x0 x1 x2 x3 x4 x5 x6 x7 x8 = k0_pay3 (F := Ideal) x0 x1 x2 x3 x4 x5 x6 x7 x8 := by
  unfold Net1.out9
  rw [View.canon_unit_zero hz]
  simp only [View.ld_unit_zero (S := S5000x128) hz, View.ld_unit_zero (S := S128x128) hz, View.ld_unit_zero (S := S1x128) hz, View.ld_unit_zero (S := S128x384) hz, View.ld_unit_zero (S := S1x384) hz]

theorem out10_eq (x0 x1 x2 : Vec Ideal S5000x128 .f32) (x3 x4 x5 : Vec Ideal S128x128 .f32) (x6 : Vec Ideal S1x128 .f32) (x7 : Vec Ideal S128x384 .f32) (x8 : Vec Ideal S1x384 .f32) :
    Net1.out10 (F := Ideal) x0 x1 x2 x3 x4 x5 x6 x7 x8 = k0_pay4 (F := Ideal) x0 x1 x2 x3 x4 x5 x6 x7 x8 := by
  unfold Net1.out10
  rw [View.canon_unit_zero hz]
  simp only [View.ld_unit_zero (S := S5000x128) hz, View.ld_unit_zero (S := S128x128) hz, View.ld_unit_zero (S := S1x128) hz, View.ld_unit_zero (S := S128x384) hz, View.ld_unit_zero (S := S1x384) hz]

theorem out11_eq (x0 x1 x2 : Vec Ideal S5000x128 .f32) (x3 x4 x5 : Vec Ideal S128x128 .f32) (x6 : Vec Ideal S1x128 .f32) (x7 : Vec Ideal S128x384 .f32) (x8 : Vec Ideal S1x384 .f32) :
    Net1.out11 (F := Ideal) x0 x1 x2 x3 x4 x5 x6 x7 x8 = k0_pay1 (F := Ideal) (k0_pay2 (F := Ideal) x0 x1 x2 x3 x4 x5 x6 x7 x8) := by
  unfold Net1.out11
  rw [View.canon_unit_zero hz]
  simp only [View.ld_unit_zero (S := S5000x128) hz, View.ld_unit_zero (S := S128x128) hz, View.ld_unit_zero (S := S1x128) hz, View.ld_unit_zero (S := S128x384) hz, View.ld_unit_zero (S := S1x384) hz]

/-- One edge's 384 outputs from the nine blocks: row p of the three row blocks, the weights whole. -/
def blkRow (x0 x1 x2 : Vec Ideal S5000x128 .f32) (x3 x4 x5 : Vec Ideal S128x128 .f32) (x6 : Vec Ideal S1x128 .f32) (x7 : Vec Ideal S128x384 .f32) (x8 : Vec Ideal S1x384 .f32)
    (p : Fin 5000) (q : Fin 384) : EReal :=
  Cert.TripleConv.edgeOut
    (Cert.TripleConv.hidden (fun k => x0 (ix2 p k)) (fun k => x1 (ix2 p k)) (fun k => x2 (ix2 p k))
      (fun k j' => x3 (ix2 k j')) (fun k j' => x4 (ix2 k j')) (fun k j' => x5 (ix2 k j')) (fun j' => x6 (ix2 0 j')))
    (fun k q' => x7 (ix2 k q')) (fun q' => x8 (ix2 0 q')) q

theorem out9_apply (x0 x1 x2 : Vec Ideal S5000x128 .f32) (x3 x4 x5 : Vec Ideal S128x128 .f32) (x6 : Vec Ideal S1x128 .f32) (x7 : Vec Ideal S128x384 .f32) (x8 : Vec Ideal S1x384 .f32)
    (p : Fin 5000) (j : Fin 128) :
    Net1.out9 (F := Ideal) x0 x1 x2 x3 x4 x5 x6 x7 x8 (ix2 p j) = blkRow x0 x1 x2 x3 x4 x5 x6 x7 x8 p ⟨j.val, by omega⟩ := by
  rw [out9_eq, pay3_apply, pay2_apply]; rfl

theorem out10_apply (x0 x1 x2 : Vec Ideal S5000x128 .f32) (x3 x4 x5 : Vec Ideal S128x128 .f32) (x6 : Vec Ideal S1x128 .f32) (x7 : Vec Ideal S128x384 .f32) (x8 : Vec Ideal S1x384 .f32)
    (p : Fin 5000) (j : Fin 128) :
    Net1.out10 (F := Ideal) x0 x1 x2 x3 x4 x5 x6 x7 x8 (ix2 p j) = blkRow x0 x1 x2 x3 x4 x5 x6 x7 x8 p ⟨128 + j.val, by omega⟩ := by
  rw [out10_eq, pay4_apply, pay2_apply]; rfl

theorem out11_apply (x0 x1 x2 : Vec Ideal S5000x128 .f32) (x3 x4 x5 : Vec Ideal S128x128 .f32) (x6 : Vec Ideal S1x128 .f32) (x7 : Vec Ideal S128x384 .f32) (x8 : Vec Ideal S1x384 .f32)
    (p : Fin 5000) (j : Fin 128) :
    Net1.out11 (F := Ideal) x0 x1 x2 x3 x4 x5 x6 x7 x8 (ix2 p j) = blkRow x0 x1 x2 x3 x4 x5 x6 x7 x8 p ⟨256 + j.val, by omega⟩ := by
  rw [out11_eq, pay1_apply, pay2_apply]; rfl

/-! ## The arrays the call reads, and one edge's row of them -/

variable (V : (c : Dev nD) → (b : Ref sig .tc) → Buf (Elt Ideal) ((c : Thread nD τ).loc b))

/-- edge r's hidden vector, from the arrays the call reads -/
def hiddenRow (c : Dev nD) (r : Fin 400000) : Fin 128 → EReal :=
  Cert.TripleConv.hidden (fun k => (V c main_v5 : S800000x128.Idx → EReal) (ValueIdx.ix2 ⟨r.val, by omega⟩ k))
    (fun k => (V c main_arg1 : S400000x128.Idx → EReal) (ValueIdx.ix2 r k))
    (fun k => (V c main_v5 : S800000x128.Idx → EReal) (ValueIdx.ix2 ⟨400000 + r.val, by omega⟩ k))
    (fun k j' => (V c main_v6 : S128x128.Idx → EReal) (ValueIdx.ix2 k j'))
    (fun k j' => (V c main_v7 : S128x128.Idx → EReal) (ValueIdx.ix2 k j'))
    (fun k j' => (V c main_v8 : S128x128.Idx → EReal) (ValueIdx.ix2 k j'))
    (fun j' => (V c main_v9 : S1x128.Idx → EReal) (ValueIdx.ix2 0 j'))

/-- edge r's 384 outputs -/
def edgeRow (c : Dev nD) (r : Fin 400000) (q : Fin 384) : EReal :=
  Cert.TripleConv.edgeOut (hiddenRow V c r) (fun k q' => (V c main_arg5 : S128x384.Idx → EReal) (ValueIdx.ix2 k q')) (fun q' => (V c main_v10 : S1x384.Idx → EReal) (ValueIdx.ix2 0 q')) q

/-! ## The windows' blocks read at an entry -/

/-- The grid has 80 points. -/
theorem tlt (t : Fin cfg0.N) : t.val < 80 := lt_of_lt_of_eq t.isLt N_0

/-- The printed index maps of the row windows, decided once over the grid: at point t the subject rows, the
    predicate rows and the three results are at block (t, 0), the object rows at block (80 + t, 0) of the same
    array as the subject rows. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 80 + t.val ∧ win0_2.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- The weight and bias windows are whole at block (0, 0) at every point. -/
theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- The edge that row p of point t's blocks belongs to. -/
def rowAt (t : Fin cfg0.N) (p : Fin 5000) : Fin 400000 := ⟨5000 * t.val + p.val, by have := tlt t; have := p.isLt; omega⟩

/-- Window 0's block at point t is rows 5000 t … of the gathered array: the subject rows. -/
theorem blk0_apply (c : Dev nD) (t : Fin cfg0.N) (p : Fin 5000) (k : Fin 128) :
    (Net1.iblk V c 0 t : Vec Ideal S5000x128 .f32) (ix2 p k)
      = (V c main_v5 : S800000x128.Idx → EReal) (ix2 ⟨(rowAt t p).val, by have := (rowAt t p).isLt; omega⟩ k) := by
  obtain ⟨e0, e1, -⟩ := idx_rows t
  unfold Net1.iblk
  rw [View.read_apply]
  show V c main_v5 _ = V c main_v5 _
  refine congrArg (V c main_v5) (funext fun a => Fin.ext ?_)
  match a with
  | ⟨0, _⟩ => show win0_0.index t (0 : Fin 2) * 5000 + 1 * p.val = 5000 * t.val + p.val; omega
  | ⟨1, _⟩ => show win0_0.index t (1 : Fin 2) * 128 + 1 * k.val = k.val; omega

/-- Window 1's block at point t is rows 5000 t … of the predicate array. -/
theorem blk1_apply (c : Dev nD) (t : Fin cfg0.N) (p : Fin 5000) (k : Fin 128) :
    (Net1.iblk V c 1 t : Vec Ideal S5000x128 .f32) (ix2 p k)
      = (V c main_arg1 : S400000x128.Idx → EReal) (ix2 (rowAt t p) k) := by
  obtain ⟨-, -, e0, e1, -⟩ := idx_rows t
  unfold Net1.iblk
  rw [View.read_apply]
  show V c main_arg1 _ = V c main_arg1 _
  refine congrArg (V c main_arg1) (funext fun a => Fin.ext ?_)
  match a with
  | ⟨0, _⟩ => show win0_1.index t (0 : Fin 2) * 5000 + 1 * p.val = 5000 * t.val + p.val; omega
  | ⟨1, _⟩ => show win0_1.index t (1 : Fin 2) * 128 + 1 * k.val = k.val; omega

/-- Window 2's block at point t is rows 400000 + 5000 t … of the gathered array: the object rows. -/
theorem blk2_apply (c : Dev nD) (t : Fin cfg0.N) (p : Fin 5000) (k : Fin 128) :
    (Net1.iblk V c 2 t : Vec Ideal S5000x128 .f32) (ix2 p k)
      = (V c main_v5 : S800000x128.Idx → EReal) (ix2 ⟨400000 + (rowAt t p).val, by have := (rowAt t p).isLt; omega⟩ k) := by
  obtain ⟨-, -, -, -, e0, e1, -⟩ := idx_rows t
  unfold Net1.iblk
  rw [View.read_apply]
  show V c main_v5 _ = V c main_v5 _
  refine congrArg (V c main_v5) (funext fun a => Fin.ext ?_)
  match a with
  | ⟨0, _⟩ => show win0_2.index t (0 : Fin 2) * 5000 + 1 * p.val = 400000 + (5000 * t.val + p.val); omega
  | ⟨1, _⟩ => show win0_2.index t (1 : Fin 2) * 128 + 1 * k.val = k.val; omega

/-- The three [128,128] weight windows, the first bias, the [128,384] weights and the second bias are their arrays. -/
theorem blk3_apply (c : Dev nD) (t : Fin cfg0.N) (k j : Fin 128) :
    (Net1.iblk V c 3 t : Vec Ideal S128x128 .f32) (ix2 k j) = (V c main_v6 : S128x128.Idx → EReal) (ix2 k j) := by
  obtain ⟨e0, e1, -⟩ := idx_whole t
  unfold Net1.iblk
  rw [View.read_apply]
  show V c main_v6 _ = V c main_v6 _
  refine congrArg (V c main_v6) (funext fun a => Fin.ext ?_)
  match a with
  | ⟨0, _⟩ => show win0_3.index t (0 : Fin 2) * 128 + 1 * k.val = k.val; omega
  | ⟨1, _⟩ => show win0_3.index t (1 : Fin 2) * 128 + 1 * j.val = j.val; omega

theorem blk4_apply (c : Dev nD) (t : Fin cfg0.N) (k j : Fin 128) :
    (Net1.iblk V c 4 t : Vec Ideal S128x128 .f32) (ix2 k j) = (V c main_v7 : S128x128.Idx → EReal) (ix2 k j) := by
  obtain ⟨-, -, e0, e1, -⟩ := idx_whole t
  unfold Net1.iblk
  rw [View.read_apply]
  show V c main_v7 _ = V c main_v7 _
  refine congrArg (V c main_v7) (funext fun a => Fin.ext ?_)
  match a with
  | ⟨0, _⟩ => show win0_4.index t (0 : Fin 2) * 128 + 1 * k.val = k.val; omega
  | ⟨1, _⟩ => show win0_4.index t (1 : Fin 2) * 128 + 1 * j.val = j.val; omega

theorem blk5_apply (c : Dev nD) (t : Fin cfg0.N) (k j : Fin 128) :
    (Net1.iblk V c 5 t : Vec Ideal S128x128 .f32) (ix2 k j) = (V c main_v8 : S128x128.Idx → EReal) (ix2 k j) := by
  obtain ⟨-, -, -, -, e0, e1, -⟩ := idx_whole t
  unfold Net1.iblk
  rw [View.read_apply]
  show V c main_v8 _ = V c main_v8 _
  refine congrArg (V c main_v8) (funext fun a => Fin.ext ?_)
  match a with
  | ⟨0, _⟩ => show win0_5.index t (0 : Fin 2) * 128 + 1 * k.val = k.val; omega
  | ⟨1, _⟩ => show win0_5.index t (1 : Fin 2) * 128 + 1 * j.val = j.val; omega

theorem blk6_apply (c : Dev nD) (t : Fin cfg0.N) (j : Fin 128) :
    (Net1.iblk V c 6 t : Vec Ideal S1x128 .f32) (ix2 0 j) = (V c main_v9 : S1x128.Idx → EReal) (ix2 0 j) := by
  obtain ⟨-, -, -, -, -, -, e0, e1, -⟩ := idx_whole t
  unfold Net1.iblk
  rw [View.read_apply]
  show V c main_v9 _ = V c main_v9 _
  refine congrArg (V c main_v9) (funext fun a => Fin.ext ?_)
  match a with
  | ⟨0, _⟩ => show win0_6.index t (0 : Fin 2) * 1 + 1 * 0 = 0; omega
  | ⟨1, _⟩ => show win0_6.index t (1 : Fin 2) * 128 + 1 * j.val = j.val; omega

theorem blk7_apply (c : Dev nD) (t : Fin cfg0.N) (k : Fin 128) (q : Fin 384) :
    (Net1.iblk V c 7 t : Vec Ideal S128x384 .f32) (ix2 k q) = (V c main_arg5 : S128x384.Idx → EReal) (ix2 k q) := by
  obtain ⟨-, -, -, -, -, -, -, -, e0, e1, -⟩ := idx_whole t
  unfold Net1.iblk
  rw [View.read_apply]
  show V c main_arg5 _ = V c main_arg5 _
  refine congrArg (V c main_arg5) (funext fun a => Fin.ext ?_)
  match a with
  | ⟨0, _⟩ => show win0_7.index t (0 : Fin 2) * 128 + 1 * k.val = k.val; omega
  | ⟨1, _⟩ => show win0_7.index t (1 : Fin 2) * 384 + 1 * q.val = q.val; omega

theorem blk8_apply (c : Dev nD) (t : Fin cfg0.N) (q : Fin 384) :
    (Net1.iblk V c 8 t : Vec Ideal S1x384 .f32) (ix2 0 q) = (V c main_v10 : S1x384.Idx → EReal) (ix2 0 q) := by
  obtain ⟨-, -, -, -, -, -, -, -, -, -, e0, e1⟩ := idx_whole t
  unfold Net1.iblk
  rw [View.read_apply]
  show V c main_v10 _ = V c main_v10 _
  refine congrArg (V c main_v10) (funext fun a => Fin.ext ?_)
  match a with
  | ⟨0, _⟩ => show win0_8.index t (0 : Fin 2) * 1 + 1 * 0 = 0; omega
  | ⟨1, _⟩ => show win0_8.index t (1 : Fin 2) * 384 + 1 * q.val = q.val; omega

/-- One edge's outputs depend on the blocks only through the rows and matrices read off them. -/
theorem blkRow_congr (x0 x1 x2 : Vec Ideal S5000x128 .f32) (x3 x4 x5 : Vec Ideal S128x128 .f32) (x6 : Vec Ideal S1x128 .f32) (x7 : Vec Ideal S128x384 .f32) (x8 : Vec Ideal S1x384 .f32)
    (p : Fin 5000) (q : Fin 384) (hs pv ho : Fin 128 → EReal) (Ws Wp Wo : Fin 128 → Fin 128 → EReal) (b1 : Fin 128 → EReal) (W2 : Fin 128 → Fin 384 → EReal) (b2 : Fin 384 → EReal)
    (h0 : ∀ k, x0 (ix2 p k) = hs k) (h1 : ∀ k, x1 (ix2 p k) = pv k) (h2 : ∀ k, x2 (ix2 p k) = ho k)
    (h3 : ∀ k j, x3 (ix2 k j) = Ws k j) (h4 : ∀ k j, x4 (ix2 k j) = Wp k j) (h5 : ∀ k j, x5 (ix2 k j) = Wo k j)
    (h6 : ∀ j, x6 (ix2 0 j) = b1 j) (h7 : ∀ k q', x7 (ix2 k q') = W2 k q') (h8 : ∀ q', x8 (ix2 0 q') = b2 q') :
    blkRow x0 x1 x2 x3 x4 x5 x6 x7 x8 p q = Cert.TripleConv.edgeOut (Cert.TripleConv.hidden hs pv ho Ws Wp Wo b1) W2 b2 q := by
  obtain rfl : (fun k => x0 (ix2 p k)) = hs := funext h0
  obtain rfl : (fun k => x1 (ix2 p k)) = pv := funext h1
  obtain rfl : (fun k => x2 (ix2 p k)) = ho := funext h2
  obtain rfl : (fun k j => x3 (ix2 k j)) = Ws := funext fun k => funext (h3 k)
  obtain rfl : (fun k j => x4 (ix2 k j)) = Wp := funext fun k => funext (h4 k)
  obtain rfl : (fun k j => x5 (ix2 k j)) = Wo := funext fun k => funext (h5 k)
  obtain rfl : (fun j => x6 (ix2 0 j)) = b1 := funext h6
  obtain rfl : (fun k q' => x7 (ix2 k q')) = W2 := funext fun k => funext (h7 k)
  obtain rfl : (fun q' => x8 (ix2 0 q')) = b2 := funext h8
  rfl

/-- Row p of point t's blocks is edge 5000 t + p. -/
theorem blkRow_iblk (c : Dev nD) (t : Fin cfg0.N) (p : Fin 5000) (q : Fin 384) :
    blkRow (Net1.iblk V c 0 t) (Net1.iblk V c 1 t) (Net1.iblk V c 2 t) (Net1.iblk V c 3 t) (Net1.iblk V c 4 t) (Net1.iblk V c 5 t) (Net1.iblk V c 6 t) (Net1.iblk V c 7 t) (Net1.iblk V c 8 t) p q
      = edgeRow V c (rowAt t p) q :=
  blkRow_congr (Net1.iblk V c 0 t) (Net1.iblk V c 1 t) (Net1.iblk V c 2 t) (Net1.iblk V c 3 t) (Net1.iblk V c 4 t) (Net1.iblk V c 5 t) (Net1.iblk V c 6 t) (Net1.iblk V c 7 t) (Net1.iblk V c 8 t) p q
    (fun k => (V c main_v5 : S800000x128.Idx → EReal) (ix2 ⟨(rowAt t p).val, by have := (rowAt t p).isLt; omega⟩ k))
    (fun k => (V c main_arg1 : S400000x128.Idx → EReal) (ix2 (rowAt t p) k))
    (fun k => (V c main_v5 : S800000x128.Idx → EReal) (ix2 ⟨400000 + (rowAt t p).val, by have := (rowAt t p).isLt; omega⟩ k))
    (fun k j' => (V c main_v6 : S128x128.Idx → EReal) (ix2 k j'))
    (fun k j' => (V c main_v7 : S128x128.Idx → EReal) (ix2 k j'))
    (fun k j' => (V c main_v8 : S128x128.Idx → EReal) (ix2 k j'))
    (fun j' => (V c main_v9 : S1x128.Idx → EReal) (ix2 0 j'))
    (fun k q' => (V c main_arg5 : S128x384.Idx → EReal) (ix2 k q'))
    (fun q' => (V c main_v10 : S1x384.Idx → EReal) (ix2 0 q'))
    (blk0_apply V c t p) (blk1_apply V c t p) (blk2_apply V c t p) (blk3_apply V c t) (blk4_apply V c t) (blk5_apply V c t)
    (blk6_apply V c t) (blk7_apply V c t) (blk8_apply V c t)

/-! ## Result 0: columns 0 … 127 of each edge's 384 -/

/-- The array the write-backs leave: entry (r, j) is edge r's output j. -/
def arr9 (c : Dev nD) : S400000x128.Idx → EReal :=
  fun i => edgeRow V c ⟨(i 0).val, idx2_lt0 i⟩ ⟨(i 1).val, by have := idx2_lt1 i; omega⟩

/-- An entry of point t's block sits in the array at row 5000 t + p, same column. -/
theorem emb9 (t : Fin cfg0.N) (p : Fin 5000) (j : Fin 128) :
    ((cfg0.win 9).blk t).view.emb (ix2 p j) = (ix2 (rowAt t p) j : S400000x128.Idx) := by
  obtain ⟨-, -, -, -, -, -, e0, e1, -⟩ := idx_rows t
  funext a; apply Fin.ext
  match a with
  | ⟨0, _⟩ => show win0_9.index t (0 : Fin 2) * 5000 + 1 * p.val = 5000 * t.val + p.val; omega
  | ⟨1, _⟩ => show win0_9.index t (1 : Fin 2) * 128 + 1 * j.val = j.val; omega

/-- What point t writes back is block t of that array. -/
theorem flushed9_eq (c : Dev nD) (t : Fin cfg0.N) :
    (Net1.dat V c).flushed 9 t = ((cfg0.win 9).blk t).view.read (Elt Ideal) (arr9 V c) := by
  show (cfg0.win 9).cut (grid0.coords t) ((Net1.dat V c).after 9 t) = _
  rw [Net1.after9]
  funext y
  obtain ⟨p, j, rfl⟩ : ∃ (p : Fin 5000) (j : Fin 128), y = ix2 p j := ⟨y 0, y 1, eq_ix2 y⟩
  show Net1.out9 (F := Ideal) (Net1.iblk V c 0 t) (Net1.iblk V c 1 t) (Net1.iblk V c 2 t) (Net1.iblk V c 3 t) (Net1.iblk V c 4 t) (Net1.iblk V c 5 t) (Net1.iblk V c 6 t) (Net1.iblk V c 7 t) (Net1.iblk V c 8 t) (ix2 p j)
    = arr9 V c (((cfg0.win 9).blk t).view.emb (ix2 p j))
  rw [emb9 t p j]
  refine (out9_apply (Net1.iblk V c 0 t) (Net1.iblk V c 1 t) (Net1.iblk V c 2 t) (Net1.iblk V c 3 t) (Net1.iblk V c 4 t) (Net1.iblk V c 5 t) (Net1.iblk V c 6 t) (Net1.iblk V c 7 t) (Net1.iblk V c 8 t) p j).trans ?_
  exact blkRow_iblk V c t p _

/-- Row r of the array is in the block of point r / 5000. -/
theorem cover9 (i : S400000x128.Idx) :
    ∃ t : Fin cfg0.N, (cfg0.win 9).flush t = true ∧ i ∈ ((cfg0.win 9).blk t).view.set := by
  have h0 := idx2_lt0 i
  have h1 := idx2_lt1 i
  obtain ⟨t, ht⟩ : ∃ t : Fin cfg0.N, t.val = (i 0).val / 5000 :=
    ⟨⟨(i 0).val / 5000, by rw [show cfg0.N = 80 from N_0]; omega⟩, rfl⟩
  obtain ⟨-, -, -, -, -, -, e0, e1, -⟩ := idx_rows t
  refine ⟨t, flush0_9 t, ?_⟩
  show i ∈ ((View.whole main_v11_0).slice (win0_9.rect t)).set
  rw [View.set_slice_whole, Rect.mem_set_unit]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 128 ≤ (i 1).val ∧ (i 1).val < win0_9.index t (1 : Fin 2) * 128 + 128; omega

/-- The array after the eighty write-backs, at an entry. -/
theorem arr9_apply (c : Dev nD) (r : Fin 400000) (j : Fin 128) :
    ((Net1.dat (F := Ideal) V c).arrAt 9 cfg0.N : S400000x128.Idx → EReal) (ValueIdx.ix2 r j) = edgeRow V c r ⟨j.val, by omega⟩ :=
  congrFun ((Net1.dat (F := Ideal) V c).arrAt_eq_of_cover 9 (arr9 V c) (fun t _ => flushed9_eq V c t) cover9) (ix2 r j)

/-! ## Result 1: columns 128 … 255 -/

/-- The array the write-backs leave: entry (r, j) is edge r's output 128 + j. -/
def arr10 (c : Dev nD) : S400000x128.Idx → EReal :=
  fun i => edgeRow V c ⟨(i 0).val, idx2_lt0 i⟩ ⟨128 + (i 1).val, by have := idx2_lt1 i; omega⟩

/-- An entry of point t's block sits in the array at row 5000 t + p, same column. -/
theorem emb10 (t : Fin cfg0.N) (p : Fin 5000) (j : Fin 128) :
    ((cfg0.win 10).blk t).view.emb (ix2 p j) = (ix2 (rowAt t p) j : S400000x128.Idx) := by
  obtain ⟨-, -, -, -, -, -, -, -, e0, e1, -⟩ := idx_rows t
  funext a; apply Fin.ext
  match a with
  | ⟨0, _⟩ => show win0_10.index t (0 : Fin 2) * 5000 + 1 * p.val = 5000 * t.val + p.val; omega
  | ⟨1, _⟩ => show win0_10.index t (1 : Fin 2) * 128 + 1 * j.val = j.val; omega

/-- What point t writes back is block t of that array. -/
theorem flushed10_eq (c : Dev nD) (t : Fin cfg0.N) :
    (Net1.dat V c).flushed 10 t = ((cfg0.win 10).blk t).view.read (Elt Ideal) (arr10 V c) := by
  show (cfg0.win 10).cut (grid0.coords t) ((Net1.dat V c).after 10 t) = _
  rw [Net1.after10]
  funext y
  obtain ⟨p, j, rfl⟩ : ∃ (p : Fin 5000) (j : Fin 128), y = ix2 p j := ⟨y 0, y 1, eq_ix2 y⟩
  show Net1.out10 (F := Ideal) (Net1.iblk V c 0 t) (Net1.iblk V c 1 t) (Net1.iblk V c 2 t) (Net1.iblk V c 3 t) (Net1.iblk V c 4 t) (Net1.iblk V c 5 t) (Net1.iblk V c 6 t) (Net1.iblk V c 7 t) (Net1.iblk V c 8 t) (ix2 p j)
    = arr10 V c (((cfg0.win 10).blk t).view.emb (ix2 p j))
  rw [emb10 t p j]
  refine (out10_apply (Net1.iblk V c 0 t) (Net1.iblk V c 1 t) (Net1.iblk V c 2 t) (Net1.iblk V c 3 t) (Net1.iblk V c 4 t) (Net1.iblk V c 5 t) (Net1.iblk V c 6 t) (Net1.iblk V c 7 t) (Net1.iblk V c 8 t) p j).trans ?_
  exact blkRow_iblk V c t p _

/-- Row r of the array is in the block of point r / 5000. -/
theorem cover10 (i : S400000x128.Idx) :
    ∃ t : Fin cfg0.N, (cfg0.win 10).flush t = true ∧ i ∈ ((cfg0.win 10).blk t).view.set := by
  have h0 := idx2_lt0 i
  have h1 := idx2_lt1 i
  obtain ⟨t, ht⟩ : ∃ t : Fin cfg0.N, t.val = (i 0).val / 5000 :=
    ⟨⟨(i 0).val / 5000, by rw [show cfg0.N = 80 from N_0]; omega⟩, rfl⟩
  obtain ⟨-, -, -, -, -, -, -, -, e0, e1, -⟩ := idx_rows t
  refine ⟨t, flush0_10 t, ?_⟩
  show i ∈ ((View.whole main_v11_1).slice (win0_10.rect t)).set
  rw [View.set_slice_whole, Rect.mem_set_unit]
  intro a
  match a with
  | ⟨0, _⟩ => show win0_10.index t (0 : Fin 2) * 5000 ≤ (i 0).val ∧ (i 0).val < win0_10.index t (0 : Fin 2) * 5000 + 5000; omega
  | ⟨1, _⟩ => show win0_10.index t (1 : Fin 2) * 128 ≤ (i 1).val ∧ (i 1).val < win0_10.index t (1 : Fin 2) * 128 + 128; omega

/-- The array after the eighty write-backs, at an entry. -/
theorem arr10_apply (c : Dev nD) (r : Fin 400000) (j : Fin 128) :
    ((Net1.dat (F := Ideal) V c).arrAt 10 cfg0.N : S400000x128.Idx → EReal) (ValueIdx.ix2 r j) = edgeRow V c r ⟨128 + j.val, by omega⟩ :=
  congrFun ((Net1.dat (F := Ideal) V c).arrAt_eq_of_cover 10 (arr10 V c) (fun t _ => flushed10_eq V c t) cover10) (ix2 r j)

/-! ## Result 2: columns 256 … 383 -/

/-- The array the write-backs leave: entry (r, j) is edge r's output 256 + j. -/
def arr11 (c : Dev nD) : S400000x128.Idx → EReal :=
  fun i => edgeRow V c ⟨(i 0).val, idx2_lt0 i⟩ ⟨256 + (i 1).val, by have := idx2_lt1 i; omega⟩

/-- An entry of point t's block sits in the array at row 5000 t + p, same column. -/
theorem emb11 (t : Fin cfg0.N) (p : Fin 5000) (j : Fin 128) :
    ((cfg0.win 11).blk t).view.emb (ix2 p j) = (ix2 (rowAt t p) j : S400000x128.Idx) := by
  obtain ⟨-, -, -, -, -, -, -, -, -, -, e0, e1⟩ := idx_rows t
  funext a; apply Fin.ext
  match a with
  | ⟨0, _⟩ => show win0_11.index t (0 : Fin 2) * 5000 + 1 * p.val = 5000 * t.val + p.val; omega
  | ⟨1, _⟩ => show win0_11.index t (1 : Fin 2) * 128 + 1 * j.val = j.val; omega

/-- What point t writes back is block t of that array. -/
theorem flushed11_eq (c : Dev nD) (t : Fin cfg0.N) :
    (Net1.dat V c).flushed 11 t = ((cfg0.win 11).blk t).view.read (Elt Ideal) (arr11 V c) := by
  show (cfg0.win 11).cut (grid0.coords t) ((Net1.dat V c).after 11 t) = _
  rw [Net1.after11]
  funext y
  obtain ⟨p, j, rfl⟩ : ∃ (p : Fin 5000) (j : Fin 128), y = ix2 p j := ⟨y 0, y 1, eq_ix2 y⟩
  show Net1.out11 (F := Ideal) (Net1.iblk V c 0 t) (Net1.iblk V c 1 t) (Net1.iblk V c 2 t) (Net1.iblk V c 3 t) (Net1.iblk V c 4 t) (Net1.iblk V c 5 t) (Net1.iblk V c 6 t) (Net1.iblk V c 7 t) (Net1.iblk V c 8 t) (ix2 p j)
    = arr11 V c (((cfg0.win 11).blk t).view.emb (ix2 p j))
  rw [emb11 t p j]
  refine (out11_apply (Net1.iblk V c 0 t) (Net1.iblk V c 1 t) (Net1.iblk V c 2 t) (Net1.iblk V c 3 t) (Net1.iblk V c 4 t) (Net1.iblk V c 5 t) (Net1.iblk V c 6 t) (Net1.iblk V c 7 t) (Net1.iblk V c 8 t) p j).trans ?_
  exact blkRow_iblk V c t p _

/-- Row r of the array is in the block of point r / 5000. -/
theorem cover11 (i : S400000x128.Idx) :
    ∃ t : Fin cfg0.N, (cfg0.win 11).flush t = true ∧ i ∈ ((cfg0.win 11).blk t).view.set := by
  have h0 := idx2_lt0 i
  have h1 := idx2_lt1 i
  obtain ⟨t, ht⟩ : ∃ t : Fin cfg0.N, t.val = (i 0).val / 5000 :=
    ⟨⟨(i 0).val / 5000, by rw [show cfg0.N = 80 from N_0]; omega⟩, rfl⟩
  obtain ⟨-, -, -, -, -, -, -, -, -, -, e0, e1⟩ := idx_rows t
  refine ⟨t, flush0_11 t, ?_⟩
  show i ∈ ((View.whole main_v11_2).slice (win0_11.rect t)).set
  rw [View.set_slice_whole, Rect.mem_set_unit]
  intro a
  match a with
  | ⟨0, _⟩ => show win0_11.index t (0 : Fin 2) * 5000 ≤ (i 0).val ∧ (i 0).val < win0_11.index t (0 : Fin 2) * 5000 + 5000; omega
  | ⟨1, _⟩ => show win0_11.index t (1 : Fin 2) * 128 ≤ (i 1).val ∧ (i 1).val < win0_11.index t (1 : Fin 2) * 128 + 128; omega

/-- The array after the eighty write-backs, at an entry. -/
theorem arr11_apply (c : Dev nD) (r : Fin 400000) (j : Fin 128) :
    ((Net1.dat (F := Ideal) V c).arrAt 11 cfg0.N : S400000x128.Idx → EReal) (ValueIdx.ix2 r j) = edgeRow V c r ⟨256 + j.val, by omega⟩ :=
  congrFun ((Net1.dat (F := Ideal) V c).arrAt_eq_of_cover 11 (arr11 V c) (fun t _ => flushed11_eq V c t) cover11) (ix2 r j)

end Cert.KernelIdeal.Net1Value

end
-- ==== Proof.Net2Value.lean ====
/- The node network's result array as one function of the arrays its region reads.

   At grid point `t` the body writes rows 20000·t … 20000·t + 19999: block `t` of the output window is the payload of
   the five input blocks, and that payload, read at row `p` and feature `j`, is the two-layer network of row `p` of the
   first input block: a 128-term contraction with the first weight matrix, plus the first bias, rectified, contracted
   with the second weight matrix, plus the second bias.  Input window 0's block at point `t` is rows 20000·t … of its
   array and the four parameter windows are whole arrays at every point, so every point writes ITS block of one
   function of the input arrays; the five blocks tile the 100000 rows, so the array ends holding that function. -/
import proofs.«419366_j60232621359657_3_alg».proof.Proof.Net2Body
import proofs.«419366_j60232621359657_3_alg».proof.Proof.Spec
import Idealize.ShloMosaic.Lib.Pipeline.Value
import Idealize.ShloMosaic.Lib.ValueIdx
import Idealize.ShloMosaic.PureOps.Ideal.Laws

noncomputable section

namespace Cert.KernelIdeal.Net2Value

open Cert.KernelIdeal Cert.KernelIdeal.Facts₀ Cert.KernelIdeal.Facts Cert.KernelIdeal.Gen Idealize.ShloMosaic Idealize.ShloMosaic.TcCoe
open Idealize.ShloMosaic.Pipeline (Dat)
open scoped BigOperators

/-! ## The contraction of a 20000×128 block with a 128×128 matrix, at an index -/

/-- The left operand's index at output index `i` and contraction index `q`: row `i 0`, -/
theorem lhs_dot_0 (i : S20000x128.Idx) (q : dot_S20000x128_S128x128_S20000x128_1_0_0_1_n_n.contr.Idx) :
    (dot_S20000x128_S128x128_S20000x128_1_0_0_1_n_n.lhsIdx i q 0).val = (i 0).val := by
  unfold DotDims.lhsIdx
  rw [dif_neg (show ¬(0 : Fin S20000x128.rank) ∈ dot_S20000x128_S128x128_S20000x128_1_0_0_1_n_n.lhsBatch by decide), dif_pos (show (0 : Fin S20000x128.rank) ∈ dot_S20000x128_S128x128_S20000x128_1_0_0_1_n_n.lhsNonContracting by decide)]
  rfl
/-- column the contraction coordinate. -/
theorem lhs_dot_1 (i : S20000x128.Idx) (q : dot_S20000x128_S128x128_S20000x128_1_0_0_1_n_n.contr.Idx) :
    (dot_S20000x128_S128x128_S20000x128_1_0_0_1_n_n.lhsIdx i q 1).val = (q ⟨0, by decide⟩).val :=
  dot_S20000x128_S128x128_S20000x128_1_0_0_1_n_n.lhsIdx_val_of_single rfl i q
/-- The right operand's: row the contraction coordinate, -/
theorem rhs_dot_0 (i : S20000x128.Idx) (q : dot_S20000x128_S128x128_S20000x128_1_0_0_1_n_n.contr.Idx) :
    (dot_S20000x128_S128x128_S20000x128_1_0_0_1_n_n.rhsIdx i q 0).val = (q ⟨0, by decide⟩).val :=
  dot_S20000x128_S128x128_S20000x128_1_0_0_1_n_n.rhsIdx_val_of_single rfl i q
/-- column `i 1`. -/
theorem rhs_dot_1 (i : S20000x128.Idx) (q : dot_S20000x128_S128x128_S20000x128_1_0_0_1_n_n.contr.Idx) :
    (dot_S20000x128_S128x128_S20000x128_1_0_0_1_n_n.rhsIdx i q 1).val = (i 1).val := by
  unfold DotDims.rhsIdx
  rw [dif_neg (show ¬(1 : Fin S128x128.rank) ∈ dot_S20000x128_S128x128_S20000x128_1_0_0_1_n_n.rhsBatch by decide), dif_pos (show (1 : Fin S128x128.rank) ∈ dot_S20000x128_S128x128_S20000x128_1_0_0_1_n_n.rhsNonContracting by decide)]
  rfl

/-- The product into the zero accumulator, at row `p` and column `j`: the 128-term sum of the row against the column. -/
theorem matmul_zero_apply (x : FVec Ideal S20000x128 .f32) (W : FVec Ideal S128x128 .f32) (p : Fin 20000) (j : Fin 128) :
    matmul (F := Ideal) dot_S20000x128_S128x128_S20000x128_1_0_0_1_n_n none x W (constant (F := Ideal) S20000x128 .f32 0x00000000#32) (ValueIdx.ix2 p j)
      = ∑ k : Fin 128, x (ValueIdx.ix2 p k) * W (ValueIdx.ix2 k j) := by
  simp only [matmul]
  rw [Ideal.matmul_constant_zero_apply, ← Equiv.sum_comp (ValueIdx.contrEquiv1 dot_S20000x128_S128x128_S20000x128_1_0_0_1_n_n 128 rfl rfl).symm]
  refine Finset.sum_congr rfl fun k _ => ?_
  have hk := ValueIdx.contrEquiv1_symm_val dot_S20000x128_S128x128_S20000x128_1_0_0_1_n_n 128 rfl rfl k
  have el : dot_S20000x128_S128x128_S20000x128_1_0_0_1_n_n.lhsIdx (ValueIdx.ix2 p j) ((ValueIdx.contrEquiv1 dot_S20000x128_S128x128_S20000x128_1_0_0_1_n_n 128 rfl rfl).symm k) = ValueIdx.ix2 p k := funext fun a => Fin.ext (by
    match a with
    | ⟨0, _⟩ => exact lhs_dot_0 _ _
    | ⟨1, _⟩ => exact (lhs_dot_1 _ _).trans hk)
  have er : dot_S20000x128_S128x128_S20000x128_1_0_0_1_n_n.rhsIdx (ValueIdx.ix2 p j) ((ValueIdx.contrEquiv1 dot_S20000x128_S128x128_S20000x128_1_0_0_1_n_n 128 rfl rfl).symm k) = ValueIdx.ix2 k j := funext fun a => Fin.ext (by
    match a with
    | ⟨0, _⟩ => exact (rhs_dot_0 _ _).trans hk
    | ⟨1, _⟩ => exact rhs_dot_1 _ _)
  rw [el, er]

/-! ## The payload at an index -/

/-- The one-row bias broadcast down the 20000 rows, at row `p` and column `j`: the bias at column `j`. -/
theorem bias_apply (b : Vec Ideal S1x128 .f32) (hc : S1x128.ShapeCasts S1x128) (hb : S1x128.Broadcasts S20000x128)
    (p : Fin 20000) (j : Fin 128) :
    broadcastTo S20000x128 (shapeCast S1x128 b hc) hb (ValueIdx.ix2 p j) = b (ValueIdx.ix2 0 j) := by
  rw [shapeCast_self]
  refine broadcastTo_apply _ _ _ (ValueIdx.ix2 0 j) fun a => ?_
  match a with
  | ⟨0, _⟩ => rfl
  | ⟨1, _⟩ => rfl

/-- One layer, at row `p` and column `j`: the row's contraction with the weight's column, plus the bias there. -/
theorem layer_apply (x : FVec Ideal S20000x128 .f32) (W : FVec Ideal S128x128 .f32) (b : Vec Ideal S1x128 .f32)
    (hc : S1x128.ShapeCasts S1x128) (hb : S1x128.Broadcasts S20000x128) (p : Fin 20000) (j : Fin 128) :
    addf (matmul (F := Ideal) dot_S20000x128_S128x128_S20000x128_1_0_0_1_n_n none x W (constant (F := Ideal) S20000x128 .f32 0x00000000#32))
        (broadcastTo S20000x128 (shapeCast S1x128 b hc) hb) (ValueIdx.ix2 p j)
      = (∑ k : Fin 128, x (ValueIdx.ix2 p k) * W (ValueIdx.ix2 k j)) + b (ValueIdx.ix2 0 j) := by
  rw [ValueIdx.addf_apply, matmul_zero_apply, bias_apply]

/-- The body's payload at row `p` and feature `j` is the two-layer network of row `p` of the first loaded block. -/
theorem pay_apply (x0 : Vec Ideal S20000x128 .f32) (x1 : Vec Ideal S128x128 .f32) (x2 : Vec Ideal S1x128 .f32)
    (x3 : Vec Ideal S128x128 .f32) (x4 : Vec Ideal S1x128 .f32) (p : Fin 20000) (j : Fin 128) :
    k1_pay1 (F := Ideal) x0 x1 x2 x3 x4 (ValueIdx.ix2 p j)
      = Cert.TripleConv.nodeOut (fun k => x0 (ValueIdx.ix2 p k)) (fun k j' => x1 (ValueIdx.ix2 k j')) (fun k j' => x3 (ValueIdx.ix2 k j'))
          (fun j' => x2 (ValueIdx.ix2 0 j')) (fun j' => x4 (ValueIdx.ix2 0 j')) j := by
  unfold k1_pay1 Cert.TripleConv.nodeOut
  refine (layer_apply _ x3 x4 _ _ p j).trans ?_
  refine congrArg (· + x4 (ValueIdx.ix2 0 j)) (Finset.sum_congr rfl fun k _ => ?_)
  refine congrArg (· * x3 (ValueIdx.ix2 k j)) ?_
  refine (ValueIdx.maximumf_apply _ _ (ValueIdx.ix2 p k)).trans ?_
  rw [shapeCast_self, layer_apply]
  show max _ (Ideal.ofBits .f32 0x00000000#32) = _
  rw [Ideal.ofBits_zero_f32]

/-! ## The input blocks, read at an index -/

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the five points: the row-block windows (input 0 and the output) sit at block
    (t, 0), the four parameter windows at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Input window 0's block at point `t` is rows 20000·t … 20000·t + 19999 of its array. -/
theorem iblk0_apply (c : Dev nD) (t : Fin cfg1.N) (p : Fin 20000) (k : Fin 128) (i : S100000x128.Idx)
    (h0 : (i 0).val = 20000 * t.val + p.val) (h1 : (i 1).val = k.val) :
    (Net2.iblk (F := Ideal) V c 0 t : Vec Ideal S20000x128 .f32) (ValueIdx.ix2 p k) = (V c main_v31 : S100000x128.Idx → EReal) i := by
  obtain ⟨e0, e1, -⟩ := idx_facts t
  unfold Net2.iblk
  rw [View.read_apply]
  show V c main_v31 _ = V c main_v31 _
  congr 1
  funext a
  apply Fin.ext
  match a with
  | ⟨0, _⟩ => show win1_0.index t (0 : Fin 2) * 20000 + 1 * p.val = (i 0).val; rw [e0, h0]; omega
  | ⟨1, _⟩ => show win1_0.index t (1 : Fin 2) * 128 + 1 * k.val = (i 1).val; rw [e1, h1]; omega

/-- The first weight matrix's window is its whole array at every point. -/
theorem iblk1_apply (c : Dev nD) (t : Fin cfg1.N) (k j : Fin 128) :
    (Net2.iblk (F := Ideal) V c 1 t : Vec Ideal S128x128 .f32) (ValueIdx.ix2 k j) = (V c main_arg7 : S128x128.Idx → EReal) (ValueIdx.ix2 k j) := by
  obtain ⟨-, -, e0, e1, -⟩ := idx_facts t
  unfold Net2.iblk
  rw [View.read_apply]
  show V c main_arg7 _ = V c main_arg7 _
  congr 1
  funext a
  apply Fin.ext
  match a with
  | ⟨0, _⟩ => show win1_1.index t (0 : Fin 2) * 128 + 1 * k.val = k.val; rw [e0]; omega
  | ⟨1, _⟩ => show win1_1.index t (1 : Fin 2) * 128 + 1 * j.val = j.val; rw [e1]; omega

/-- The first bias's window is its whole one-row array at every point. -/
theorem iblk2_apply (c : Dev nD) (t : Fin cfg1.N) (j : Fin 128) :
    (Net2.iblk (F := Ideal) V c 2 t : Vec Ideal S1x128 .f32) (ValueIdx.ix2 0 j) = (V c main_v32 : S1x128.Idx → EReal) (ValueIdx.ix2 0 j) := by
  obtain ⟨-, -, -, -, e0, e1, -⟩ := idx_facts t
  unfold Net2.iblk
  rw [View.read_apply]
  show V c main_v32 _ = V c main_v32 _
  congr 1
  funext a
  apply Fin.ext
  match a with
  | ⟨0, _⟩ => show win1_2.index t (0 : Fin 2) * 1 + 1 * 0 = 0; rw [e0]
  | ⟨1, _⟩ => show win1_2.index t (1 : Fin 2) * 128 + 1 * j.val = j.val; rw [e1]; omega

/-- The second weight matrix's window is its whole array at every point. -/
theorem iblk3_apply (c : Dev nD) (t : Fin cfg1.N) (k j : Fin 128) :
    (Net2.iblk (F := Ideal) V c 3 t : Vec Ideal S128x128 .f32) (ValueIdx.ix2 k j) = (V c main_arg9 : S128x128.Idx → EReal) (ValueIdx.ix2 k j) := by
  obtain ⟨-, -, -, -, -, -, e0, e1, -⟩ := idx_facts t
  unfold Net2.iblk
  rw [View.read_apply]
  show V c main_arg9 _ = V c main_arg9 _
  congr 1
  funext a
  apply Fin.ext
  match a with
  | ⟨0, _⟩ => show win1_3.index t (0 : Fin 2) * 128 + 1 * k.val = k.val; rw [e0]; omega
  | ⟨1, _⟩ => show win1_3.index t (1 : Fin 2) * 128 + 1 * j.val = j.val; rw [e1]; omega

/-- The second bias's window is its whole one-row array at every point. -/
theorem iblk4_apply (c : Dev nD) (t : Fin cfg1.N) (j : Fin 128) :
    (Net2.iblk (F := Ideal) V c 4 t : Vec Ideal S1x128 .f32) (ValueIdx.ix2 0 j) = (V c main_v33 : S1x128.Idx → EReal) (ValueIdx.ix2 0 j) := by
  obtain ⟨-, -, -, -, -, -, -, -, e0, e1, -⟩ := idx_facts t
  unfold Net2.iblk
  rw [View.read_apply]
  show V c main_v33 _ = V c main_v33 _
  congr 1
  funext a
  apply Fin.ext
  match a with
  | ⟨0, _⟩ => show win1_4.index t (0 : Fin 2) * 1 + 1 * 0 = 0; rw [e0]
  | ⟨1, _⟩ => show win1_4.index t (1 : Fin 2) * 128 + 1 * j.val = j.val; rw [e1]; omega

/-! ## The result array as one function of the input arrays -/

/-- The network's value depends on its six arguments only. -/
theorem nodeOut_congr {x x' : Fin 128 → EReal} {Wa Wa' Wb Wb' : Fin 128 → Fin 128 → EReal} {ba ba' bb bb' : Fin 128 → EReal} {j j' : Fin 128}
    (hx : x = x') (hWa : Wa = Wa') (hWb : Wb = Wb') (hba : ba = ba') (hbb : bb = bb') (hj : j = j') :
    Cert.TripleConv.nodeOut x Wa Wb ba bb j = Cert.TripleConv.nodeOut x' Wa' Wb' ba' bb' j' := by
  subst hx hWa hWb hba hbb hj; rfl

/-- Row `r`, feature `j` of the result: the two-layer network of row `r` of the node array. -/
def nodeAt (c : Dev nD) (r : Fin 100000) (j : Fin 128) : EReal :=
  Cert.TripleConv.nodeOut (fun k => (V c main_v31 : S100000x128.Idx → EReal) (ValueIdx.ix2 r k))
    (fun k j' => (V c main_arg7 : S128x128.Idx → EReal) (ValueIdx.ix2 k j'))
    (fun k j' => (V c main_arg9 : S128x128.Idx → EReal) (ValueIdx.ix2 k j'))
    (fun j' => (V c main_v32 : S1x128.Idx → EReal) (ValueIdx.ix2 0 j'))
    (fun j' => (V c main_v33 : S1x128.Idx → EReal) (ValueIdx.ix2 0 j')) j

/-- The whole result array. -/
def G (c : Dev nD) : S100000x128.Idx → EReal :=
  fun i => nodeAt V c ⟨(i 0).val, ValueIdx.idx2_lt0 i⟩ ⟨(i 1).val, ValueIdx.idx2_lt1 i⟩

/-- WHAT POINT `t` WRITES BACK is block `t` of `G`: the payload at row `p` of the block is the network of row `p` of input
    block `t`, which is row 20000·t + `p` of the node array, where the output's block puts it. -/
theorem flushed5_eq (c : Dev nD) (t : Fin cfg1.N) :
    (Net2.dat (F := Ideal) V c).flushed 5 t = ((cfg1.win 5).blk t).view.read (Elt Ideal) (G V c) := by
  show (cfg1.win 5).cut (grid1.coords t) ((Net2.dat (F := Ideal) V c).after 5 t) = _
  rw [Net2.after5]
  unfold Net2.out5
  rw [View.canon_unit_zero hz]
  simp only [View.ld_unit_zero (S := S20000x128) hz, View.ld_unit_zero (S := S128x128) hz, View.ld_unit_zero (S := S1x128) hz]
  obtain ⟨-, -, -, -, -, -, -, -, -, -, e0, e1⟩ := idx_facts t
  funext y
  obtain ⟨p, q, rfl⟩ : ∃ (p : Fin 20000) (q : Fin 128), y = ValueIdx.ix2 p q := ⟨y 0, y 1, ValueIdx.eq_ix2 y⟩
  show k1_pay1 (F := Ideal) (Net2.iblk V c 0 t) (Net2.iblk V c 1 t) (Net2.iblk V c 2 t) (Net2.iblk V c 3 t) (Net2.iblk V c 4 t) (ValueIdx.ix2 p q)
    = G V c (((cfg1.win 5).blk t).view.emb (ValueIdx.ix2 p q))
  refine (pay_apply _ _ _ _ _ p q).trans ?_
  unfold G nodeAt
  refine nodeOut_congr (funext fun k => ?_) (funext fun k => funext fun j' => ?_) (funext fun k => funext fun j' => ?_)
    (funext fun j' => ?_) (funext fun j' => ?_) (Fin.ext ?_)
  · refine iblk0_apply V c t p k _ ?_ rfl
    show win1_5.index t (0 : Fin 2) * 20000 + 1 * p.val = 20000 * t.val + p.val
    rw [e0]; omega
  · exact iblk1_apply V c t k j'
  · exact iblk3_apply V c t k j'
  · exact iblk2_apply V c t j'
  · exact iblk4_apply V c t j'
  · show q.val = win1_5.index t (1 : Fin 2) * 128 + 1 * q.val
    rw [e1]; omega

/-! ## The blocks tile the array -/

/-- An index of the result array is in point `t`'s block iff each coordinate is in the block's range on its axis. -/
theorem mem_blk5 (t : Fin cfg1.N) (i : S100000x128.Idx) :
    i ∈ ((cfg1.win 5).blk t).view.set ↔ ∀ a : Fin 2, win1_5.index t a * S20000x128.size a ≤ (i a).val ∧ (i a).val < win1_5.index t a * S20000x128.size a + S20000x128.size a := by
  show i ∈ ((View.whole main_v34).slice (win1_5.rect t)).set ↔ _
  rw [View.set_slice_whole, Rect.mem_set_unit]
  exact Iff.rfl

/-- Row `r` is in the block of point `r / 20000`. -/
theorem cover5 (i : S100000x128.Idx) : ∃ t : Fin cfg1.N, (cfg1.win 5).flush t = true ∧ i ∈ ((cfg1.win 5).blk t).view.set := by
  have hi0 : (i 0).val < 100000 := ValueIdx.idx2_lt0 i
  have hi1 : (i 1).val < 128 := ValueIdx.idx2_lt1 i
  have hN : cfg1.N = 5 := N_1
  let t : Fin cfg1.N := ⟨(i 0).val / 20000, by rw [hN]; omega⟩
  have ht : t.val = (i 0).val / 20000 := rfl
  obtain ⟨-, -, -, -, -, -, -, -, -, -, e0, e1⟩ := idx_facts t
  refine ⟨t, flush1_5 t, ?_⟩
  rw [mem_blk5]
  intro a
  match a with
  | ⟨0, _⟩ => show win1_5.index t (0 : Fin 2) * 20000 ≤ (i 0).val ∧ (i 0).val < win1_5.index t (0 : Fin 2) * 20000 + 20000; rw [e0, ht]; omega
  | ⟨1, _⟩ => show win1_5.index t (1 : Fin 2) * 128 ≤ (i 1).val ∧ (i 1).val < win1_5.index t (1 : Fin 2) * 128 + 128; rw [e1]; omega

/-- THE ARRAY after the region: `G` of the input arrays. -/
theorem final5 (c : Dev nD) : (Net2.dat (F := Ideal) V c).arrAt 5 cfg1.N = G V c :=
  (Net2.dat (F := Ideal) V c).arrAt_eq_of_cover 5 (G V c) (fun t _ => flushed5_eq V c t) cover5

/-- Row `r`, feature `j` of the node network's result array is the two-layer network of row `r` of the node array. -/
theorem arr5_apply (c : Dev nD) (r : Fin 100000) (j : Fin 128) :
    ((Net2.dat (F := Ideal) V c).arrAt 5 cfg1.N : S100000x128.Idx → EReal) (ValueIdx.ix2 r j)
      = Cert.TripleConv.nodeOut (fun k => (V c main_v31 : S100000x128.Idx → EReal) (ValueIdx.ix2 r k))
          (fun k j' => (V c main_arg7 : S128x128.Idx → EReal) (ValueIdx.ix2 k j'))
          (fun k j' => (V c main_arg9 : S128x128.Idx → EReal) (ValueIdx.ix2 k j'))
          (fun j' => (V c main_v32 : S1x128.Idx → EReal) (ValueIdx.ix2 0 j'))
          (fun j' => (V c main_v33 : S1x128.Idx → EReal) (ValueIdx.ix2 0 j')) j := by
  rw [final5]
  rfl

end Cert.KernelIdeal.Net2Value

end
-- ==== Proof.RefSpec.lean ====
/-
  The reference's two small networks, read at an index.

  Per edge r the reference forms the row t = [h_s ‖ p ‖ h_o] of 384 entries (the subject's gathered row, the
  predicate's row, the object's gathered row), contracts it with the 384×128 first weight matrix, adds a bias and
  rectifies; the hidden vector is then contracted with the 128×384 second matrix and a bias is added, and the
  result's three column bands 0 … 127, 128 … 255, 256 … 383 are sliced off.  Per node r it applies a 128×128 layer,
  rectifies, and applies a second 128×128 layer.

  Here each of these stages, read at a row and a column, is identified with the row functions of
  Cert.TripleConv: the one 384-term contraction over the concatenated row is split into its three consecutive
  128-term pieces, and in piece number b the concatenated row at column 128·b + k is piece b's own row at column k.
-/
import proofs.«419366_j60232621359657_3_alg».proof.Proof.RefImports
import proofs.«419366_j60232621359657_3_alg».proof.Proof.Spec

noncomputable section

namespace Cert.ReferenceIdeal.RefSpec

open Cert.ReferenceIdeal Cert.ReferenceIdeal.Read Idealize.ShloMosaic
open scoped BigOperators

/-! ## The edge network -/

/-- Edge r's hidden vector, from the reference's gathered rows and its arguments. -/
def hiddenRow (x0 : (⟨S100000x128, .f32⟩ : BufTy).Contents (Elt Ideal)) (x1 : (⟨S400000x128, .f32⟩ : BufTy).Contents (Elt Ideal)) (x2 : (⟨S400000x2, .i32⟩ : BufTy).Contents (Elt Ideal)) (x3 : (⟨S384x128, .f32⟩ : BufTy).Contents (Elt Ideal)) (x4 : (⟨S128, .f32⟩ : BufTy).Contents (Elt Ideal)) (r : Fin 400000) : Fin 128 → EReal :=
  Cert.TripleConv.hidden (fun k => val_main_v10 (F := Ideal) x0 x2 (ValueIdx.ix2 r k)) (fun k => x1 (ValueIdx.ix2 r k)) (fun k => val_main_v17 (F := Ideal) x0 x2 (ValueIdx.ix2 r k))
    (fun k j' => x3 (ValueIdx.ix2 ⟨k.val, by omega⟩ j')) (fun k j' => x3 (ValueIdx.ix2 ⟨128 + k.val, by omega⟩ j')) (fun k j' => x3 (ValueIdx.ix2 ⟨256 + k.val, by omega⟩ j'))
    (fun j' => x4 (ValueIdx.ix1 j'))

/-- Edge r's 384 outputs, from its hidden vector. -/
def edgeRow (x0 : (⟨S100000x128, .f32⟩ : BufTy).Contents (Elt Ideal)) (x1 : (⟨S400000x128, .f32⟩ : BufTy).Contents (Elt Ideal)) (x2 : (⟨S400000x2, .i32⟩ : BufTy).Contents (Elt Ideal)) (x3 : (⟨S384x128, .f32⟩ : BufTy).Contents (Elt Ideal)) (x4 : (⟨S128, .f32⟩ : BufTy).Contents (Elt Ideal)) (x5 : (⟨S128x384, .f32⟩ : BufTy).Contents (Elt Ideal)) (x6 : (⟨S384, .f32⟩ : BufTy).Contents (Elt Ideal)) (r : Fin 400000) (q : Fin 384) : EReal :=
  Cert.TripleConv.edgeOut (hiddenRow x0 x1 x2 x3 x4 r) (fun k q' => x5 (ValueIdx.ix2 k q')) (fun q' => x6 (ValueIdx.ix1 q')) q

/-! ### The concatenated row [h_s ‖ p ‖ h_o] at a column of each of its three pieces -/

/-- Columns 0 … 127 of the concatenated row are the subject's gathered row. -/
theorem v18_subject (x0 : (⟨S100000x128, .f32⟩ : BufTy).Contents (Elt Ideal)) (x1 : (⟨S400000x128, .f32⟩ : BufTy).Contents (Elt Ideal)) (x2 : (⟨S400000x2, .i32⟩ : BufTy).Contents (Elt Ideal)) (r : Fin 400000) (k : Fin 128) (hk : k.val < 384) :
    val_main_v18 (F := Ideal) x0 x1 x2 (ValueIdx.ix2 r ⟨k.val, hk⟩) = val_main_v10 (F := Ideal) x0 x2 (ValueIdx.ix2 r k) := by
  unfold val_main_v18
  refine concatenate_apply_piece (t := S400000x384) 1 _ _ (ValueIdx.ix2 r ⟨k.val, hk⟩) 0 ?_ S400000x128 _ rfl rfl 0 rfl
    (ValueIdx.ix2 r k) ?_ ?_
  · exact (by decide : (0 : Nat) < 3)
  · intro b hb
    match b with
    | ⟨0, _⟩ => rfl
    | ⟨1, _⟩ => exact absurd rfl hb
  · exact Nat.zero_add _

/-- Columns 128 … 255 of the concatenated row are the predicate's row. -/
theorem v18_predicate (x0 : (⟨S100000x128, .f32⟩ : BufTy).Contents (Elt Ideal)) (x1 : (⟨S400000x128, .f32⟩ : BufTy).Contents (Elt Ideal)) (x2 : (⟨S400000x2, .i32⟩ : BufTy).Contents (Elt Ideal)) (r : Fin 400000) (k : Fin 128) (hk : 128 + k.val < 384) :
    val_main_v18 (F := Ideal) x0 x1 x2 (ValueIdx.ix2 r ⟨128 + k.val, hk⟩) = x1 (ValueIdx.ix2 r k) := by
  unfold val_main_v18
  refine concatenate_apply_piece (t := S400000x384) 1 _ _ (ValueIdx.ix2 r ⟨128 + k.val, hk⟩) 1 ?_ S400000x128 _ rfl rfl 128 rfl
    (ValueIdx.ix2 r k) ?_ ?_
  · exact (by decide : (1 : Nat) < 3)
  · intro b hb
    match b with
    | ⟨0, _⟩ => rfl
    | ⟨1, _⟩ => exact absurd rfl hb
  · rfl

/-- Columns 256 … 383 of the concatenated row are the object's gathered row. -/
theorem v18_object (x0 : (⟨S100000x128, .f32⟩ : BufTy).Contents (Elt Ideal)) (x1 : (⟨S400000x128, .f32⟩ : BufTy).Contents (Elt Ideal)) (x2 : (⟨S400000x2, .i32⟩ : BufTy).Contents (Elt Ideal)) (r : Fin 400000) (k : Fin 128) (hk : 256 + k.val < 384) :
    val_main_v18 (F := Ideal) x0 x1 x2 (ValueIdx.ix2 r ⟨256 + k.val, hk⟩) = val_main_v17 (F := Ideal) x0 x2 (ValueIdx.ix2 r k) := by
  unfold val_main_v18
  refine concatenate_apply_piece (t := S400000x384) 1 _ _ (ValueIdx.ix2 r ⟨256 + k.val, hk⟩) 2 ?_ S400000x128 _ rfl rfl 256 rfl
    (ValueIdx.ix2 r k) ?_ ?_
  · exact (by decide : (2 : Nat) < 3)
  · intro b hb
    match b with
    | ⟨0, _⟩ => rfl
    | ⟨1, _⟩ => exact absurd rfl hb
  · rfl

/-! ### The index maps of the edge network's operations at a row and a column -/

/-- The first edge layer's left operand: row r, column k of the concatenated row. -/
theorem lidx19 (r : Fin 400000) (j : Fin 128) (k : Fin 384) : lidx_main_v19 (ValueIdx.ix2 r j) k = ValueIdx.ix2 r k :=
  funext fun a => Fin.ext (by match a with | ⟨0, _⟩ => rfl | ⟨1, _⟩ => rfl)
/-- The first edge layer's right operand: row k, column j of the first weight matrix. -/
theorem ridx19 (r : Fin 400000) (j : Fin 128) (k : Fin 384) : ridx_main_v19 (ValueIdx.ix2 r j) k = ValueIdx.ix2 k j :=
  funext fun a => Fin.ext (by match a with | ⟨0, _⟩ => rfl | ⟨1, _⟩ => rfl)
/-- The first bias, broadcast down the rows, is read at its column. -/
theorem idx21 (r : Fin 400000) (j : Fin 128) : idx_main_v20 (idx_main_v21 (ValueIdx.ix2 r j)) = ValueIdx.ix1 j :=
  funext fun a => Fin.ext (by match a with | ⟨0, _⟩ => rfl)
/-- The second edge layer's left operand: row r, column k of the hidden vector. -/
theorem lidx24 (r : Fin 400000) (q : Fin 384) (k : Fin 128) : lidx_main_v24 (ValueIdx.ix2 r q) k = ValueIdx.ix2 r k :=
  funext fun a => Fin.ext (by match a with | ⟨0, _⟩ => rfl | ⟨1, _⟩ => rfl)
/-- The second edge layer's right operand: row k, column q of the second weight matrix. -/
theorem ridx24 (r : Fin 400000) (q : Fin 384) (k : Fin 128) : ridx_main_v24 (ValueIdx.ix2 r q) k = ValueIdx.ix2 k q :=
  funext fun a => Fin.ext (by match a with | ⟨0, _⟩ => rfl | ⟨1, _⟩ => rfl)
/-- The second bias, broadcast down the rows, is read at its column. -/
theorem idx26 (r : Fin 400000) (q : Fin 384) : idx_main_v25 (idx_main_v26 (ValueIdx.ix2 r q)) = ValueIdx.ix1 q :=
  funext fun a => Fin.ext (by match a with | ⟨0, _⟩ => rfl)
/-- The first column band starts at column 0. -/
theorem idx28 (r : Fin 400000) (j : Fin 128) (hj : j.val < 384) : idx_main_v28 (ValueIdx.ix2 r j) = ValueIdx.ix2 r ⟨j.val, hj⟩ :=
  funext fun a => Fin.ext (by match a with | ⟨0, _⟩ => rfl | ⟨1, _⟩ => rfl)
/-- The second column band starts at column 128. -/
theorem idx29 (r : Fin 400000) (j : Fin 128) (hj : 128 + j.val < 384) : idx_main_v29 (ValueIdx.ix2 r j) = ValueIdx.ix2 r ⟨128 + j.val, hj⟩ :=
  funext fun a => Fin.ext (by match a with | ⟨0, _⟩ => rfl | ⟨1, _⟩ => rfl)
/-- The third column band starts at column 256. -/
theorem idx30 (r : Fin 400000) (j : Fin 128) (hj : 256 + j.val < 384) : idx_main_v30 (ValueIdx.ix2 r j) = ValueIdx.ix2 r ⟨256 + j.val, hj⟩ :=
  funext fun a => Fin.ext (by match a with | ⟨0, _⟩ => rfl | ⟨1, _⟩ => rfl)

/-! ### The stages -/

/-- The rectified first layer at row r, feature j is the edge's hidden vector: the 384-term contraction over the
    concatenated row is the sum of the three 128-term contractions of the subject's, the predicate's and the object's
    rows with their own 128 rows of the weight matrix. -/
theorem v23_apply (x0 : (⟨S100000x128, .f32⟩ : BufTy).Contents (Elt Ideal)) (x1 : (⟨S400000x128, .f32⟩ : BufTy).Contents (Elt Ideal)) (x2 : (⟨S400000x2, .i32⟩ : BufTy).Contents (Elt Ideal)) (x3 : (⟨S384x128, .f32⟩ : BufTy).Contents (Elt Ideal)) (x4 : (⟨S128, .f32⟩ : BufTy).Contents (Elt Ideal)) (r : Fin 400000) (j : Fin 128) :
    val_main_v23 (F := Ideal) x0 x1 x2 x3 x4 (ValueIdx.ix2 r j) = hiddenRow x0 x1 x2 x3 x4 r j := by
  rw [val_main_v23_apply, val_main_v22_apply, val_main_v19_apply, val_main_v21_apply, val_main_v20_apply,
    val_main_call0_v0_apply, val_main_call0_cst_apply]
  simp only [lidx19, ridx19, idx21, Ideal.addf_def, Ideal.maximumf_def, Ideal.ofBits_def, Ideal.ofBits_zero_f32]
  rw [Cert.TripleConv.sum_three_blocks]
  simp only [v18_subject, v18_predicate, v18_object]
  rfl

/-- The second layer at row r, column q is the edge's output at that column. -/
theorem v27_apply (x0 : (⟨S100000x128, .f32⟩ : BufTy).Contents (Elt Ideal)) (x1 : (⟨S400000x128, .f32⟩ : BufTy).Contents (Elt Ideal)) (x2 : (⟨S400000x2, .i32⟩ : BufTy).Contents (Elt Ideal)) (x3 : (⟨S384x128, .f32⟩ : BufTy).Contents (Elt Ideal)) (x4 : (⟨S128, .f32⟩ : BufTy).Contents (Elt Ideal)) (x5 : (⟨S128x384, .f32⟩ : BufTy).Contents (Elt Ideal)) (x6 : (⟨S384, .f32⟩ : BufTy).Contents (Elt Ideal)) (r : Fin 400000) (q : Fin 384) :
    val_main_v27 (F := Ideal) x0 x1 x2 x3 x4 x5 x6 (ValueIdx.ix2 r q) = edgeRow x0 x1 x2 x3 x4 x5 x6 r q := by
  rw [val_main_v27_apply, val_main_v24_apply, val_main_v26_apply, val_main_v25_apply]
  simp only [lidx24, ridx24, idx26, v23_apply, Ideal.addf_def]
  rfl

/-- The subject's band: columns 0 … 127 of the edge's output. -/
theorem v28_apply (x0 : (⟨S100000x128, .f32⟩ : BufTy).Contents (Elt Ideal)) (x1 : (⟨S400000x128, .f32⟩ : BufTy).Contents (Elt Ideal)) (x2 : (⟨S400000x2, .i32⟩ : BufTy).Contents (Elt Ideal)) (x3 : (⟨S384x128, .f32⟩ : BufTy).Contents (Elt Ideal)) (x4 : (⟨S128, .f32⟩ : BufTy).Contents (Elt Ideal)) (x5 : (⟨S128x384, .f32⟩ : BufTy).Contents (Elt Ideal)) (x6 : (⟨S384, .f32⟩ : BufTy).Contents (Elt Ideal)) (r : Fin 400000) (j : Fin 128) :
    val_main_v28 (F := Ideal) x0 x1 x2 x3 x4 x5 x6 (ValueIdx.ix2 r j) = edgeRow x0 x1 x2 x3 x4 x5 x6 r ⟨j.val, by omega⟩ := by
  rw [val_main_v28_apply, idx28 r j (by omega), v27_apply]

/-- The new predicate vector: columns 128 … 255 of the edge's output. -/
theorem v29_apply (x0 : (⟨S100000x128, .f32⟩ : BufTy).Contents (Elt Ideal)) (x1 : (⟨S400000x128, .f32⟩ : BufTy).Contents (Elt Ideal)) (x2 : (⟨S400000x2, .i32⟩ : BufTy).Contents (Elt Ideal)) (x3 : (⟨S384x128, .f32⟩ : BufTy).Contents (Elt Ideal)) (x4 : (⟨S128, .f32⟩ : BufTy).Contents (Elt Ideal)) (x5 : (⟨S128x384, .f32⟩ : BufTy).Contents (Elt Ideal)) (x6 : (⟨S384, .f32⟩ : BufTy).Contents (Elt Ideal)) (r : Fin 400000) (j : Fin 128) :
    val_main_v29 (F := Ideal) x0 x1 x2 x3 x4 x5 x6 (ValueIdx.ix2 r j) = edgeRow x0 x1 x2 x3 x4 x5 x6 r ⟨128 + j.val, by omega⟩ := by
  rw [val_main_v29_apply, idx29 r j (by omega), v27_apply]

/-- The object's band: columns 256 … 383 of the edge's output. -/
theorem v30_apply (x0 : (⟨S100000x128, .f32⟩ : BufTy).Contents (Elt Ideal)) (x1 : (⟨S400000x128, .f32⟩ : BufTy).Contents (Elt Ideal)) (x2 : (⟨S400000x2, .i32⟩ : BufTy).Contents (Elt Ideal)) (x3 : (⟨S384x128, .f32⟩ : BufTy).Contents (Elt Ideal)) (x4 : (⟨S128, .f32⟩ : BufTy).Contents (Elt Ideal)) (x5 : (⟨S128x384, .f32⟩ : BufTy).Contents (Elt Ideal)) (x6 : (⟨S384, .f32⟩ : BufTy).Contents (Elt Ideal)) (r : Fin 400000) (j : Fin 128) :
    val_main_v30 (F := Ideal) x0 x1 x2 x3 x4 x5 x6 (ValueIdx.ix2 r j) = edgeRow x0 x1 x2 x3 x4 x5 x6 r ⟨256 + j.val, by omega⟩ := by
  rw [val_main_v30_apply, idx30 r j (by omega), v27_apply]

/-! ## The node network -/

/-- The second node layer's left operand: row r, column k. -/
theorem lidx56 (r : Fin 100000) (j k : Fin 128) : lidx_main_v56 (ValueIdx.ix2 r j) k = ValueIdx.ix2 r k :=
  funext fun a => Fin.ext (by match a with | ⟨0, _⟩ => rfl | ⟨1, _⟩ => rfl)
/-- The second node layer's right operand: row k, column j. -/
theorem ridx56 (r : Fin 100000) (j k : Fin 128) : ridx_main_v56 (ValueIdx.ix2 r j) k = ValueIdx.ix2 k j :=
  funext fun a => Fin.ext (by match a with | ⟨0, _⟩ => rfl | ⟨1, _⟩ => rfl)
/-- The first node layer's left operand: row r, column k. -/
theorem lidx51 (r : Fin 100000) (j k : Fin 128) : lidx_main_v51 (ValueIdx.ix2 r j) k = ValueIdx.ix2 r k :=
  funext fun a => Fin.ext (by match a with | ⟨0, _⟩ => rfl | ⟨1, _⟩ => rfl)
/-- The first node layer's right operand: row k, column j. -/
theorem ridx51 (r : Fin 100000) (j k : Fin 128) : ridx_main_v51 (ValueIdx.ix2 r j) k = ValueIdx.ix2 k j :=
  funext fun a => Fin.ext (by match a with | ⟨0, _⟩ => rfl | ⟨1, _⟩ => rfl)
/-- A bias broadcast down the rows is read at its column (second layer). -/
theorem idx58 (r : Fin 100000) (j : Fin 128) : idx_main_v57 (idx_main_v58 (ValueIdx.ix2 r j)) = ValueIdx.ix1 j :=
  funext fun a => Fin.ext (by match a with | ⟨0, _⟩ => rfl)
/-- A bias broadcast down the rows is read at its column (first layer). -/
theorem idx53 (r : Fin 100000) (j : Fin 128) : idx_main_v52 (idx_main_v53 (ValueIdx.ix2 r j)) = ValueIdx.ix1 j :=
  funext fun a => Fin.ext (by match a with | ⟨0, _⟩ => rfl)

/-- The node network's hidden layer at row r, feature k: the rectified first layer. -/
theorem v55_apply (x0 : (⟨S100000x128, .f32⟩ : BufTy).Contents (Elt Ideal)) (x1 : (⟨S400000x128, .f32⟩ : BufTy).Contents (Elt Ideal)) (x2 : (⟨S400000x2, .i32⟩ : BufTy).Contents (Elt Ideal)) (x3 : (⟨S384x128, .f32⟩ : BufTy).Contents (Elt Ideal)) (x4 : (⟨S128, .f32⟩ : BufTy).Contents (Elt Ideal)) (x5 : (⟨S128x384, .f32⟩ : BufTy).Contents (Elt Ideal)) (x6 : (⟨S384, .f32⟩ : BufTy).Contents (Elt Ideal)) (x7 : (⟨S128x128, .f32⟩ : BufTy).Contents (Elt Ideal)) (x8 : (⟨S128, .f32⟩ : BufTy).Contents (Elt Ideal)) (r : Fin 100000) (k : Fin 128) :
    val_main_v55 (F := Ideal) x0 x1 x2 x3 x4 x5 x6 x7 x8 (ValueIdx.ix2 r k)
      = max ((∑ k' : Fin 128, val_main_v50 (F := Ideal) x0 x1 x2 x3 x4 x5 x6 (ValueIdx.ix2 r k') * x7 (ValueIdx.ix2 k' k)) + x8 (ValueIdx.ix1 k)) 0 := by
  rw [val_main_v55_apply, val_main_v54_apply, val_main_v51_apply, val_main_v53_apply, val_main_v52_apply,
    val_main_call1_v0_apply, val_main_call1_cst_apply]
  simp only [lidx51, ridx51, idx53, Ideal.addf_def, Ideal.maximumf_def, Ideal.ofBits_def, Ideal.ofBits_zero_f32]

/-- The reference's node output at row r, feature j is the node function of the row of pooled vectors. -/
theorem v59_apply (x0 : (⟨S100000x128, .f32⟩ : BufTy).Contents (Elt Ideal)) (x1 : (⟨S400000x128, .f32⟩ : BufTy).Contents (Elt Ideal)) (x2 : (⟨S400000x2, .i32⟩ : BufTy).Contents (Elt Ideal)) (x3 : (⟨S384x128, .f32⟩ : BufTy).Contents (Elt Ideal)) (x4 : (⟨S128, .f32⟩ : BufTy).Contents (Elt Ideal)) (x5 : (⟨S128x384, .f32⟩ : BufTy).Contents (Elt Ideal)) (x6 : (⟨S384, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (r : Fin 100000) (j : Fin 128) :
    val_main_v59 (F := Ideal) x0 x1 x2 x3 x4 x5 x6 x7 x8 x9 x10 (ValueIdx.ix2 r j)
      = Cert.TripleConv.nodeOut (fun k => val_main_v50 (F := Ideal) x0 x1 x2 x3 x4 x5 x6 (ValueIdx.ix2 r k)) (fun k j' => x7 (ValueIdx.ix2 k j')) (fun k j' => x9 (ValueIdx.ix2 k j')) (fun j' => x8 (ValueIdx.ix1 j')) (fun j' => x10 (ValueIdx.ix1 j')) j := by
  rw [val_main_v59_apply, val_main_v56_apply, val_main_v58_apply, val_main_v57_apply]
  simp only [lidx56, ridx56, idx58, v55_apply, Ideal.addf_def]
  rfl

end Cert.ReferenceIdeal.RefSpec

end
-- ==== Proof.Equal.lean ====
/-
  The kernel's two results are the reference's.

  Under the index range every edge's subject row and object row that the kernel gathers in ONE pass are the rows
  the reference gathers in two; the first weight matrix's three 128-row pieces are its rows k, 128 + k, 256 + k; a
  bias laid out as a one-row matrix is the bias.  So edge by edge the kernel's hidden vector and its 384 outputs are
  the reference's: the three result arrays of the edge network are the reference's three column slices, the new
  predicate vectors among them.  Both programs then pool the subject and object messages into the nodes, count,
  and divide by max(count, 1) with the same operations on equal arrays, and node by node the node network's output
  is the reference's last two layers of that quotient.
-/
import proofs.«419366_j60232621359657_3_alg».proof.Proof.Frames
import proofs.«419366_j60232621359657_3_alg».proof.Proof.HostRead
import proofs.«419366_j60232621359657_3_alg».proof.Proof.HostTermsAt
import proofs.«419366_j60232621359657_3_alg».proof.Proof.IndexRange
import proofs.«419366_j60232621359657_3_alg».proof.Proof.Net1Value
import proofs.«419366_j60232621359657_3_alg».proof.Proof.Net2Value
import proofs.«419366_j60232621359657_3_alg».proof.Proof.RefSpec

set_option maxRecDepth 16384

noncomputable section

namespace Cert.TripleConv

/-- The spec functions depend on their arguments only through their values. -/
theorem hidden_congr {hs hs' pv pv' ho ho' : Fin 128 → EReal} {Ws Ws' Wp Wp' Wo Wo' : Fin 128 → Fin 128 → EReal} {b b' : Fin 128 → EReal}
    (e1 : ∀ k, hs k = hs' k) (e2 : ∀ k, pv k = pv' k) (e3 : ∀ k, ho k = ho' k)
    (e4 : ∀ k j, Ws k j = Ws' k j) (e5 : ∀ k j, Wp k j = Wp' k j) (e6 : ∀ k j, Wo k j = Wo' k j) (e7 : ∀ j, b j = b' j) (j : Fin 128) :
    hidden hs pv ho Ws Wp Wo b j = hidden hs' pv' ho' Ws' Wp' Wo' b' j := by
  obtain rfl : hs = hs' := funext e1
  obtain rfl : pv = pv' := funext e2
  obtain rfl : ho = ho' := funext e3
  obtain rfl : Ws = Ws' := funext fun k => funext (e4 k)
  obtain rfl : Wp = Wp' := funext fun k => funext (e5 k)
  obtain rfl : Wo = Wo' := funext fun k => funext (e6 k)
  obtain rfl : b = b' := funext e7
  rfl

theorem edgeOut_congr {h h' : Fin 128 → EReal} {W W' : Fin 128 → Fin 384 → EReal} {b b' : Fin 384 → EReal}
    (e1 : ∀ k, h k = h' k) (e2 : ∀ k q, W k q = W' k q) (e3 : ∀ q, b q = b' q) (q : Fin 384) :
    edgeOut h W b q = edgeOut h' W' b' q := by
  obtain rfl : h = h' := funext e1
  obtain rfl : W = W' := funext fun k => funext (e2 k)
  obtain rfl : b = b' := funext e3
  rfl

theorem nodeOut_congr {x x' : Fin 128 → EReal} {Wa Wa' Wb Wb' : Fin 128 → Fin 128 → EReal} {ba ba' bb bb' : Fin 128 → EReal}
    (e1 : ∀ k, x k = x' k) (e2 : ∀ k j, Wa k j = Wa' k j) (e3 : ∀ k j, Wb k j = Wb' k j) (e4 : ∀ j, ba j = ba' j) (e5 : ∀ j, bb j = bb' j)
    (j : Fin 128) : nodeOut x Wa Wb ba bb j = nodeOut x' Wa' Wb' ba' bb' j := by
  obtain rfl : x = x' := funext e1
  obtain rfl : Wa = Wa' := funext fun k => funext (e2 k)
  obtain rfl : Wb = Wb' := funext fun k => funext (e3 k)
  obtain rfl : ba = ba' := funext e4
  obtain rfl : bb = bb' := funext e5
  rfl

end Cert.TripleConv

namespace Cert.KernelIdeal.Equal

open Cert.KernelIdeal Cert.KernelIdeal.Gen Cert.KernelIdeal.HostTerms Cert.KernelIdeal.IndexRange
open Idealize.ShloMosaic Idealize.ShloMosaic.TcCoe Idealize.ShloMosaic.ValueIdx
open Idealize.SL Idealize.SL.Sem

variable (m : (ℓ : Loc nD τ sig) → Buf (Elt Ideal) ℓ)

/-! ## What the edge network's call reads, from the arguments -/

theorem call0_v5 (c : Dev nD) : Run.vCall0 m c main_v5 = gathered (F := Ideal) (m ((c.tc : Thread nD τ).loc main_arg0)) (m ((c.tc : Thread nD τ).loc main_arg2)) :=
  HostRead.entry0_v5 (Run.atLaunch m c)
theorem call0_arg1 (c : Dev nD) : Run.vCall0 m c main_arg1 = (m ((c.tc : Thread nD τ).loc main_arg1)) := HostRead.entry0_arg1 (Run.atLaunch m c)
theorem call0_v6 (c : Dev nD) : Run.vCall0 m c main_v6 = w1aRows0 (F := Ideal) (m ((c.tc : Thread nD τ).loc main_arg3)) := HostRead.entry0_v6 (Run.atLaunch m c)
theorem call0_v7 (c : Dev nD) : Run.vCall0 m c main_v7 = w1aRows1 (F := Ideal) (m ((c.tc : Thread nD τ).loc main_arg3)) := HostRead.entry0_v7 (Run.atLaunch m c)
theorem call0_v8 (c : Dev nD) : Run.vCall0 m c main_v8 = w1aRows2 (F := Ideal) (m ((c.tc : Thread nD τ).loc main_arg3)) := HostRead.entry0_v8 (Run.atLaunch m c)
theorem call0_v9 (c : Dev nD) : Run.vCall0 m c main_v9 = row128 (F := Ideal) (m ((c.tc : Thread nD τ).loc main_arg4)) := HostRead.entry0_v9 (Run.atLaunch m c)
theorem call0_arg5 (c : Dev nD) : Run.vCall0 m c main_arg5 = (m ((c.tc : Thread nD τ).loc main_arg5)) := HostRead.entry0_arg5 (Run.atLaunch m c)
theorem call0_v10 (c : Dev nD) : Run.vCall0 m c main_v10 = row384 (F := Ideal) (m ((c.tc : Thread nD τ).loc main_arg6)) := HostRead.entry0_v10 (Run.atLaunch m c)

/-- Edge by edge, the kernel's 384 outputs are the reference's. -/
theorem edgeRow_eq (c : Dev nD) (he : InRange (m ((c.tc : Thread nD τ).loc main_arg2))) (r : Fin 400000) (q : Fin 384) :
    Net1Value.edgeRow (Run.vCall0 m) c r q
      = Cert.ReferenceIdeal.RefSpec.edgeRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) r q :=
  Cert.TripleConv.edgeOut_congr
    (fun j => Cert.TripleConv.hidden_congr
      (fun k => by rw [call0_v5]; exact gathered_subject (F := Ideal) _ _ he r k)
      (fun k => by rw [call0_arg1])
      (fun k => by rw [call0_v5]; exact gathered_object (F := Ideal) _ _ he r k)
      (fun k j' => by rw [call0_v6]; exact w1aRows0_apply _ k j')
      (fun k j' => by rw [call0_v7]; exact w1aRows1_apply _ k j')
      (fun k j' => by rw [call0_v8]; exact w1aRows2_apply _ k j')
      (fun j' => by rw [call0_v9]; exact row128_apply _ j') j)
    (fun k q' => by rw [call0_arg5])
    (fun q' => by rw [call0_v10]; exact row384_apply _ q') q

/-- The edge network's three result arrays are the reference's three column slices. -/
theorem newS_eq (c : Dev nD) (he : InRange (m ((c.tc : Thread nD τ).loc main_arg2))) :
    (Net1.dat (F := Ideal) (Run.vCall0 m) c).arrAt 9 cfg0.N = Cert.ReferenceIdeal.Read.val_main_v28 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext i
  obtain ⟨r, j, rfl⟩ : ∃ (r : Fin 400000) (j : Fin 128), i = ix2 r j := ⟨i 0, i 1, eq_ix2 i⟩
  rw [Cert.ReferenceIdeal.RefSpec.v28_apply]
  exact (Net1Value.arr9_apply (Run.vCall0 m) c r j).trans (edgeRow_eq m c he r _)
theorem newP_eq (c : Dev nD) (he : InRange (m ((c.tc : Thread nD τ).loc main_arg2))) :
    (Net1.dat (F := Ideal) (Run.vCall0 m) c).arrAt 10 cfg0.N = Cert.ReferenceIdeal.Read.val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext i
  obtain ⟨r, j, rfl⟩ : ∃ (r : Fin 400000) (j : Fin 128), i = ix2 r j := ⟨i 0, i 1, eq_ix2 i⟩
  rw [Cert.ReferenceIdeal.RefSpec.v29_apply]
  exact (Net1Value.arr10_apply (Run.vCall0 m) c r j).trans (edgeRow_eq m c he r _)
theorem newO_eq (c : Dev nD) (he : InRange (m ((c.tc : Thread nD τ).loc main_arg2))) :
    (Net1.dat (F := Ideal) (Run.vCall0 m) c).arrAt 11 cfg0.N = Cert.ReferenceIdeal.Read.val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext i
  obtain ⟨r, j, rfl⟩ : ∃ (r : Fin 400000) (j : Fin 128), i = ix2 r j := ⟨i 0, i 1, eq_ix2 i⟩
  rw [Cert.ReferenceIdeal.RefSpec.v30_apply]
  exact (Net1Value.arr11_apply (Run.vCall0 m) c r j).trans (edgeRow_eq m c he r _)

/-! ## What the node network's call reads -/

/-- An argument array is, at the node network's entry, as launched. -/
theorem call1_arg (c : Dev nD) (b : Ref sig .tc) (h0 : b ∉ hostOps0_W) (h1 : b ∉ hostOps0_1_W) (h2 : b ∉ hostOps0_2_W)
    (ho : b ∉ ([main_v11_0, main_v11_1, main_v11_2] : List (Ref sig .tc))) (h3 : b ∉ hostOps1_W) :
    Run.vCall1 m c b = m ((c.tc : Thread nD τ).loc b) := Run.atCall1_kept m c b h0 h1 h2 ho h3

/-- The averaged pooled messages the node network reads are the reference's. -/
theorem call1_v31 (c : Dev nD) (he : InRange (m ((c.tc : Thread nD τ).loc main_arg2))) :
    Run.vCall1 m c main_v31 = Cert.ReferenceIdeal.Read.val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have hs : Run.afterCall0 m c (Proc.devRef .tc main_v1) = sIdx (m ((c.tc : Thread nD τ).loc main_arg2)) :=
    (Run.afterCall0_of_ne m c main_v1 (by decide)).trans (HostRead.entry0_v1 (Run.atLaunch m c))
  have ho : Run.afterCall0 m c (Proc.devRef .tc main_v3) = oIdx (m ((c.tc : Thread nD τ).loc main_arg2)) :=
    (Run.afterCall0_of_ne m c main_v3 (by decide)).trans (HostRead.entry0_v3 (Run.atLaunch m c))
  have h := HostRead.entry1_v31 (F := Ideal) (Run.afterCall0 m c) (m ((c.tc : Thread nD τ).loc main_arg2)) hs ho
  rw [Run.afterCall0_v11_0, Run.afterCall0_v11_2, newS_eq m c he, newO_eq m c he] at h
  exact h.trans rfl

theorem call1_v32 (c : Dev nD) : Run.vCall1 m c main_v32 = row128 (F := Ideal) (m ((c.tc : Thread nD τ).loc main_arg8)) := by
  have h := HostRead.entry1_v32 (F := Ideal) (Run.afterCall0 m c)
  rw [show Run.afterCall0 m c (Proc.devRef .tc main_arg8) = (m ((c.tc : Thread nD τ).loc main_arg8)) from
    (Run.afterCall0_of_ne m c main_arg8 (by decide)).trans (Run.atCall0_kept m c main_arg8 (by decide) (by decide) (by decide))] at h
  exact h
theorem call1_v33 (c : Dev nD) : Run.vCall1 m c main_v33 = row128 (F := Ideal) (m ((c.tc : Thread nD τ).loc main_arg10)) := by
  have h := HostRead.entry1_v33 (F := Ideal) (Run.afterCall0 m c)
  rw [show Run.afterCall0 m c (Proc.devRef .tc main_arg10) = (m ((c.tc : Thread nD τ).loc main_arg10)) from
    (Run.afterCall0_of_ne m c main_arg10 (by decide)).trans (Run.atCall0_kept m c main_arg10 (by decide) (by decide) (by decide))] at h
  exact h

/-! ## The two results -/

/-- The new predicate vectors. -/
theorem out1_eq (hpre : Cert.Pre_KernelIdeal m) (c : Dev nD) :
    Run.afterCall1 m c (Proc.devRef .tc main_v11_1) = Cert.ReferenceIdeal.Read.val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (Run.afterCall1_of_ne m c main_v11_1 (by decide)).trans <|
    (HostRead.entry1_keep (F := Ideal) (Run.afterCall0 m c) main_v11_1 (by decide)).trans <|
      (Run.afterCall0_v11_1 m c).trans (newP_eq m c (inRange_of_pre m hpre c))

/-- The new object vectors. -/
theorem out0_eq (hpre : Cert.Pre_KernelIdeal m) (c : Dev nD) :
    Run.afterCall1 m c (Proc.devRef .tc main_v34) = Cert.ReferenceIdeal.Read.val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  have he := inRange_of_pre m hpre c
  refine (Run.afterCall1_arr m c 5).trans ?_
  funext i
  obtain ⟨r, j, rfl⟩ : ∃ (r : Fin 100000) (j : Fin 128), i = ix2 r j := ⟨i 0, i 1, eq_ix2 i⟩
  rw [Cert.ReferenceIdeal.RefSpec.v59_apply]
  refine (Net2Value.arr5_apply (Run.vCall1 m) c r j).trans ?_
  exact Cert.TripleConv.nodeOut_congr
    (fun k => by rw [call1_v31 m c he])
    (fun k j' => by rw [call1_arg m c main_arg7 (by decide) (by decide) (by decide) (by decide) (by decide)])
    (fun k j' => by rw [call1_arg m c main_arg9 (by decide) (by decide) (by decide) (by decide) (by decide)])
    (fun j' => by rw [call1_v32]; exact row128_apply _ j')
    (fun j' => by rw [call1_v33]; exact row128_apply _ j') j

end Cert.KernelIdeal.Equal

end
-- ==== Proof.lean ====
/-
  The certificate of the graph triple convolution: a gather of object rows by the edges' endpoints, an edge network
  (two dense layers over [subject ‖ predicate ‖ object]), the edge messages summed into their nodes and averaged by
  max(count, 1), and a node network (two dense layers).  The kernel runs the two networks as pallas_calls and leaves
  the gather, the segment sums and the quotient to host operations; the reference is plain array code.

  Precondition: every float input finite, and every entry of the edge list a valid row number, 0 ≤ e < 100000.
  Outside that range the two programs read different rows (the kernel fills an out-of-range gather with a fill value,
  the reference clamps), so the range is part of the statement; the finiteness conjuncts are never opened.

  The three frames: each program runs to the end, nothing faults, and its argument arrays end as launched — for the
  two kernel programs from the run of their six items, for the reference from its run read back.  The idealization
  rewrote nothing, so there is nothing to preserve.  The equivalence: over the extended reals the kernel's first
  layer, computed as three 128-term contractions, is the reference's one 384-term contraction (a sum regrouped);
  everything else is the same operation on equal arrays, index by index.
-/
import proofs.«419366_j60232621359657_3_alg».proof.Defs
import proofs.«419366_j60232621359657_3_alg».proof.Proof.Gen.Kernel
import proofs.«419366_j60232621359657_3_alg».proof.Proof.Gen.Kernel.Skeleton
import proofs.«419366_j60232621359657_3_alg».proof.Proof.Gen.Kernel.Launch
import proofs.«419366_j60232621359657_3_alg».proof.Proof.Gen.Kernel.Regions
import proofs.«419366_j60232621359657_3_alg».proof.Proof.Gen.Kernel.Points
import proofs.«419366_j60232621359657_3_alg».proof.Proof.Gen.KernelIdeal
import proofs.«419366_j60232621359657_3_alg».proof.Proof.Gen.KernelIdeal.Skeleton
import proofs.«419366_j60232621359657_3_alg».proof.Proof.Gen.KernelIdeal.Launch
import proofs.«419366_j60232621359657_3_alg».proof.Proof.Gen.KernelIdeal.Regions
import proofs.«419366_j60232621359657_3_alg».proof.Proof.Gen.KernelIdeal.Points
import proofs.«419366_j60232621359657_3_alg».proof.Proof.Gen.ReferenceIdeal
import proofs.«419366_j60232621359657_3_alg».proof.Proof.Gen.Pre_finite_inputs
import proofs.«419366_j60232621359657_3_alg».proof.Proof.RefImports
import proofs.«419366_j60232621359657_3_alg».proof.Proof.Bits.Frames
import proofs.«419366_j60232621359657_3_alg».proof.Proof.Frames
import proofs.«419366_j60232621359657_3_alg».proof.Proof.Equal
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs to the end and leaves its arguments as launched. -/
theorem frame_kernel : Cert.frame_Kernel := fun m ρ _ => Cert.Kernel.Run.frame m ρ

/-- So does the idealized kernel program. -/
theorem frame_kernelIdeal : Cert.frame_KernelIdeal := fun m ρ _ => Cert.KernelIdeal.Run.frame m ρ

/-- The reference's run, its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on the arguments both programs end with the same two results: the kernel's buffers at its
    last boundary, which under the index range are the reference's last stages of the same arguments. -/
theorem algebraic : Cert.algebraic_KernelIdeal_ReferenceIdeal := by
  intro m ρ m' ρ' hpre hagree
  refine ⟨fun c => Cert.KernelIdeal.Run.afterCall1 m c (Proc.devRef .tc Cert.KernelIdeal.main_v34),
    fun c => Cert.KernelIdeal.Run.afterCall1 m c (Proc.devRef .tc Cert.KernelIdeal.main_v11_1), ?_, ?_⟩
  · exact (θ_run Cert.KernelIdeal.defs _ _).mono (fun r h c =>
      ⟨(h c _ (Cert.KernelIdeal.Run.mem_uc Cert.KernelIdeal.main_v34 (by decide))), (h c _ (Cert.KernelIdeal.Run.mem_uc Cert.KernelIdeal.main_v11_1 (by decide))),
       (h c _ (Cert.KernelIdeal.Run.mem_uc Cert.KernelIdeal.main_arg0 (by decide))).trans (Cert.KernelIdeal.Run.end_main_arg0 m c),
       (h c _ (Cert.KernelIdeal.Run.mem_uc Cert.KernelIdeal.main_arg1 (by decide))).trans (Cert.KernelIdeal.Run.end_main_arg1 m c),
       (h c _ (Cert.KernelIdeal.Run.mem_uc Cert.KernelIdeal.main_arg2 (by decide))).trans (Cert.KernelIdeal.Run.end_main_arg2 m c),
       (h c _ (Cert.KernelIdeal.Run.mem_uc Cert.KernelIdeal.main_arg3 (by decide))).trans (Cert.KernelIdeal.Run.end_main_arg3 m c),
       (h c _ (Cert.KernelIdeal.Run.mem_uc Cert.KernelIdeal.main_arg4 (by decide))).trans (Cert.KernelIdeal.Run.end_main_arg4 m c),
       (h c _ (Cert.KernelIdeal.Run.mem_uc Cert.KernelIdeal.main_arg5 (by decide))).trans (Cert.KernelIdeal.Run.end_main_arg5 m c),
       (h c _ (Cert.KernelIdeal.Run.mem_uc Cert.KernelIdeal.main_arg6 (by decide))).trans (Cert.KernelIdeal.Run.end_main_arg6 m c),
       (h c _ (Cert.KernelIdeal.Run.mem_uc Cert.KernelIdeal.main_arg7 (by decide))).trans (Cert.KernelIdeal.Run.end_main_arg7 m c),
       (h c _ (Cert.KernelIdeal.Run.mem_uc Cert.KernelIdeal.main_arg8 (by decide))).trans (Cert.KernelIdeal.Run.end_main_arg8 m c),
       (h c _ (Cert.KernelIdeal.Run.mem_uc Cert.KernelIdeal.main_arg9 (by decide))).trans (Cert.KernelIdeal.Run.end_main_arg9 m c),
       (h c _ (Cert.KernelIdeal.Run.mem_uc Cert.KernelIdeal.main_arg10 (by decide))).trans (Cert.KernelIdeal.Run.end_main_arg10 m c)⟩)
      (Cert.KernelIdeal.Run.run m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v59_eq, (hagree c).1, (hagree c).2.1, (hagree c).2.2.1, (hagree c).2.2.2.1, (hagree c).2.2.2.2.1,
        (hagree c).2.2.2.2.2.1, (hagree c).2.2.2.2.2.2.1, (hagree c).2.2.2.2.2.2.2.1, (hagree c).2.2.2.2.2.2.2.2.1,
        (hagree c).2.2.2.2.2.2.2.2.2.1, (hagree c).2.2.2.2.2.2.2.2.2.2]
      exact (Cert.KernelIdeal.Equal.out0_eq m hpre c).symm
    · rw [Cert.ReferenceIdeal.Read.val_main_v29_eq, (hagree c).1, (hagree c).2.1, (hagree c).2.2.1, (hagree c).2.2.2.1, (hagree c).2.2.2.2.1,
        (hagree c).2.2.2.2.2.1, (hagree c).2.2.2.2.2.2.1]
      exact (Cert.KernelIdeal.Equal.out1_eq m hpre c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
